-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256x256 .f32) (main_arg10 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1000x128 : Shape := ⟨2, ![1000, 128]⟩
abbrev S1000x256 : Shape := ⟨2, ![1000, 256]⟩
abbrev S1x256 : Shape := ⟨2, ![1, 256]⟩
abbrev S800000x256 : Shape := ⟨2, ![800000, 256]⟩
abbrev S50048x256 : Shape := ⟨2, ![50048, 256]⟩
abbrev S50048 : Shape := ⟨1, ![50048]⟩
abbrev S64 : Shape := ⟨1, ![64]⟩
abbrev S64x1 : Shape := ⟨2, ![64, 1]⟩
abbrev S1x50048 : Shape := ⟨2, ![1, 50048]⟩
abbrev S64x50048 : Shape := ⟨2, ![64, 50048]⟩
abbrev S64x256 : Shape := ⟨2, ![64, 256]⟩
abbrev S64x2944 : Shape := ⟨2, ![64, 2944]⟩
abbrev S2944x256 : Shape := ⟨2, ![2944, 256]⟩
abbrev S50000x1 : Shape := ⟨2, ![50000, 1]⟩

abbrev nBuf : Space → Nat
  | .hbm => 71
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S50000x128, .f32⟩
  | .hbm, ⟨29, _⟩ => ⟨S50000x256, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x256, .f32⟩
  | .hbm, ⟨39, _⟩ => ⟨S_, .f32⟩
  | .hbm, ⟨40, _⟩ => ⟨S50000x256, .f32⟩
  | .hbm, ⟨41, _⟩ => ⟨S800000x1, .i32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S_, .f32⟩
  | .hbm, ⟨47, _⟩ => ⟨S50048x256, .f32⟩
  | .hbm, ⟨48, _⟩ => ⟨S_, .i32⟩
  | .hbm, ⟨49, _⟩ => ⟨S_, .i32⟩
  | .hbm, ⟨50, _⟩ => ⟨S50048, .i32⟩
  | .hbm, ⟨51, _⟩ => ⟨S64, .i32⟩
  | .hbm, ⟨52, _⟩ => ⟨S64x1, .i32⟩
  | .hbm, ⟨53, _⟩ => ⟨S1x50048, .i32⟩
  | .hbm, ⟨54, _⟩ => ⟨S64x50048, .i32⟩
  | .hbm, ⟨55, _⟩ => ⟨S64x50048, .i32⟩
  | .hbm, ⟨56, _⟩ => ⟨S64x50048, .i1⟩
  | .hbm, ⟨57, _⟩ => ⟨S64x50048, .f32⟩
  | .hbm, ⟨58, _⟩ => ⟨S64x256, .f32⟩
  | .hbm, ⟨59, _⟩ => ⟨S_, .f32⟩
  | .hbm, ⟨60, _⟩ => ⟨S50000, .f32⟩
  | .hbm, ⟨61, _⟩ => ⟨S_, .f32⟩
  | .hbm, ⟨62, _⟩ => ⟨S64, .f32⟩
  | .hbm, ⟨63, _⟩ => ⟨S50000x1, .i32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64x1, .f32⟩
  | .hbm, ⟨69, _⟩ => ⟨S64x256, .f32⟩
  | .hbm, ⟨70, _⟩ => ⟨S64x256, .f32⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S1000x256, .f32⟩
  | .local _ .vmem, ⟨15, _⟩ => ⟨S1000x256, .f32⟩
  | .local _ .vmem, ⟨16, _⟩ => ⟨S64x2944, .f32⟩
  | .local _ .vmem, ⟨17, _⟩ => ⟨S64x2944, .f32⟩
  | .local _ .vmem, ⟨18, _⟩ => ⟨S2944x256, .f32⟩
  | .local _ .vmem, ⟨19, _⟩ => ⟨S2944x256, .f32⟩
  | .local _ .vmem, ⟨20, _⟩ => ⟨S64x256, .f32⟩
  | .local _ .vmem, ⟨21, _⟩ => ⟨S64x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_call0_v0 : Ref sig .tc := ⟨.hbm, 46, rfl⟩
abbrev main_v28 : Ref sig .tc := ⟨.hbm, 47, rfl⟩
abbrev main_c_5 : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![17], ![false]⟩

def k2_cond2 (i : grid2.Coords) : BitVec 1 :=
  let arg0 : BitVec 32 := BitVec.ofNat 32 (i 0).val
  let c16_i32 : BitVec 32 := 16#32
  let v15 : BitVec 1 := Scalar.cmpi .eq arg0 c16_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x2944 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2944x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  shapeCasts_S1000x256_S1000x256 : S1000x256.ShapeCasts S1000x256
  pads_S50000x256_S50048x256_0480_000 : S50000x256.Pads (![0, 0] : Fin 2 → Nat) ![48, 0] ![0, 0] S50048x256
  h_S_ : 0 < S_.numel
  pads_S50000_S50048_0480 : S50000.Pads (![0] : Fin 1 → Nat) ![48] ![0] S50048
  bcast_S64_S64x1_0 : S64.BroadcastsInDim S64x1 (![0] : Fin 1 → Fin S64x1.rank)
  bcast_S50048_S1x50048_1 : S50048.BroadcastsInDim S1x50048 (![1] : Fin 1 → Fin S1x50048.rank)
  bcast_S64x1_S64x50048_0_1 : S64x1.BroadcastsInDim S64x50048 (![0, 1] : Fin 2 → Fin S64x50048.rank)
  bcast_S1x50048_S64x50048_0_1 : S1x50048.BroadcastsInDim S64x50048 (![0, 1] : Fin 2 → Fin S64x50048.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x2944_S64x2944_0_0 : ∀ a, (![0, 0] : Fin 2 → Nat) a + S64x2944.size a ≤ S64x2944.size a
  h_S64x2944 : 0 < S64x2944.numel
  shapeCasts_S64x2944_S64x2944 : S64x2944.ShapeCasts S64x2944
  inb_S2944x256_S2944x256_0_0 : ∀ a, (![0, 0] : Fin 2 → Nat) a + S2944x256.size a ≤ S2944x256.size a
  h_S2944x256 : 0 < S2944x256.numel
  shapeCasts_S2944x256_S2944x256 : S2944x256.ShapeCasts S2944x256
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S64x1_S64x256_0_1 : S64x1.BroadcastsInDim S64x256 (![0, 1] : Fin 2 → Fin S64x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x256_S1000x256_1_0_0_1_n_n_wf : DotDims.WF S1000x128 S128x256 S1000x256 [1] [0] [0] [1] [] []
  dot_S1000x256_S256x256_S1000x256_1_0_0_1_n_n_wf : DotDims.WF S1000x256 S256x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S64x2944_S2944x256_S64x256_1_0_0_1_n_n_wf : DotDims.WF S64x2944 S2944x256 S64x256 [1] [0] [0] [1] [] []
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S50000x256.size a
  hwx1_5 : ∀ i : grid1.Coords, EltTy.bits .f32 = 32 ∨ (Rect.block (s := S50000x256) S1000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x2944.size a ≤ S64x50048.size a
  hwx2_0 : ∀ i : grid2.Coords, EltTy.bits .f32 = 32 ∨ (Rect.block (s := S64x50048) S64x2944.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2944x256.size a ≤ S50048x256.size a
  hwx2_1 : ∀ i : grid2.Coords, EltTy.bits .f32 = 32 ∨ (Rect.block (s := S50048x256) S2944x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S64x2944_S2944x256_S64x256_1_0_0_1_n_n : DotDims S64x2944 S2944x256 S64x256 where
  lhsContracting := [1]
  rhsContracting := [0]
  lhsNonContracting := [0]
  rhsNonContracting := [1]
  lhsBatch := []
  rhsBatch := []
  wf := dot_S64x2944_S2944x256_S64x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v14) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S64x2944.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2944x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S64x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S50000x128, .f32⟩
  | .hbm, ⟨29, _⟩ => ⟨S50000x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S50000x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S64x256, .f32⟩
  | .hbm, ⟨73, _⟩ => ⟨S50000x1, .i32⟩
  | .hbm, ⟨74, _⟩ => ⟨S64x256, .f32⟩
  | .hbm, ⟨75, _⟩ => ⟨S_, .f32⟩
  | .hbm, ⟨76, _⟩ => ⟨S50000, .f32⟩
  | .hbm, ⟨77, _⟩ => ⟨S_, .f32⟩
  | .hbm, ⟨78, _⟩ => ⟨S64, .f32⟩
  | .hbm, ⟨79, _⟩ => ⟨S50000x1, .i32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S64x1, .f32⟩
  | .hbm, ⟨85, _⟩ => ⟨S64x256, .f32⟩
  | .hbm, ⟨86, _⟩ => ⟨S64x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call2_cst : Ref sig .tc := ⟨.hbm, 61, rfl⟩
abbrev main_call2_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call3_cst : Ref sig .tc := ⟨.hbm, 68, rfl⟩
abbrev main_call3_v0 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.K.Mlp0.lean ====
/-
  The first perceptron call's half of the frame (pipeline 0: 50 row blocks of 1000 nodes), at the buffer contents V
  the call is entered from. A grid point t reads row block t of the node features and the four parameter arrays whole,
  and leaves in the output's staging buffer the perceptron of that row block; nothing else is touched.
-/
import proofs.«407579_j84164179132425_1_alg».proof.Proof.Gen.Kernel.Launch
import proofs.«407579_j84164179132425_1_alg».proof.Proof.Gen.Kernel.Skeleton
import proofs.«407579_j84164179132425_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: each staging buffer whole. -/
abbrev r0_x : Rect S1000x128 := Rect.unit (s := S1000x128) ![0, 0] S1000x128.size inb_S1000x128_S1000x128_0_0
abbrev r0_w1 : Rect S128x256 := Rect.unit (s := S128x256) ![0, 0] S128x256.size inb_S128x256_S128x256_0_0
abbrev r0_b : Rect S256 := Rect.unit (s := S256) ![0] S256.size inb_S256_S256_0
abbrev r0_w2 : Rect S256x256 := Rect.unit (s := S256x256) ![0, 0] S256x256.size inb_S256x256_S256x256_0_0
abbrev r0_o : Rect S1000x256 := Rect.unit (s := S1000x256) ![0, 0] S1000x256.size inb_S1000x256_S1000x256_0_0

/-- What the body leaves in the output's staging buffer, from the five input blocks: its one store. -/
def out0_5 (x0 : Vec F S1000x128 .f32) (x1 : Vec F S128x256 .f32) (x2 : Vec F S256 .f32) (x3 : Vec F S256x256 .f32)
    (x4 : Vec F S256 .f32) : Vec F S1000x256 .f32 :=
  View.canon [⟨r0_o, k0_pay1 (View.ld x0 r0_x) (View.ld x1 r0_w1) (View.ld x2 r0_b) (View.ld x3 r0_w2) (View.ld x4 r0_b)⟩]

/-- The pipeline's proof data: the arrays as the call finds them; after the body at point t every input buffer still at
    its block and the output buffer at the perceptron of the input blocks; the invariant says nothing beyond the scoped
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What the body finds in each input buffer -/

/-- Input window 0 (the row block, fetched at every point): its current buffer holds block t of the node features. -/
theorem holds0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1 (the first weight matrix, whole): fetched at point 0 only and left in place by the body, so its one
    buffer holds the matrix at every point. -/
theorem holds0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2 (the first bias, whole): as window 1. -/
theorem holds0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3 (the second weight matrix, whole): as window 1. -/
theorem holds0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4 (the second bias, whole): as window 1. -/
theorem holds0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The one store covers the output buffer -/

/-- The body's single store is of the whole 1000 x 256 buffer: every index lies in its rectangle. -/
theorem whole0_o (p : Vec F S1000x256 .f32) (y : S1000x256.Idx) :
    ∃ pc ∈ ([⟨r0_o, p⟩] : List (View.Piece (Elt F) S1000x256 .f32)), y ∈ pc.1.set :=
  View.cover_of_tiled [⟨r0_o, p⟩] S1000x256.size (by rfl) y

/-! ## The perceptron body's triple -/

set_option maxHeartbeats 4000000 in
/-- The body on whole staging buffers: the row block at x0, the two weight matrices at x1 and x3, the two biases at x2 and
    x4, the output buffer at anything. It loads the five inputs whole, loads the output buffer (a value it never uses), and
    stores the perceptron of the five loads over the whole output buffer; so it ends with the inputs as they were and the
    output at out0_5 of them. -/
theorem mlp0_triple (c : Dev nD) (E : Set ℕ) (i : grid0.Coords)
    (a0 : Memref sig .tc .vmem S1000x128 .f32) (h0 : a0.IsWhole) (a1 : Memref sig .tc .vmem S128x256 .f32) (h1 : a1.IsWhole)
    (a2 : Memref sig .tc .vmem S256 .f32) (h2 : a2.IsWhole) (a3 : Memref sig .tc .vmem S256x256 .f32) (h3 : a3.IsWhole)
    (a4 : Memref sig .tc .vmem S256 .f32) (h4 : a4.IsWhole) (a5 : Memref sig .tc .vmem S1000x256 .f32) (h5 : a5.IsWhole)
    (x0 : Vec F S1000x128 .f32) (x1 : Vec F S128x256 .f32) (x2 : Vec F S256 .f32) (x3 : Vec F S256x256 .f32)
    (x4 : Vec F S256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2 x3 x4)) -∗ K ⟨⟩))
      ⊢ wp frame (wpE (defs₀ (F := F)) Variants.none c none) E (cc0__mlp_kernel i a0 h0 a1 h1 a2 h2 a3 h3 a4 h4 a5 h5) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (whole0_o _)

/-! ## The body obligation at a generic point -/

/-- What the body is handed at point t: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back: the same invariant and debts, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks (holds0_0 … holds0_4), so the triple applies; the
    invariant and the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [holds0_0, holds0_1, holds0_2, holds0_3, holds0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (mlp0_triple c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Mlp1.lean ====
/-
  The second perceptron call's half of the frame (pipeline 1: 50 row blocks of 1000 nodes), at the buffer contents V
  the call is entered from. A grid point t reads row block t of the node features and the four parameter arrays whole,
  and leaves in the output's staging buffer the perceptron of that row block; nothing else is touched.
-/
import proofs.«407579_j84164179132425_1_alg».proof.Proof.Gen.Kernel.Launch
import proofs.«407579_j84164179132425_1_alg».proof.Proof.Gen.Kernel.Skeleton
import proofs.«407579_j84164179132425_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes: each staging buffer whole. -/
abbrev r1_x : Rect S1000x256 := Rect.unit (s := S1000x256) ![0, 0] S1000x256.size inb_S1000x256_S1000x256_0_0
abbrev r1_w1 : Rect S256x256 := Rect.unit (s := S256x256) ![0, 0] S256x256.size inb_S256x256_S256x256_0_0
abbrev r1_b : Rect S256 := Rect.unit (s := S256) ![0] S256.size inb_S256_S256_0
abbrev r1_w2 : Rect S256x256 := Rect.unit (s := S256x256) ![0, 0] S256x256.size inb_S256x256_S256x256_0_0
abbrev r1_o : Rect S1000x256 := Rect.unit (s := S1000x256) ![0, 0] S1000x256.size inb_S1000x256_S1000x256_0_0

/-- What the body leaves in the output's staging buffer, from the five input blocks: its one store. -/
def out1_5 (x0 : Vec F S1000x256 .f32) (x1 : Vec F S256x256 .f32) (x2 : Vec F S256 .f32) (x3 : Vec F S256x256 .f32)
    (x4 : Vec F S256 .f32) : Vec F S1000x256 .f32 :=
  View.canon [⟨r1_o, k1_pay1 (View.ld x0 r1_x) (View.ld x1 r1_w1) (View.ld x2 r1_b) (View.ld x3 r1_w2) (View.ld x4 r1_b)⟩]

/-- The pipeline's proof data: the arrays as the call finds them; after the body at point t every input buffer still at
    its block and the output buffer at the perceptron of the input blocks; the invariant says nothing beyond the scoped
    rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What the body finds in each input buffer -/

/-- Input window 0 (the row block, fetched at every point): its current buffer holds block t of the node features. -/
theorem holds1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the first weight matrix, whole): fetched at point 0 only and left in place by the body, so its one
    buffer holds the matrix at every point. -/
theorem holds1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2 (the first bias, whole): as window 1. -/
theorem holds1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3 (the second weight matrix, whole): as window 1. -/
theorem holds1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4 (the second bias, whole): as window 1. -/
theorem holds1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The one store covers the output buffer -/

/-- The body's single store is of the whole 1000 x 256 buffer: every index lies in its rectangle. -/
theorem whole1_o (p : Vec F S1000x256 .f32) (y : S1000x256.Idx) :
    ∃ pc ∈ ([⟨r1_o, p⟩] : List (View.Piece (Elt F) S1000x256 .f32)), y ∈ pc.1.set :=
  View.cover_of_tiled [⟨r1_o, p⟩] S1000x256.size (by rfl) y

/-! ## The perceptron body's triple -/

set_option maxHeartbeats 4000000 in
/-- The body on whole staging buffers: the row block at x0, the two weight matrices at x1 and x3, the two biases at x2 and
    x4, the output buffer at anything. It loads the five inputs whole, loads the output buffer (a value it never uses), and
    stores the perceptron of the five loads over the whole output buffer; so it ends with the inputs as they were and the
    output at out1_5 of them. -/
theorem mlp1_triple (c : Dev nD) (E : Set ℕ) (i : grid1.Coords)
    (a0 : Memref sig .tc .vmem S1000x256 .f32) (h0 : a0.IsWhole) (a1 : Memref sig .tc .vmem S256x256 .f32) (h1 : a1.IsWhole)
    (a2 : Memref sig .tc .vmem S256 .f32) (h2 : a2.IsWhole) (a3 : Memref sig .tc .vmem S256x256 .f32) (h3 : a3.IsWhole)
    (a4 : Memref sig .tc .vmem S256 .f32) (h4 : a4.IsWhole) (a5 : Memref sig .tc .vmem S1000x256 .f32) (h5 : a5.IsWhole)
    (x0 : Vec F S1000x256 .f32) (x1 : Vec F S256x256 .f32) (x2 : Vec F S256 .f32) (x3 : Vec F S256x256 .f32)
    (x4 : Vec F S256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__mlp_kernel i a0 h0 a1 h1 a2 h2 a3 h3 a4 h4 a5 h5) K := by
  simp only [cc1__mlp_kernel_eq_skeleton]; unfold cc1__mlp_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (whole1_o _)

/-! ## The body obligation at a generic point -/

/-- What the body is handed at point t: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks (holds1_0 … holds1_4), so the triple applies; the
    invariant and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [holds1_0, holds1_1, holds1_2, holds1_3, holds1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (mlp1_triple c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Pool.lean ====
/-
  The pooling call's half of the frame, at any float model.

  The call multiplies the one-hot membership matrix (64 × 50048) by the padded node features (50048 × 256), walking
  17 blocks of 2944 columns and adding each block product into a 64 × 256 accumulator held beside the windows. The
  accumulator is set to zero before the first product is added and copied to the result after the last. What is
  proved here, for any contents of the core's buffers when the call is entered: the value of the accumulator after
  every block, as a recursion over the blocks; that between blocks the accumulator is the only scoped buffer whose
  contents matter; that the body, block by block, carries this invariant forward; and that after the call the two
  inputs are unchanged and the result is the accumulator's last value.
-/
import proofs.«407579_j84164179132425_1_alg».proof.Proof.Gen.Kernel.Launch
import proofs.«407579_j84164179132425_1_alg».proof.Proof.Gen.Kernel.Skeleton
import proofs.«407579_j84164179132425_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call: the accumulated segment sums

The third call walks the 17 column blocks of the one-hot matrix (64 × 50048, blocks of 2944 columns) against the
matching row blocks of the padded features (50048 × 256) and adds each block product into a 64 × 256 accumulator that
lives beside the windows. The accumulator is zeroed at the first block and copied to the result window at the last. -/

/-! ## Which of the body's two branches a grid point takes -/

/-- The body's first branch (zero the accumulator) as the kernel computes its condition from the grid coordinate. -/
abbrev poolFirst (i : grid2.Coords) : Prop :=
  (Scalar.cmpi .ne (Scalar.extui (Scalar.cmpi .eq (BitVec.ofNat 32 (i 0).val) 0#32)) 0#32) = 1#1
/-- The body's second branch (copy the accumulator out). -/
abbrev poolLast (i : grid2.Coords) : Prop := k2_cond2 i = 1#1

/-- The first branch is taken at block 0 only. -/
theorem poolFirst_iff : ∀ t : Fin cfg2.N, poolFirst (grid2.coords t) ↔ t.val = 0 :=
  (by decide +kernel : ∀ t : Fin grid2.N, poolFirst (grid2.coords t) ↔ t.val = 0)
/-- The second branch is taken at block 16 only. -/
theorem poolLast_iff : ∀ t : Fin cfg2.N, poolLast (grid2.coords t) ↔ t.val = 16 :=
  (by decide +kernel : ∀ t : Fin grid2.N, poolLast (grid2.coords t) ↔ t.val = 16)

/-- The two input windows are live at every block. -/
theorem pool_live_onehot : ∀ t : Fin cfg2.N, cfg2.idle 0 (grid2.coords t) = false := by decide +kernel
theorem pool_live_feat : ∀ t : Fin cfg2.N, cfg2.idle 1 (grid2.coords t) = false := by decide +kernel
/-- The result window is idle wherever the copy-out branch is not taken, and is not written back there; -/
theorem pool_idle_result : ∀ t : Fin cfg2.N, ¬poolLast (grid2.coords t) → cfg2.idle 2 (grid2.coords t) = true := by decide +kernel
theorem pool_noFlush_result : ∀ t : Fin cfg2.N, ¬poolLast (grid2.coords t) → (cfg2.win 2).flush t = false := by decide +kernel
/-- it is live at the last block. -/
theorem pool_live_result : ∀ t : Fin cfg2.N, poolLast (grid2.coords t) → cfg2.idle 2 (grid2.coords t) = false := by decide +kernel

/-! ## The whole-buffer rectangle -/

theorem poolZeros : (![0, 0] : Fin 2 → Nat) = fun _ => 0 := funext fun a => by fin_cases a <;> rfl

/-- One store through the whole-buffer rectangle covers the 64 × 256 buffer, whatever was stored before it. -/
theorem poolAcc_cover (p : Vec F S64x256 .f32) (L : List (View.Piece (Elt F) S64x256 .f32)) (y : S64x256.Idx) :
    ∃ pc ∈ ((⟨Rect.unit ![0, 0] S64x256.size inb_S64x256_S64x256_0_0, p⟩ : View.Piece (Elt F) S64x256 .f32) :: L), y ∈ pc.1.set :=
  ⟨_, List.mem_cons_self, View.mem_set_unit_zero poolZeros inb_S64x256_S64x256_0_0 y⟩

/-! ## The body's three runs

Each is stated over whole memrefs at named contents: `x0` the one-hot block, `x1` the feature block, `xo` what the
result window's buffer holds, `xs` what the accumulator holds. -/

set_option maxHeartbeats 1000000 in
/-- A block strictly between the first and the last: the accumulator gains the block product; the result window's
    buffer is not touched. -/
theorem poolRun_mid (c : Dev nD) (E : Set ℕ) (i : grid2.Coords)
    (arg1 : Memref sig .tc .vmem S64x2944 .f32) (harg1 : arg1.IsWhole) (arg2 : Memref sig .tc .vmem S2944x256 .f32) (harg2 : arg2.IsWhole)
    (arg3 : Memref sig .tc .vmem S64x256 .f32) (harg3 : arg3.IsWhole) (arg4 : Memref sig .tc .vmem S64x256 .f32) (harg4 : arg4.IsWhole)
    (hc0 : ¬poolFirst i) (hc1 : ¬poolLast i)
    (x0 : Vec F S64x2944 .f32) (x1 : Vec F S2944x256 .f32) (xo : Vec F S64x256 .f32) (xs : Vec F S64x256 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k2_pay2 x0 x1 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (poolAcc_cover _ _), View.canon_unit_zero poolZeros]
  simp only [View.readAt_eq_ld, harg1.read_unread, harg2.read_unread, harg4.read_unread,
    View.ld_unit_zero (S := S64x2944) poolZeros, View.ld_unit_zero (S := S2944x256) poolZeros, View.ld_unit_zero (S := S64x256) poolZeros]

set_option maxHeartbeats 1000000 in
/-- The first block: the accumulator, whatever it held, is zeroed and then gains the block product; the result
    window's buffer is not touched. -/
theorem poolRun_first (c : Dev nD) (E : Set ℕ) (i : grid2.Coords)
    (arg1 : Memref sig .tc .vmem S64x2944 .f32) (harg1 : arg1.IsWhole) (arg2 : Memref sig .tc .vmem S2944x256 .f32) (harg2 : arg2.IsWhole)
    (arg3 : Memref sig .tc .vmem S64x256 .f32) (harg3 : arg3.IsWhole) (arg4 : Memref sig .tc .vmem S64x256 .f32) (harg4 : arg4.IsWhole)
    (hc0 : poolFirst i) (hc1 : ¬poolLast i)
    (x0 : Vec F S64x2944 .f32) (x1 : Vec F S2944x256 .f32) (xo : Vec F S64x256 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k2_pay2 x0 x1 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (poolAcc_cover _ _), View.canon_cons_unit_zero (S := S64x256) poolZeros]
  simp only [View.readAt_eq_ld, harg1.read_unread, harg2.read_unread, View.readCov_unit_zero (S := S64x256) _ poolZeros,
    View.ld_unit_zero (S := S64x2944) poolZeros, View.ld_unit_zero (S := S2944x256) poolZeros, View.ld_unit_zero (S := S64x256) poolZeros]

set_option maxHeartbeats 1000000 in
/-- The last block: the accumulator gains the block product and is then copied into the result window's buffer,
    whatever that held. -/
theorem poolRun_last (c : Dev nD) (E : Set ℕ) (i : grid2.Coords)
    (arg1 : Memref sig .tc .vmem S64x2944 .f32) (harg1 : arg1.IsWhole) (arg2 : Memref sig .tc .vmem S2944x256 .f32) (harg2 : arg2.IsWhole)
    (arg3 : Memref sig .tc .vmem S64x256 .f32) (harg3 : arg3.IsWhole) (arg4 : Memref sig .tc .vmem S64x256 .f32) (harg4 : arg4.IsWhole)
    (hc0 : ¬poolFirst i) (hc1 : poolLast i)
    (x0 : Vec F S64x2944 .f32) (x1 : Vec F S2944x256 .f32) (xs : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k2_pay2 x0 x1 xs)
            ∗ owns (c : Thread nD τ) arg4 fullShare (k2_pay2 x0 x1 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (poolAcc_cover _ _), View.canon_unit_zero poolZeros]
    simp only [View.readAt_eq_ld, harg1.read_unread, harg2.read_unread, harg4.read_unread, View.readCov_unit_zero (S := S64x256) _ poolZeros,
      View.ld_unit_zero (S := S64x2944) poolZeros, View.ld_unit_zero (S := S2944x256) poolZeros, View.ld_unit_zero (S := S64x256) poolZeros]
  iexists _; isplitr
  swap; · iexact HS
  ipureintro
  sl_unfold_words
  rw [View.read_writes_eq_canon _ _ _ (poolAcc_cover _ _), View.canon_unit_zero poolZeros]
  simp only [View.readAt_eq_ld, harg1.read_unread, harg2.read_unread, harg4.read_unread,
    View.ld_unit_zero (S := S64x2944) poolZeros, View.ld_unit_zero (S := S2944x256) poolZeros, View.ld_unit_zero (S := S64x256) poolZeros]

section Region
-- the TensorCore's buffer contents when the pooling call is entered
variable (V : (c : Dev nD) → (b : Ref sig .tc) → Buf (Elt F) ((c : Thread nD τ).loc b))

/-! ## The windows' blocks and the accumulated value -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after block `n`: zero plus the products of blocks `0 … n`, added in block order. -/
def acc2 (c : Dev nD) : (n : ℕ) → n < cfg2.N → Vec F S64x256 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) :
    acc2 V c 0 (by decide) = k2_pay2 (iblk2 V c 0 ⟨0, by decide⟩) (iblk2 V c 1 ⟨0, by decide⟩) (k2_pay1 (F := F)) := rfl

theorem acc2_succ (c : Dev nD) (n : ℕ) (h : n + 1 < cfg2.N) :
    acc2 V c (n + 1) h = k2_pay2 (iblk2 V c 0 ⟨n + 1, h⟩) (iblk2 V c 1 ⟨n + 1, h⟩) (acc2 V c n (by omega)) := rfl

/-- The accumulator after the first block, at a point known only to be the first. -/
theorem acc2_at_first (c : Dev nD) (t : Fin cfg2.N) (h : t.val = 0) :
    acc2 V c t.val t.isLt = k2_pay2 (iblk2 V c 0 t) (iblk2 V c 1 t) (k2_pay1 (F := F)) := by
  obtain ⟨n, hn⟩ := t
  cases n with
  | zero => rfl
  | succ n => exact absurd h (Nat.succ_ne_zero n)

/-- The accumulator after a later block: the block's product added to what the block before left. -/
theorem acc2_at_later (c : Dev nD) (t : Fin cfg2.N) (h : t.val ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h
  | succ n => rfl

/-! ## The invariant between blocks -/

/-- A scoped buffer of the core held whole at some contents. -/
abbrev poolHeldAny (c : Dev nD) (b : Ref sig .tc) : sProp 𝕄 :=
  iprop(∃ f : Buf (Elt F) ((c : Thread nD τ).loc b), ((c : Thread nD τ).loc b) ↦{fullShare} f)

/-- The accumulator: a whole scoped buffer of the kernel's own, passed beside the windows. -/
abbrev poolAccM : Memref sig .tc .vmem S64x256 .f32 := Memref.whole cc2_scratch0

/-- The staging buffers of the two earlier calls, which this call never touches, each at some contents. -/
def poolIdleStaging (c : Dev nD) : sProp 𝕄 :=
  iprop(poolHeldAny (F := F) c cc0_stg0_0 ∗ poolHeldAny (F := F) c cc0_stg0_1 ∗ poolHeldAny (F := F) c cc0_stg1_0 ∗ poolHeldAny (F := F) c cc0_stg2_0
    ∗ poolHeldAny (F := F) c cc0_stg3_0 ∗ poolHeldAny (F := F) c cc0_stg4_0 ∗ poolHeldAny (F := F) c cc0_stg5_0 ∗ poolHeldAny (F := F) c cc0_stg5_1
    ∗ poolHeldAny (F := F) c cc1_stg0_0 ∗ poolHeldAny (F := F) c cc1_stg0_1 ∗ poolHeldAny (F := F) c cc1_stg1_0 ∗ poolHeldAny (F := F) c cc1_stg2_0
    ∗ poolHeldAny (F := F) c cc1_stg3_0 ∗ poolHeldAny (F := F) c cc1_stg4_0 ∗ poolHeldAny (F := F) c cc1_stg5_0 ∗ poolHeldAny (F := F) c cc1_stg5_1)

/-- The class invariant taken apart: the earlier calls' staging buffers, the accumulator at some contents, the
    generator register at some state. -/
theorem PhiA2_split (c : Dev nD) :
    (Pipeline.ΦA spec2 c : sProp 𝕄)
      ⊢ iprop(poolIdleStaging (F := F) c ∗ (∃ d, owns (c : Thread nD τ) poolAccM fullShare d) ∗ (∃ r, prngReg c r)) := by
  unfold Pipeline.ΦA; rw [scopedRest2_eq]; simp only [poolAccM, owns_whole]
  iintro ⟨⟨H1, H2, H3, H4, H5, H6, H7, H8, H9, H10, H11, H12, H13, H14, H15, H16, HS⟩, Hg⟩
  isplitl [H1 H2 H3 H4 H5 H6 H7 H8 H9 H10 H11 H12 H13 H14 H15 H16]
  · unfold poolIdleStaging
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HS]; · iexact HS
  iexact Hg

/-- and put back together. -/
theorem PhiA2_join (c : Dev nD) :
    iprop(poolIdleStaging (F := F) c ∗ (∃ d, owns (c : Thread nD τ) poolAccM fullShare d) ∗ (∃ r, prngReg c r))
      ⊢ (Pipeline.ΦA spec2 c : sProp 𝕄) := by
  unfold Pipeline.ΦA; rw [scopedRest2_eq]; simp only [poolAccM, owns_whole]
  unfold poolIdleStaging
  iintro ⟨⟨H1, H2, H3, H4, H5, H6, H7, H8, H9, H10, H11, H12, H13, H14, H15, H16⟩, HS, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact HS

/-- The invariant before block `n`: before the first the class invariant (the accumulator at anything); afterwards
    the accumulator at what block `n - 1` left, the rest as in the class invariant. -/
def PhiPool (c : Dev nD) : (n : ℕ) → n ≤ cfg2.N → sProp 𝕄
  | 0, _ => Pipeline.ΦA spec2 c
  | n + 1, hn => iprop(poolIdleStaging (F := F) c ∗ owns (c : Thread nD τ) poolAccM fullShare (acc2 V c n hn) ∗ (∃ r, prngReg c r))

theorem PhiPool_zero (c : Dev nD) (n : ℕ) (h : n ≤ cfg2.N) (hz : n = 0) : PhiPool V c n h = Pipeline.ΦA spec2 c := by
  subst hz; rfl

theorem PhiPool_succ (c : Dev nD) (n : ℕ) (hn : n < cfg2.N) :
    PhiPool V c (n + 1) hn = iprop(poolIdleStaging (F := F) c ∗ owns (c : Thread nD τ) poolAccM fullShare (acc2 V c n hn) ∗ (∃ r, prngReg c r)) := rfl

theorem PhiPool_pos (c : Dev nD) (n : ℕ) (h : n ≤ cfg2.N) (hz : n ≠ 0) :
    PhiPool V c n h = iprop(poolIdleStaging (F := F) c ∗ owns (c : Thread nD τ) poolAccM fullShare (acc2 V c (n - 1) (by omega)) ∗ (∃ r, prngReg c r)) := by
  cases n with
  | zero => exact absurd rfl hz
  | succ n => rfl

/-! ## The proof data -/

/-- The pooling call's proof data on core `c`: the arrays as the call finds them; after the body at block `t` each
    input window's buffer at its block and the result window's at the accumulated value (consulted at the last
    block only: elsewhere the window is idle); the invariant `PhiPool`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiPool V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiPool_castSucc (c : Dev nD) (t : Fin cfg2.N) :
    (dat2 V c).Φ t.castSucc = PhiPool V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- Each input window's current buffer holds its block at every grid point: both are fetched at every point and
    neither is cut. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body obligation -/

/-- What the body is called with at block `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any block. The input windows hold their blocks; which run applies is read off the block's number.
    At the first block the class invariant hands the accumulator over at anything; at a later one the invariant
    hands it over at what the block before left. Every run returns it at this block's accumulated value. Where the
    copy-out branch is not taken the result window's buffer goes back as it came; at the last block it holds the
    accumulated value. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiPool V c (t.val + 1) t.isLt from rfl, PhiPool_succ]
  rw [show (dat2 V c).leavesExact 0 t = owns (c : Thread nD τ) (st2_0 t) fullShare ((dat2 V c).after 0 t) from by
        unfold Dat.leavesExact; rw [pool_live_onehot t], after2_0]
  rw [show (dat2 V c).leavesExact 1 t = owns (c : Thread nD τ) (st2_1 t) fullShare ((dat2 V c).after 1 t) from by
        unfold Dat.leavesExact; rw [pool_live_feat t], after2_1]
  have hN : t.val < 17 := lt_of_lt_of_eq t.isLt (show cfg2.N = 17 from N_2)
  by_cases hl : t.val = 16
  · have hz : t.val ≠ 0 := by omega
    have hc0 : ¬poolFirst (grid2.coords t) := fun h => hz ((poolFirst_iff t).mp h)
    have hc1 : poolLast (grid2.coords t) := (poolLast_iff t).mpr hl
    rw [show (dat2 V c).leavesExact 2 t = owns (c : Thread nD τ) (st2_2 t) fullShare ((dat2 V c).after 2 t) from by
          unfold Dat.leavesExact; rw [pool_live_result t hc1], after2_2]
    rw [acc2_at_later V c t hz, PhiPool_castSucc V c t, PhiPool_pos V c _ _ hz]
    iintro ⟨⟨Hidle, HS, Hg⟩, Ho, ⟨%d0, H0⟩, ⟨%d1, H1⟩, ⟨%d2, H2⟩⟩
    iapply (poolRun_last c Set.univ (grid2.coords t) _ _ _ _ _ _ _ _ hc0 hc1 (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [Hidle HS Hg]
    · isplitl [Hidle]; · iexact Hidle
      isplitl [HS]; · iexact HS
      iexact Hg
    isplitl [Ho]; · iexact Ho
    isplitl [H0]; · iexact H0
    isplitl [H1]; · iexact H1
    iexact H2
  · have hc1 : ¬poolLast (grid2.coords t) := fun h => hl ((poolLast_iff t).mp h)
    rw [Dat.leavesExact_idle (dat2 V c) 2 t (pool_idle_result t hc1) (pool_noFlush_result t hc1)]
    by_cases hz : t.val = 0
    · have hc0 : poolFirst (grid2.coords t) := (poolFirst_iff t).mpr hz
      rw [acc2_at_first V c t hz, PhiPool_castSucc V c t, PhiPool_zero V c _ _ hz]
      refine (sep_mono (PhiA2_split c) .rfl).trans ?_
      iintro ⟨⟨Hidle, HS, Hg⟩, Ho, ⟨%d0, H0⟩, ⟨%d1, H1⟩, ⟨%d2, H2⟩⟩
      iapply (poolRun_first c Set.univ (grid2.coords t) _ _ _ _ _ _ _ _ hc0 hc1 (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [Hidle HS Hg]
      · isplitl [Hidle]; · iexact Hidle
        isplitl [HS]; · iexact HS
        iexact Hg
      isplitl [Ho]; · iexact Ho
      isplitl [H0]; · iexact H0
      isplitl [H1]; · iexact H1
      iexists _; iexact H2
    · have hc0 : ¬poolFirst (grid2.coords t) := fun h => hz ((poolFirst_iff t).mp h)
      rw [acc2_at_later V c t hz, PhiPool_castSucc V c t, PhiPool_pos V c _ _ hz]
      iintro ⟨⟨Hidle, HS, Hg⟩, Ho, ⟨%d0, H0⟩, ⟨%d1, H1⟩, ⟨%d2, H2⟩⟩
      iapply (poolRun_mid c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [Hidle HS Hg]
      · isplitl [Hidle]; · iexact Hidle
        isplitl [HS]; · iexact HS
        iexact Hg
      isplitl [Ho]; · iexact Ho
      isplitl [H0]; · iexact H0
      isplitl [H1]; · iexact H1
      iexists _; iexact H2

/-- The library's body obligation, at every block. -/
theorem body_obligation2 (c : Dev nD) :
    Pipeline.BodyObligation (dat2 (F := F) V c) (defs₀ (F := F)) Variants.none () Set.univ := fun t => by
  rw [bigSep_W2, bigSep_W2]
  exact sound_body2 V c t

/-- What the launch hands the call is the invariant before the first block. -/
theorem hin2 (c : Dev nD) : Pipeline.ΦA spec2 c ⊢ (dat2 V c).Φ 0 := by
  rw [show (dat2 V c).Φ 0 = PhiPool V c 0 (Nat.zero_le _) from rfl, PhiPool_zero V c 0 _ rfl]

/-- The invariant with the accumulator at a named value yields the class invariant: the value is forgotten. -/
theorem PhiA2_of_named (c : Dev nD) (x : Vec F S64x256 .f32) :
    iprop(poolIdleStaging (F := F) c ∗ owns (c : Thread nD τ) poolAccM fullShare x ∗ (∃ r, prngReg c r)) ⊢ (Pipeline.ΦA spec2 c : sProp 𝕄) :=
  (show iprop(poolIdleStaging (F := F) c ∗ owns (c : Thread nD τ) poolAccM fullShare x ∗ (∃ r, prngReg c r))
      ⊢ (iprop(poolIdleStaging (F := F) c ∗ (∃ d, owns (c : Thread nD τ) poolAccM fullShare d) ∗ (∃ r, prngReg c r)) : sProp 𝕄) from by
    iintro ⟨Hidle, HS, Hg⟩
    isplitl [Hidle]; · iexact Hidle
    isplitl [HS]; · iexists _; iexact HS
    iexact Hg).trans (PhiA2_join c)

/-- After the last block the invariant gives the class invariant back. -/
theorem hout2 (c : Dev nD) : (dat2 V c).Φ (Fin.last cfg2.N) ⊢ Pipeline.ΦA spec2 c := by
  rw [show (dat2 V c).Φ (Fin.last cfg2.N) = PhiPool V c (Fin.last cfg2.N).val (Nat.le_of_lt_succ (Fin.last cfg2.N).isLt) from rfl,
    PhiPool_pos V c _ _ (by rw [Fin.val_last]; have : cfg2.N = 17 := N_2; omega)]
  exact PhiA2_of_named c _

/-! ## The arrays after the call -/

/-- The two inputs end as the call found them. -/
theorem arrAt2_in0 (c : Dev nD) : (dat2 V c).arrAt 0 cfg2.N = V c (Pipeline.arrRef spec2 0) :=
  ((dat2 V c).arrAt_in 0 rfl _).trans (A_eq2 V c 0)
theorem arrAt2_in1 (c : Dev nD) : (dat2 V c).arrAt 1 cfg2.N = V c (Pipeline.arrRef spec2 1) :=
  ((dat2 V c).arrAt_in 1 rfl _).trans (A_eq2 V c 1)

/-- The result window's one block sits at block index (0, 0) at every grid point: it is the whole array. -/
theorem pool_result_index : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- An index of the result array, seen through the window's block at any grid point, is itself. -/
theorem pool_result_emb (t : Fin cfg2.N) (j : S64x256.Idx) : ((cfg2.win 2).blk t).view.emb j = j := by
  obtain ⟨e0, e1⟩ := pool_result_index t
  funext a; apply Fin.ext
  match a with
  | ⟨0, _⟩ => show win2_2.index t (0 : Fin 2) * 64 + 1 * (j 0).val = (j 0).val; omega
  | ⟨1, _⟩ => show win2_2.index t (1 : Fin 2) * 256 + 1 * (j 1).val = (j 1).val; omega

/-- The result array after the call is the last accumulated value: its one block is the whole array, written
    back once, after the last block. -/
theorem arrAt2_out (c : Dev nD) : (dat2 V c).arrAt 2 cfg2.N = acc2 V c 16 (by decide) := by
  refine (dat2 V c).arrAt_eq_of_cover 2 (acc2 V c 16 (by decide)) (fun t hf => ?_) (fun i => ?_)
  · have ht : t.val = 16 := by
      have h := (flush2_2 t).mp hf
      have hN : t.val < 17 := lt_of_lt_of_eq t.isLt (show cfg2.N = 17 from N_2)
      omega
    obtain ⟨n, hn⟩ := t
    obtain rfl : n = 16 := ht
    show (cfg2.win 2).cut (grid2.coords ⟨16, hn⟩) ((dat2 V c).after 2 ⟨16, hn⟩) = _
    rw [after2_2]
    funext j
    show acc2 V c 16 hn j = acc2 V c 16 _ (((cfg2.win 2).blk ⟨16, hn⟩).view.emb j)
    rw [pool_result_emb]
  · refine ⟨⟨16, by decide⟩, (flush2_2 _).mpr rfl, ?_⟩
    have h := ((cfg2.win 2).blk ⟨16, by decide⟩).view.emb_mem_set i
    rw [pool_result_emb] at h
    exact h

end Region

end Cert.Kernel.Hand

end
-- ==== Proof.K.Run.lean ====
/-
  The whole run of @main, at any float instance: eight stretches of host operations and three Pallas calls, in program
  order. Between two items every unscoped buffer of the core is held at named contents: the launch memory, then each
  host stretch applied to what came before, then, after a Pallas call, the same except that the call's output array
  holds what its pipeline wrote back. Each call's pipeline certificate (its body obligation and proof data, from the
  three call modules) is packed as a segment record over that thread state, the segments are chained by the library's
  launch theorem, and the last thread state is read against the final memory: every execution terminates without a
  fault with every unscoped buffer at the last named contents. From that one fact come the frame (no item writes an
  argument array) and, in the value modules, the result array.
-/
import proofs.«407579_j84164179132425_1_alg».proof.Proof.Gen.Kernel.Launch
import proofs.«407579_j84164179132425_1_alg».proof.Proof.Gen.Kernel.Skeleton
import proofs.«407579_j84164179132425_1_alg».proof.Proof.Gen.Kernel.Points
import proofs.«407579_j84164179132425_1_alg».proof.Proof.Gen.Kernel.Regions
import proofs.«407579_j84164179132425_1_alg».proof.Proof.K.Mlp0
import proofs.«407579_j84164179132425_1_alg».proof.Proof.K.Mlp1
import proofs.«407579_j84164179132425_1_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- When call 0 returns: its windows' arrays at what the pipeline leaves (an input as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h

/-- When call 1 returns: its windows' arrays at what the pipeline leaves (an input as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
theorem W5_of (c : Dev nD) (r : Ref sig .tc) (h : r ∉ hostOps2_W) : W5 m c (Proc.devRef .tc r) = W4 m c (Proc.devRef .tc r) :=
  StableHlo.after_of_writes_sub hostOps2 _ hostOps2_writes h

/-- After the host stretch `hostOps2_1`. -/
abbrev W6 : Dev nD → Valuation τ sig (Elt F) := fun c => StableHlo.after hostOps2_1 (W5 m c)
abbrev V6 : (c : Dev nD) → (b : Ref sig .tc) → Buf (Elt F) ((c : Thread nD τ).loc b) := fun c b => W6 m c b
theorem W6_of (c : Dev nD) (r : Ref sig .tc) (h : r ∉ hostOps2_1_W) : W6 m c (Proc.devRef .tc r) = W5 m c (Proc.devRef .tc r) :=
  StableHlo.after_of_writes_sub hostOps2_1 _ hostOps2_1_writes h

/-- After the host stretch `hostOps2_2`. -/
abbrev W7 : Dev nD → Valuation τ sig (Elt F) := fun c => StableHlo.after hostOps2_2 (W6 m c)
abbrev V7 : (c : Dev nD) → (b : Ref sig .tc) → Buf (Elt F) ((c : Thread nD τ).loc b) := fun c b => W7 m c b
theorem W7_of (c : Dev nD) (r : Ref sig .tc) (h : r ∉ hostOps2_2_W) : W7 m c (Proc.devRef .tc r) = W6 m c (Proc.devRef .tc r) :=
  StableHlo.after_of_writes_sub hostOps2_2 _ hostOps2_2_writes h

/-- After the host stretch `hostOps2_3`. -/
abbrev W8 : Dev nD → Valuation τ sig (Elt F) := fun c => StableHlo.after hostOps2_3 (W7 m c)
abbrev V8 : (c : Dev nD) → (b : Ref sig .tc) → Buf (Elt F) ((c : Thread nD τ).loc b) := fun c b => W8 m c b
theorem W8_of (c : Dev nD) (r : Ref sig .tc) (h : r ∉ hostOps2_3_W) : W8 m c (Proc.devRef .tc r) = W7 m c (Proc.devRef .tc r) :=
  StableHlo.after_of_writes_sub hostOps2_3 _ hostOps2_3_writes h

/-- After the host stretch `hostOps2_4`. -/
abbrev W9 : Dev nD → Valuation τ sig (Elt F) := fun c => StableHlo.after hostOps2_4 (W8 m c)
abbrev V9 : (c : Dev nD) → (b : Ref sig .tc) → Buf (Elt F) ((c : Thread nD τ).loc b) := fun c b => W9 m c b
theorem W9_of (c : Dev nD) (r : Ref sig .tc) (h : r ∉ hostOps2_4_W) : W9 m c (Proc.devRef .tc r) = W8 m c (Proc.devRef .tc r) :=
  StableHlo.after_of_writes_sub hostOps2_4 _ hostOps2_4_writes h

/-- When call 2 returns: its windows' arrays at what the pipeline leaves (an input as entered, the output's write-backs
    folded), every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

/-- After the host stretch `hostOps3`. -/
abbrev W11 : Dev nD → Valuation τ sig (Elt F) := fun c => StableHlo.after hostOps3 (W10 m c)
abbrev V11 : (c : Dev nD) → (b : Ref sig .tc) → Buf (Elt F) ((c : Thread nD τ).loc b) := fun c b => W11 m c b
theorem W11_of (c : Dev nD) (r : Ref sig .tc) (h : r ∉ hostOps3_W) : W11 m c (Proc.devRef .tc r) = W10 m c (Proc.devRef .tc r) :=
  StableHlo.after_of_writes_sub hostOps3 _ hostOps3_writes h

/-! ## A Pallas call changes its output array only -/

/-- Call 0 leaves every buffer but its output `main_v15` as it found it: an input window's array ends as entered, a
    buffer that is no window's array is not touched. -/
theorem W2_keep (c : Dev nD) (b : Ref sig .tc) (hb : b ≠ main_v15) : W2 m c (Proc.devRef .tc b) = W1 m c (Proc.devRef .tc b) := by
  by_cases h : ∃ w, Pipeline.arrRef spec0 w = b
  · obtain ⟨w, rfl⟩ := h
    have hw : w ≠ 5 := fun e => hb (by rw [e])
    have hin : (cfg0.win w).isOut = false := by
      fin_cases w <;> first | rfl | exact absurd rfl hw
    exact (W2_arr m c w).trans (((dat0 (V1 m) c).arrAt_in w hin _).trans (A_eq0 (V1 m) c w))
  · exact W2_of_ne m c b fun w e => h ⟨w, e⟩

/-- Call 1 leaves every buffer but its output `main_v27` as it found it. -/
theorem W4_keep (c : Dev nD) (b : Ref sig .tc) (hb : b ≠ main_v27) : W4 m c (Proc.devRef .tc b) = W3 m c (Proc.devRef .tc b) := by
  by_cases h : ∃ w, Pipeline.arrRef spec1 w = b
  · obtain ⟨w, rfl⟩ := h
    have hw : w ≠ 5 := fun e => hb (by rw [e])
    have hin : (cfg1.win w).isOut = false := by
      fin_cases w <;> first | rfl | exact absurd rfl hw
    exact (W4_arr m c w).trans (((dat1 (V3 m) c).arrAt_in w hin _).trans (A_eq1 (V3 m) c w))
  · exact W4_of_ne m c b fun w e => h ⟨w, e⟩

/-- Call 2 leaves every buffer but its output `main_v37` as it found it. -/
theorem W10_keep (c : Dev nD) (b : Ref sig .tc) (hb : b ≠ main_v37) : W10 m c (Proc.devRef .tc b) = W9 m c (Proc.devRef .tc b) := by
  by_cases h : ∃ w, Pipeline.arrRef spec2 w = b
  · obtain ⟨w, rfl⟩ := h
    have hw : w ≠ 2 := fun e => hb (by rw [e])
    fin_cases w
    · exact (W10_arr m c 0).trans (arrAt2_in0 (V9 m) c)
    · exact (W10_arr m c 1).trans (arrAt2_in1 (V9 m) c)
    · exact absurd rfl hw
  · exact W10_of_ne m c b fun w e => h ⟨w, e⟩

/-! ## What no item writes keeps its launch contents -/

section Untouched
variable (c : Dev nD) (r : Ref sig .tc)

theorem W1_un (h0 : r ∉ hostOps0_W) : W1 m c (Proc.devRef .tc r) = m ((c : Thread nD τ).loc r) := W1_of m c r h0
theorem W2_un (h0 : r ∉ hostOps0_W) (hv15 : r ≠ main_v15) : W2 m c (Proc.devRef .tc r) = m ((c : Thread nD τ).loc r) :=
  (W2_keep m c r hv15).trans (W1_un m c r h0)
theorem W3_un (h0 : r ∉ hostOps0_W) (hv15 : r ≠ main_v15) (h1 : r ∉ hostOps1_W) :
    W3 m c (Proc.devRef .tc r) = m ((c : Thread nD τ).loc r) := (W3_of m c r h1).trans (W2_un m c r h0 hv15)
theorem W4_un (h0 : r ∉ hostOps0_W) (hv15 : r ≠ main_v15) (h1 : r ∉ hostOps1_W) (hv27 : r ≠ main_v27) :
    W4 m c (Proc.devRef .tc r) = m ((c : Thread nD τ).loc r) := (W4_keep m c r hv27).trans (W3_un m c r h0 hv15 h1)
theorem W9_un (h0 : r ∉ hostOps0_W) (hv15 : r ≠ main_v15) (h1 : r ∉ hostOps1_W) (hv27 : r ≠ main_v27)
    (h2 : r ∉ hostOps2_W) (h21 : r ∉ hostOps2_1_W) (h22 : r ∉ hostOps2_2_W) (h23 : r ∉ hostOps2_3_W) (h24 : r ∉ hostOps2_4_W) :
    W9 m c (Proc.devRef .tc r) = m ((c : Thread nD τ).loc r) :=
  (W9_of m c r h24).trans <| (W8_of m c r h23).trans <| (W7_of m c r h22).trans <| (W6_of m c r h21).trans <|
    (W5_of m c r h2).trans (W4_un m c r h0 hv15 h1 hv27)
theorem W11_un (h0 : r ∉ hostOps0_W) (hv15 : r ≠ main_v15) (h1 : r ∉ hostOps1_W) (hv27 : r ≠ main_v27)
    (h2 : r ∉ hostOps2_W) (h21 : r ∉ hostOps2_1_W) (h22 : r ∉ hostOps2_2_W) (h23 : r ∉ hostOps2_3_W) (h24 : r ∉ hostOps2_4_W)
    (hv37 : r ≠ main_v37) (h3 : r ∉ hostOps3_W) : W11 m c (Proc.devRef .tc r) = m ((c : Thread nD τ).loc r) :=
  (W11_of m c r h3).trans <| (W10_keep m c r hv37).trans (W9_un m c r h0 hv15 h1 hv27 h2 h21 h22 h23 h24)

end Untouched

/-! ## The proof data family and the thread state -/

/-- No pipeline has a prefetched table. -/
abbrev adm : (p : Fin 3) → (pcfgs (F := F) p).Adm := fun p => (cfgs p).toPCfg_adm
/-- Every pipeline's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The Pallas calls as segments -/

-- the library's lemmas are stated over the pinned configuration, which unifies with the printed one only when
-- unification may unfold plain definitions in a metavariable's type
set_option backward.isDefEq.respectTransparency.types false in
/-- Pallas call 0 as a segment: entered with every unscoped buffer at `W1`, left with them at `W2`. Its windows'
    arrays are split out of the unscoped buffers and put back at what the pipeline leaves; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- Pallas call 1 as a segment: entered with every unscoped buffer at `W3`, left with them at `W4`. Its windows'
    arrays are split out of the unscoped buffers and put back at what the pipeline leaves; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- Pallas call 2 as a segment: entered with every unscoped buffer at `W9`, left with them at `W10`. Its windows'
    arrays are split out of the unscoped buffers and put back at what the pipeline leaves; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec2 c ∗ ∃ r, prngReg c r) ⊢ (pdats m 2 c).Φ 0 := hin2 (V9 m) c
    iintro ⟨Hp, -, Hr⟩
    iapply h
    isplitl [Hr]; · iexact Hr
    iexact Hp
  hout c := by
    rw [Pipeline.ownSems0_none]
    have h : (pdats m 2 c).Φ (Fin.last _) ⊢ iprop(Pipeline.scopedRest spec2 c ∗ ∃ r, prngReg c r) := hout2 (V9 m) c
    iintro Hinv
    ihave H := h $$ Hinv
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m),
    .host (hseg hostOps3 hostOps3_sub hostOps3_fresh (W10 m)) ]

/-- @main is the run of the segments. -/
theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (W11 m c) ∗ ∃ r, prngReg c r)

variable (ρ : Dev nD → PrngReg)

set_option backward.isDefEq.respectTransparency.types false in
/-- THE RUN: from any memory with zero counters every weakly fair execution of @main terminates, nothing faulting, and
    the final memory holds every unscoped buffer at the last named contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ R c)
          ⊢ iprop(iprop(StableHlo.held (c : Thread nD τ) (Pipeline.ucRefs τ sig) (W11 m c) ∗ ∃ r, prngReg c r)
              ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- THE FRAME at any float instance: every execution of @main terminates without a fault and leaves each argument array
    as launched (no host operation and no Pallas call writes one). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W11_un m c main_arg0 (by decide) (by decide) (by decide) (by decide) (by decide) (by decide) (by decide) (by decide) (by decide) (by decide) (by decide)),
    (h c _ (mem_uc main_arg1 (by decide))).trans (W11_un m c main_arg1 (by decide) (by decide) (by decide) (by decide) (by decide) (by decide) (by decide) (by decide) (by decide) (by decide) (by decide)),
    (h c _ (mem_uc main_arg2 (by decide))).trans (W11_un m c main_arg2 (by decide) (by decide) (by decide) (by decide) (by decide) (by decide) (by decide) (by decide) (by decide) (by decide) (by decide)),
    (h c _ (mem_uc main_arg3 (by decide))).trans (W11_un m c main_arg3 (by decide) (by decide) (by decide) (by decide) (by decide) (by decide) (by decide) (by decide) (by decide) (by decide) (by decide)),
    (h c _ (mem_uc main_arg4 (by decide))).trans (W11_un m c main_arg4 (by decide) (by decide) (by decide) (by decide) (by decide) (by decide) (by decide) (by decide) (by decide) (by decide) (by decide)),
    (h c _ (mem_uc main_arg5 (by decide))).trans (W11_un m c main_arg5 (by decide) (by decide) (by decide) (by decide) (by decide) (by decide) (by decide) (by decide) (by decide) (by decide) (by decide)),
    (h c _ (mem_uc main_arg6 (by decide))).trans (W11_un m c main_arg6 (by decide) (by decide) (by decide) (by decide) (by decide) (by decide) (by decide) (by decide) (by decide) (by decide) (by decide)),
    (h c _ (mem_uc main_arg7 (by decide))).trans (W11_un m c main_arg7 (by decide) (by decide) (by decide) (by decide) (by decide) (by decide) (by decide) (by decide) (by decide) (by decide) (by decide)),
    (h c _ (mem_uc main_arg8 (by decide))).trans (W11_un m c main_arg8 (by decide) (by decide) (by decide) (by decide) (by decide) (by decide) (by decide) (by decide) (by decide) (by decide) (by decide)),
    (h c _ (mem_uc main_arg9 (by decide))).trans (W11_un m c main_arg9 (by decide) (by decide) (by decide) (by decide) (by decide) (by decide) (by decide) (by decide) (by decide) (by decide) (by decide)),
    (h c _ (mem_uc main_arg10 (by decide))).trans (W11_un m c main_arg10 (by decide) (by decide) (by decide) (by decide) (by decide) (by decide) (by decide) (by decide) (by decide) (by decide) (by decide))⟩)
    (run_all m ρ)

end Cert.Kernel.Hand

end
-- ==== Proof.KI.Mlp0.lean ====
/-
  The first perceptron call's half of the frame (pipeline 0: 50 row blocks of 1000 nodes), at the buffer contents V
  the call is entered from. A grid point t reads row block t of the node features and the four parameter arrays whole,
  and leaves in the output's staging buffer the perceptron of that row block; nothing else is touched.
-/
import proofs.«407579_j84164179132425_1_alg».proof.Proof.Gen.KernelIdeal.Launch
import proofs.«407579_j84164179132425_1_alg».proof.Proof.Gen.KernelIdeal.Skeleton
import proofs.«407579_j84164179132425_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: each staging buffer whole. -/
abbrev r0_x : Rect S1000x128 := Rect.unit (s := S1000x128) ![0, 0] S1000x128.size inb_S1000x128_S1000x128_0_0
abbrev r0_w1 : Rect S128x256 := Rect.unit (s := S128x256) ![0, 0] S128x256.size inb_S128x256_S128x256_0_0
abbrev r0_b : Rect S256 := Rect.unit (s := S256) ![0] S256.size inb_S256_S256_0
abbrev r0_w2 : Rect S256x256 := Rect.unit (s := S256x256) ![0, 0] S256x256.size inb_S256x256_S256x256_0_0
abbrev r0_o : Rect S1000x256 := Rect.unit (s := S1000x256) ![0, 0] S1000x256.size inb_S1000x256_S1000x256_0_0

/-- What the body leaves in the output's staging buffer, from the five input blocks: its one store. -/
def out0_5 (x0 : Vec F S1000x128 .f32) (x1 : Vec F S128x256 .f32) (x2 : Vec F S256 .f32) (x3 : Vec F S256x256 .f32)
    (x4 : Vec F S256 .f32) : Vec F S1000x256 .f32 :=
  View.canon [⟨r0_o, k0_pay1 (View.ld x0 r0_x) (View.ld x1 r0_w1) (View.ld x2 r0_b) (View.ld x3 r0_w2) (View.ld x4 r0_b)⟩]

/-- The pipeline's proof data: the arrays as the call finds them; after the body at point t every input buffer still at
    its block and the output buffer at the perceptron of the input blocks; the invariant says nothing beyond the scoped
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What the body finds in each input buffer -/

/-- Input window 0 (the row block, fetched at every point): its current buffer holds block t of the node features. -/
theorem holds0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1 (the first weight matrix, whole): fetched at point 0 only and left in place by the body, so its one
    buffer holds the matrix at every point. -/
theorem holds0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2 (the first bias, whole): as window 1. -/
theorem holds0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3 (the second weight matrix, whole): as window 1. -/
theorem holds0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4 (the second bias, whole): as window 1. -/
theorem holds0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The one store covers the output buffer -/

/-- The body's single store is of the whole 1000 x 256 buffer: every index lies in its rectangle. -/
theorem whole0_o (p : Vec F S1000x256 .f32) (y : S1000x256.Idx) :
    ∃ pc ∈ ([⟨r0_o, p⟩] : List (View.Piece (Elt F) S1000x256 .f32)), y ∈ pc.1.set :=
  View.cover_of_tiled [⟨r0_o, p⟩] S1000x256.size (by rfl) y

/-! ## The perceptron body's triple -/

set_option maxHeartbeats 4000000 in
/-- The body on whole staging buffers: the row block at x0, the two weight matrices at x1 and x3, the two biases at x2 and
    x4, the output buffer at anything. It loads the five inputs whole, loads the output buffer (a value it never uses), and
    stores the perceptron of the five loads over the whole output buffer; so it ends with the inputs as they were and the
    output at out0_5 of them. -/
theorem mlp0_triple (c : Dev nD) (E : Set ℕ) (i : grid0.Coords)
    (a0 : Memref sig .tc .vmem S1000x128 .f32) (h0 : a0.IsWhole) (a1 : Memref sig .tc .vmem S128x256 .f32) (h1 : a1.IsWhole)
    (a2 : Memref sig .tc .vmem S256 .f32) (h2 : a2.IsWhole) (a3 : Memref sig .tc .vmem S256x256 .f32) (h3 : a3.IsWhole)
    (a4 : Memref sig .tc .vmem S256 .f32) (h4 : a4.IsWhole) (a5 : Memref sig .tc .vmem S1000x256 .f32) (h5 : a5.IsWhole)
    (x0 : Vec F S1000x128 .f32) (x1 : Vec F S128x256 .f32) (x2 : Vec F S256 .f32) (x3 : Vec F S256x256 .f32)
    (x4 : Vec F S256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2 x3 x4)) -∗ K ⟨⟩))
      ⊢ wp frame (wpE (defs₀ (F := F)) Variants.none c none) E (cc0__mlp_kernel i a0 h0 a1 h1 a2 h2 a3 h3 a4 h4 a5 h5) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (whole0_o _)

/-! ## The body obligation at a generic point -/

/-- What the body is handed at point t: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back: the same invariant and debts, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks (holds0_0 … holds0_4), so the triple applies; the
    invariant and the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [holds0_0, holds0_1, holds0_2, holds0_3, holds0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (mlp0_triple c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Mlp1.lean ====
/-
  The second perceptron call's half of the frame (pipeline 1: 50 row blocks of 1000 nodes), at the buffer contents V
  the call is entered from. A grid point t reads row block t of the node features and the four parameter arrays whole,
  and leaves in the output's staging buffer the perceptron of that row block; nothing else is touched.
-/
import proofs.«407579_j84164179132425_1_alg».proof.Proof.Gen.KernelIdeal.Launch
import proofs.«407579_j84164179132425_1_alg».proof.Proof.Gen.KernelIdeal.Skeleton
import proofs.«407579_j84164179132425_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes: each staging buffer whole. -/
abbrev r1_x : Rect S1000x256 := Rect.unit (s := S1000x256) ![0, 0] S1000x256.size inb_S1000x256_S1000x256_0_0
abbrev r1_w1 : Rect S256x256 := Rect.unit (s := S256x256) ![0, 0] S256x256.size inb_S256x256_S256x256_0_0
abbrev r1_b : Rect S256 := Rect.unit (s := S256) ![0] S256.size inb_S256_S256_0
abbrev r1_w2 : Rect S256x256 := Rect.unit (s := S256x256) ![0, 0] S256x256.size inb_S256x256_S256x256_0_0
abbrev r1_o : Rect S1000x256 := Rect.unit (s := S1000x256) ![0, 0] S1000x256.size inb_S1000x256_S1000x256_0_0

/-- What the body leaves in the output's staging buffer, from the five input blocks: its one store. -/
def out1_5 (x0 : Vec F S1000x256 .f32) (x1 : Vec F S256x256 .f32) (x2 : Vec F S256 .f32) (x3 : Vec F S256x256 .f32)
    (x4 : Vec F S256 .f32) : Vec F S1000x256 .f32 :=
  View.canon [⟨r1_o, k1_pay1 (View.ld x0 r1_x) (View.ld x1 r1_w1) (View.ld x2 r1_b) (View.ld x3 r1_w2) (View.ld x4 r1_b)⟩]

/-- The pipeline's proof data: the arrays as the call finds them; after the body at point t every input buffer still at
    its block and the output buffer at the perceptron of the input blocks; the invariant says nothing beyond the scoped
    rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What the body finds in each input buffer -/

/-- Input window 0 (the row block, fetched at every point): its current buffer holds block t of the node features. -/
theorem holds1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the first weight matrix, whole): fetched at point 0 only and left in place by the body, so its one
    buffer holds the matrix at every point. -/
theorem holds1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2 (the first bias, whole): as window 1. -/
theorem holds1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3 (the second weight matrix, whole): as window 1. -/
theorem holds1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4 (the second bias, whole): as window 1. -/
theorem holds1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The one store covers the output buffer -/

/-- The body's single store is of the whole 1000 x 256 buffer: every index lies in its rectangle. -/
theorem whole1_o (p : Vec F S1000x256 .f32) (y : S1000x256.Idx) :
    ∃ pc ∈ ([⟨r1_o, p⟩] : List (View.Piece (Elt F) S1000x256 .f32)), y ∈ pc.1.set :=
  View.cover_of_tiled [⟨r1_o, p⟩] S1000x256.size (by rfl) y

/-! ## The perceptron body's triple -/

set_option maxHeartbeats 4000000 in
/-- The body on whole staging buffers: the row block at x0, the two weight matrices at x1 and x3, the two biases at x2 and
    x4, the output buffer at anything. It loads the five inputs whole, loads the output buffer (a value it never uses), and
    stores the perceptron of the five loads over the whole output buffer; so it ends with the inputs as they were and the
    output at out1_5 of them. -/
theorem mlp1_triple (c : Dev nD) (E : Set ℕ) (i : grid1.Coords)
    (a0 : Memref sig .tc .vmem S1000x256 .f32) (h0 : a0.IsWhole) (a1 : Memref sig .tc .vmem S256x256 .f32) (h1 : a1.IsWhole)
    (a2 : Memref sig .tc .vmem S256 .f32) (h2 : a2.IsWhole) (a3 : Memref sig .tc .vmem S256x256 .f32) (h3 : a3.IsWhole)
    (a4 : Memref sig .tc .vmem S256 .f32) (h4 : a4.IsWhole) (a5 : Memref sig .tc .vmem S1000x256 .f32) (h5 : a5.IsWhole)
    (x0 : Vec F S1000x256 .f32) (x1 : Vec F S256x256 .f32) (x2 : Vec F S256 .f32) (x3 : Vec F S256x256 .f32)
    (x4 : Vec F S256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__mlp_kernel i a0 h0 a1 h1 a2 h2 a3 h3 a4 h4 a5 h5) K := by
  simp only [cc1__mlp_kernel_eq_skeleton]; unfold cc1__mlp_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (whole1_o _)

/-! ## The body obligation at a generic point -/

/-- What the body is handed at point t: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks (holds1_0 … holds1_4), so the triple applies; the
    invariant and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [holds1_0, holds1_1, holds1_2, holds1_3, holds1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (mlp1_triple c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Pool.lean ====
/-
  The pooling call's half of the frame, at any float model.

  The call multiplies the one-hot membership matrix (64 × 50048) by the padded node features (50048 × 256), walking
  17 blocks of 2944 columns and adding each block product into a 64 × 256 accumulator held beside the windows. The
  accumulator is set to zero before the first product is added and copied to the result after the last. What is
  proved here, for any contents of the core's buffers when the call is entered: the value of the accumulator after
  every block, as a recursion over the blocks; that between blocks the accumulator is the only scoped buffer whose
  contents matter; that the body, block by block, carries this invariant forward; and that after the call the two
  inputs are unchanged and the result is the accumulator's last value.
-/
import proofs.«407579_j84164179132425_1_alg».proof.Proof.Gen.KernelIdeal.Launch
import proofs.«407579_j84164179132425_1_alg».proof.Proof.Gen.KernelIdeal.Skeleton
import proofs.«407579_j84164179132425_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call: the accumulated segment sums

The third call walks the 17 column blocks of the one-hot matrix (64 × 50048, blocks of 2944 columns) against the
matching row blocks of the padded features (50048 × 256) and adds each block product into a 64 × 256 accumulator that
lives beside the windows. The accumulator is zeroed at the first block and copied to the result window at the last. -/

/-! ## Which of the body's two branches a grid point takes -/

/-- The body's first branch (zero the accumulator) as the kernel computes its condition from the grid coordinate. -/
abbrev poolFirst (i : grid2.Coords) : Prop :=
  (Scalar.cmpi .ne (Scalar.extui (Scalar.cmpi .eq (BitVec.ofNat 32 (i 0).val) 0#32)) 0#32) = 1#1
/-- The body's second branch (copy the accumulator out). -/
abbrev poolLast (i : grid2.Coords) : Prop := k2_cond2 i = 1#1

/-- The first branch is taken at block 0 only. -/
theorem poolFirst_iff : ∀ t : Fin cfg2.N, poolFirst (grid2.coords t) ↔ t.val = 0 :=
  (by decide +kernel : ∀ t : Fin grid2.N, poolFirst (grid2.coords t) ↔ t.val = 0)
/-- The second branch is taken at block 16 only. -/
theorem poolLast_iff : ∀ t : Fin cfg2.N, poolLast (grid2.coords t) ↔ t.val = 16 :=
  (by decide +kernel : ∀ t : Fin grid2.N, poolLast (grid2.coords t) ↔ t.val = 16)

/-- The two input windows are live at every block. -/
theorem pool_live_onehot : ∀ t : Fin cfg2.N, cfg2.idle 0 (grid2.coords t) = false := by decide +kernel
theorem pool_live_feat : ∀ t : Fin cfg2.N, cfg2.idle 1 (grid2.coords t) = false := by decide +kernel
/-- The result window is idle wherever the copy-out branch is not taken, and is not written back there; -/
theorem pool_idle_result : ∀ t : Fin cfg2.N, ¬poolLast (grid2.coords t) → cfg2.idle 2 (grid2.coords t) = true := by decide +kernel
theorem pool_noFlush_result : ∀ t : Fin cfg2.N, ¬poolLast (grid2.coords t) → (cfg2.win 2).flush t = false := by decide +kernel
/-- it is live at the last block. -/
theorem pool_live_result : ∀ t : Fin cfg2.N, poolLast (grid2.coords t) → cfg2.idle 2 (grid2.coords t) = false := by decide +kernel

/-! ## The whole-buffer rectangle -/

theorem poolZeros : (![0, 0] : Fin 2 → Nat) = fun _ => 0 := funext fun a => by fin_cases a <;> rfl

/-- One store through the whole-buffer rectangle covers the 64 × 256 buffer, whatever was stored before it. -/
theorem poolAcc_cover (p : Vec F S64x256 .f32) (L : List (View.Piece (Elt F) S64x256 .f32)) (y : S64x256.Idx) :
    ∃ pc ∈ ((⟨Rect.unit ![0, 0] S64x256.size inb_S64x256_S64x256_0_0, p⟩ : View.Piece (Elt F) S64x256 .f32) :: L), y ∈ pc.1.set :=
  ⟨_, List.mem_cons_self, View.mem_set_unit_zero poolZeros inb_S64x256_S64x256_0_0 y⟩

/-! ## The body's three runs

Each is stated over whole memrefs at named contents: `x0` the one-hot block, `x1` the feature block, `xo` what the
result window's buffer holds, `xs` what the accumulator holds. -/

set_option maxHeartbeats 1000000 in
/-- A block strictly between the first and the last: the accumulator gains the block product; the result window's
    buffer is not touched. -/
theorem poolRun_mid (c : Dev nD) (E : Set ℕ) (i : grid2.Coords)
    (arg1 : Memref sig .tc .vmem S64x2944 .f32) (harg1 : arg1.IsWhole) (arg2 : Memref sig .tc .vmem S2944x256 .f32) (harg2 : arg2.IsWhole)
    (arg3 : Memref sig .tc .vmem S64x256 .f32) (harg3 : arg3.IsWhole) (arg4 : Memref sig .tc .vmem S64x256 .f32) (harg4 : arg4.IsWhole)
    (hc0 : ¬poolFirst i) (hc1 : ¬poolLast i)
    (x0 : Vec F S64x2944 .f32) (x1 : Vec F S2944x256 .f32) (xo : Vec F S64x256 .f32) (xs : Vec F S64x256 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k2_pay2 x0 x1 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (poolAcc_cover _ _), View.canon_unit_zero poolZeros]
  simp only [View.readAt_eq_ld, harg1.read_unread, harg2.read_unread, harg4.read_unread,
    View.ld_unit_zero (S := S64x2944) poolZeros, View.ld_unit_zero (S := S2944x256) poolZeros, View.ld_unit_zero (S := S64x256) poolZeros]

set_option maxHeartbeats 1000000 in
/-- The first block: the accumulator, whatever it held, is zeroed and then gains the block product; the result
    window's buffer is not touched. -/
theorem poolRun_first (c : Dev nD) (E : Set ℕ) (i : grid2.Coords)
    (arg1 : Memref sig .tc .vmem S64x2944 .f32) (harg1 : arg1.IsWhole) (arg2 : Memref sig .tc .vmem S2944x256 .f32) (harg2 : arg2.IsWhole)
    (arg3 : Memref sig .tc .vmem S64x256 .f32) (harg3 : arg3.IsWhole) (arg4 : Memref sig .tc .vmem S64x256 .f32) (harg4 : arg4.IsWhole)
    (hc0 : poolFirst i) (hc1 : ¬poolLast i)
    (x0 : Vec F S64x2944 .f32) (x1 : Vec F S2944x256 .f32) (xo : Vec F S64x256 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k2_pay2 x0 x1 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (poolAcc_cover _ _), View.canon_cons_unit_zero (S := S64x256) poolZeros]
  simp only [View.readAt_eq_ld, harg1.read_unread, harg2.read_unread, View.readCov_unit_zero (S := S64x256) _ poolZeros,
    View.ld_unit_zero (S := S64x2944) poolZeros, View.ld_unit_zero (S := S2944x256) poolZeros, View.ld_unit_zero (S := S64x256) poolZeros]

set_option maxHeartbeats 1000000 in
/-- The last block: the accumulator gains the block product and is then copied into the result window's buffer,
    whatever that held. -/
theorem poolRun_last (c : Dev nD) (E : Set ℕ) (i : grid2.Coords)
    (arg1 : Memref sig .tc .vmem S64x2944 .f32) (harg1 : arg1.IsWhole) (arg2 : Memref sig .tc .vmem S2944x256 .f32) (harg2 : arg2.IsWhole)
    (arg3 : Memref sig .tc .vmem S64x256 .f32) (harg3 : arg3.IsWhole) (arg4 : Memref sig .tc .vmem S64x256 .f32) (harg4 : arg4.IsWhole)
    (hc0 : ¬poolFirst i) (hc1 : poolLast i)
    (x0 : Vec F S64x2944 .f32) (x1 : Vec F S2944x256 .f32) (xs : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k2_pay2 x0 x1 xs)
            ∗ owns (c : Thread nD τ) arg4 fullShare (k2_pay2 x0 x1 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (poolAcc_cover _ _), View.canon_unit_zero poolZeros]
    simp only [View.readAt_eq_ld, harg1.read_unread, harg2.read_unread, harg4.read_unread, View.readCov_unit_zero (S := S64x256) _ poolZeros,
      View.ld_unit_zero (S := S64x2944) poolZeros, View.ld_unit_zero (S := S2944x256) poolZeros, View.ld_unit_zero (S := S64x256) poolZeros]
  iexists _; isplitr
  swap; · iexact HS
  ipureintro
  sl_unfold_words
  rw [View.read_writes_eq_canon _ _ _ (poolAcc_cover _ _), View.canon_unit_zero poolZeros]
  simp only [View.readAt_eq_ld, harg1.read_unread, harg2.read_unread, harg4.read_unread,
    View.ld_unit_zero (S := S64x2944) poolZeros, View.ld_unit_zero (S := S2944x256) poolZeros, View.ld_unit_zero (S := S64x256) poolZeros]

section Region
-- the TensorCore's buffer contents when the pooling call is entered
variable (V : (c : Dev nD) → (b : Ref sig .tc) → Buf (Elt F) ((c : Thread nD τ).loc b))

/-! ## The windows' blocks and the accumulated value -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after block `n`: zero plus the products of blocks `0 … n`, added in block order. -/
def acc2 (c : Dev nD) : (n : ℕ) → n < cfg2.N → Vec F S64x256 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) :
    acc2 V c 0 (by decide) = k2_pay2 (iblk2 V c 0 ⟨0, by decide⟩) (iblk2 V c 1 ⟨0, by decide⟩) (k2_pay1 (F := F)) := rfl

theorem acc2_succ (c : Dev nD) (n : ℕ) (h : n + 1 < cfg2.N) :
    acc2 V c (n + 1) h = k2_pay2 (iblk2 V c 0 ⟨n + 1, h⟩) (iblk2 V c 1 ⟨n + 1, h⟩) (acc2 V c n (by omega)) := rfl

/-- The accumulator after the first block, at a point known only to be the first. -/
theorem acc2_at_first (c : Dev nD) (t : Fin cfg2.N) (h : t.val = 0) :
    acc2 V c t.val t.isLt = k2_pay2 (iblk2 V c 0 t) (iblk2 V c 1 t) (k2_pay1 (F := F)) := by
  obtain ⟨n, hn⟩ := t
  cases n with
  | zero => rfl
  | succ n => exact absurd h (Nat.succ_ne_zero n)

/-- The accumulator after a later block: the block's product added to what the block before left. -/
theorem acc2_at_later (c : Dev nD) (t : Fin cfg2.N) (h : t.val ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h
  | succ n => rfl

/-! ## The invariant between blocks -/

/-- A scoped buffer of the core held whole at some contents. -/
abbrev poolHeldAny (c : Dev nD) (b : Ref sig .tc) : sProp 𝕄 :=
  iprop(∃ f : Buf (Elt F) ((c : Thread nD τ).loc b), ((c : Thread nD τ).loc b) ↦{fullShare} f)

/-- The accumulator: a whole scoped buffer of the kernel's own, passed beside the windows. -/
abbrev poolAccM : Memref sig .tc .vmem S64x256 .f32 := Memref.whole cc2_scratch0

/-- The staging buffers of the two earlier calls, which this call never touches, each at some contents. -/
def poolIdleStaging (c : Dev nD) : sProp 𝕄 :=
  iprop(poolHeldAny (F := F) c cc0_stg0_0 ∗ poolHeldAny (F := F) c cc0_stg0_1 ∗ poolHeldAny (F := F) c cc0_stg1_0 ∗ poolHeldAny (F := F) c cc0_stg2_0
    ∗ poolHeldAny (F := F) c cc0_stg3_0 ∗ poolHeldAny (F := F) c cc0_stg4_0 ∗ poolHeldAny (F := F) c cc0_stg5_0 ∗ poolHeldAny (F := F) c cc0_stg5_1
    ∗ poolHeldAny (F := F) c cc1_stg0_0 ∗ poolHeldAny (F := F) c cc1_stg0_1 ∗ poolHeldAny (F := F) c cc1_stg1_0 ∗ poolHeldAny (F := F) c cc1_stg2_0
    ∗ poolHeldAny (F := F) c cc1_stg3_0 ∗ poolHeldAny (F := F) c cc1_stg4_0 ∗ poolHeldAny (F := F) c cc1_stg5_0 ∗ poolHeldAny (F := F) c cc1_stg5_1)

/-- The class invariant taken apart: the earlier calls' staging buffers, the accumulator at some contents, the
    generator register at some state. -/
theorem PhiA2_split (c : Dev nD) :
    (Pipeline.ΦA spec2 c : sProp 𝕄)
      ⊢ iprop(poolIdleStaging (F := F) c ∗ (∃ d, owns (c : Thread nD τ) poolAccM fullShare d) ∗ (∃ r, prngReg c r)) := by
  unfold Pipeline.ΦA; rw [scopedRest2_eq]; simp only [poolAccM, owns_whole]
  iintro ⟨⟨H1, H2, H3, H4, H5, H6, H7, H8, H9, H10, H11, H12, H13, H14, H15, H16, HS⟩, Hg⟩
  isplitl [H1 H2 H3 H4 H5 H6 H7 H8 H9 H10 H11 H12 H13 H14 H15 H16]
  · unfold poolIdleStaging
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HS]; · iexact HS
  iexact Hg

/-- and put back together. -/
theorem PhiA2_join (c : Dev nD) :
    iprop(poolIdleStaging (F := F) c ∗ (∃ d, owns (c : Thread nD τ) poolAccM fullShare d) ∗ (∃ r, prngReg c r))
      ⊢ (Pipeline.ΦA spec2 c : sProp 𝕄) := by
  unfold Pipeline.ΦA; rw [scopedRest2_eq]; simp only [poolAccM, owns_whole]
  unfold poolIdleStaging
  iintro ⟨⟨H1, H2, H3, H4, H5, H6, H7, H8, H9, H10, H11, H12, H13, H14, H15, H16⟩, HS, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact HS

/-- The invariant before block `n`: before the first the class invariant (the accumulator at anything); afterwards
    the accumulator at what block `n - 1` left, the rest as in the class invariant. -/
def PhiPool (c : Dev nD) : (n : ℕ) → n ≤ cfg2.N → sProp 𝕄
  | 0, _ => Pipeline.ΦA spec2 c
  | n + 1, hn => iprop(poolIdleStaging (F := F) c ∗ owns (c : Thread nD τ) poolAccM fullShare (acc2 V c n hn) ∗ (∃ r, prngReg c r))

theorem PhiPool_zero (c : Dev nD) (n : ℕ) (h : n ≤ cfg2.N) (hz : n = 0) : PhiPool V c n h = Pipeline.ΦA spec2 c := by
  subst hz; rfl

theorem PhiPool_succ (c : Dev nD) (n : ℕ) (hn : n < cfg2.N) :
    PhiPool V c (n + 1) hn = iprop(poolIdleStaging (F := F) c ∗ owns (c : Thread nD τ) poolAccM fullShare (acc2 V c n hn) ∗ (∃ r, prngReg c r)) := rfl

theorem PhiPool_pos (c : Dev nD) (n : ℕ) (h : n ≤ cfg2.N) (hz : n ≠ 0) :
    PhiPool V c n h = iprop(poolIdleStaging (F := F) c ∗ owns (c : Thread nD τ) poolAccM fullShare (acc2 V c (n - 1) (by omega)) ∗ (∃ r, prngReg c r)) := by
  cases n with
  | zero => exact absurd rfl hz
  | succ n => rfl

/-! ## The proof data -/

/-- The pooling call's proof data on core `c`: the arrays as the call finds them; after the body at block `t` each
    input window's buffer at its block and the result window's at the accumulated value (consulted at the last
    block only: elsewhere the window is idle); the invariant `PhiPool`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiPool V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiPool_castSucc (c : Dev nD) (t : Fin cfg2.N) :
    (dat2 V c).Φ t.castSucc = PhiPool V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- Each input window's current buffer holds its block at every grid point: both are fetched at every point and
    neither is cut. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body obligation -/

/-- What the body is called with at block `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any block. The input windows hold their blocks; which run applies is read off the block's number.
    At the first block the class invariant hands the accumulator over at anything; at a later one the invariant
    hands it over at what the block before left. Every run returns it at this block's accumulated value. Where the
    copy-out branch is not taken the result window's buffer goes back as it came; at the last block it holds the
    accumulated value. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiPool V c (t.val + 1) t.isLt from rfl, PhiPool_succ]
  rw [show (dat2 V c).leavesExact 0 t = owns (c : Thread nD τ) (st2_0 t) fullShare ((dat2 V c).after 0 t) from by
        unfold Dat.leavesExact; rw [pool_live_onehot t], after2_0]
  rw [show (dat2 V c).leavesExact 1 t = owns (c : Thread nD τ) (st2_1 t) fullShare ((dat2 V c).after 1 t) from by
        unfold Dat.leavesExact; rw [pool_live_feat t], after2_1]
  have hN : t.val < 17 := lt_of_lt_of_eq t.isLt (show cfg2.N = 17 from N_2)
  by_cases hl : t.val = 16
  · have hz : t.val ≠ 0 := by omega
    have hc0 : ¬poolFirst (grid2.coords t) := fun h => hz ((poolFirst_iff t).mp h)
    have hc1 : poolLast (grid2.coords t) := (poolLast_iff t).mpr hl
    rw [show (dat2 V c).leavesExact 2 t = owns (c : Thread nD τ) (st2_2 t) fullShare ((dat2 V c).after 2 t) from by
          unfold Dat.leavesExact; rw [pool_live_result t hc1], after2_2]
    rw [acc2_at_later V c t hz, PhiPool_castSucc V c t, PhiPool_pos V c _ _ hz]
    iintro ⟨⟨Hidle, HS, Hg⟩, Ho, ⟨%d0, H0⟩, ⟨%d1, H1⟩, ⟨%d2, H2⟩⟩
    iapply (poolRun_last c Set.univ (grid2.coords t) _ _ _ _ _ _ _ _ hc0 hc1 (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [Hidle HS Hg]
    · isplitl [Hidle]; · iexact Hidle
      isplitl [HS]; · iexact HS
      iexact Hg
    isplitl [Ho]; · iexact Ho
    isplitl [H0]; · iexact H0
    isplitl [H1]; · iexact H1
    iexact H2
  · have hc1 : ¬poolLast (grid2.coords t) := fun h => hl ((poolLast_iff t).mp h)
    rw [Dat.leavesExact_idle (dat2 V c) 2 t (pool_idle_result t hc1) (pool_noFlush_result t hc1)]
    by_cases hz : t.val = 0
    · have hc0 : poolFirst (grid2.coords t) := (poolFirst_iff t).mpr hz
      rw [acc2_at_first V c t hz, PhiPool_castSucc V c t, PhiPool_zero V c _ _ hz]
      refine (sep_mono (PhiA2_split c) .rfl).trans ?_
      iintro ⟨⟨Hidle, HS, Hg⟩, Ho, ⟨%d0, H0⟩, ⟨%d1, H1⟩, ⟨%d2, H2⟩⟩
      iapply (poolRun_first c Set.univ (grid2.coords t) _ _ _ _ _ _ _ _ hc0 hc1 (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [Hidle HS Hg]
      · isplitl [Hidle]; · iexact Hidle
        isplitl [HS]; · iexact HS
        iexact Hg
      isplitl [Ho]; · iexact Ho
      isplitl [H0]; · iexact H0
      isplitl [H1]; · iexact H1
      iexists _; iexact H2
    · have hc0 : ¬poolFirst (grid2.coords t) := fun h => hz ((poolFirst_iff t).mp h)
      rw [acc2_at_later V c t hz, PhiPool_castSucc V c t, PhiPool_pos V c _ _ hz]
      iintro ⟨⟨Hidle, HS, Hg⟩, Ho, ⟨%d0, H0⟩, ⟨%d1, H1⟩, ⟨%d2, H2⟩⟩
      iapply (poolRun_mid c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [Hidle HS Hg]
      · isplitl [Hidle]; · iexact Hidle
        isplitl [HS]; · iexact HS
        iexact Hg
      isplitl [Ho]; · iexact Ho
      isplitl [H0]; · iexact H0
      isplitl [H1]; · iexact H1
      iexists _; iexact H2

/-- The library's body obligation, at every block. -/
theorem body_obligation2 (c : Dev nD) :
    Pipeline.BodyObligation (dat2 (F := F) V c) (defs₀ (F := F)) Variants.none () Set.univ := fun t => by
  rw [bigSep_W2, bigSep_W2]
  exact sound_body2 V c t

/-- What the launch hands the call is the invariant before the first block. -/
theorem hin2 (c : Dev nD) : Pipeline.ΦA spec2 c ⊢ (dat2 V c).Φ 0 := by
  rw [show (dat2 V c).Φ 0 = PhiPool V c 0 (Nat.zero_le _) from rfl, PhiPool_zero V c 0 _ rfl]

/-- The invariant with the accumulator at a named value yields the class invariant: the value is forgotten. -/
theorem PhiA2_of_named (c : Dev nD) (x : Vec F S64x256 .f32) :
    iprop(poolIdleStaging (F := F) c ∗ owns (c : Thread nD τ) poolAccM fullShare x ∗ (∃ r, prngReg c r)) ⊢ (Pipeline.ΦA spec2 c : sProp 𝕄) :=
  (show iprop(poolIdleStaging (F := F) c ∗ owns (c : Thread nD τ) poolAccM fullShare x ∗ (∃ r, prngReg c r))
      ⊢ (iprop(poolIdleStaging (F := F) c ∗ (∃ d, owns (c : Thread nD τ) poolAccM fullShare d) ∗ (∃ r, prngReg c r)) : sProp 𝕄) from by
    iintro ⟨Hidle, HS, Hg⟩
    isplitl [Hidle]; · iexact Hidle
    isplitl [HS]; · iexists _; iexact HS
    iexact Hg).trans (PhiA2_join c)

/-- After the last block the invariant gives the class invariant back. -/
theorem hout2 (c : Dev nD) : (dat2 V c).Φ (Fin.last cfg2.N) ⊢ Pipeline.ΦA spec2 c := by
  rw [show (dat2 V c).Φ (Fin.last cfg2.N) = PhiPool V c (Fin.last cfg2.N).val (Nat.le_of_lt_succ (Fin.last cfg2.N).isLt) from rfl,
    PhiPool_pos V c _ _ (by rw [Fin.val_last]; have : cfg2.N = 17 := N_2; omega)]
  exact PhiA2_of_named c _

/-! ## The arrays after the call -/

/-- The two inputs end as the call found them. -/
theorem arrAt2_in0 (c : Dev nD) : (dat2 V c).arrAt 0 cfg2.N = V c (Pipeline.arrRef spec2 0) :=
  ((dat2 V c).arrAt_in 0 rfl _).trans (A_eq2 V c 0)
theorem arrAt2_in1 (c : Dev nD) : (dat2 V c).arrAt 1 cfg2.N = V c (Pipeline.arrRef spec2 1) :=
  ((dat2 V c).arrAt_in 1 rfl _).trans (A_eq2 V c 1)

/-- The result window's one block sits at block index (0, 0) at every grid point: it is the whole array. -/
theorem pool_result_index : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- An index of the result array, seen through the window's block at any grid point, is itself. -/
theorem pool_result_emb (t : Fin cfg2.N) (j : S64x256.Idx) : ((cfg2.win 2).blk t).view.emb j = j := by
  obtain ⟨e0, e1⟩ := pool_result_index t
  funext a; apply Fin.ext
  match a with
  | ⟨0, _⟩ => show win2_2.index t (0 : Fin 2) * 64 + 1 * (j 0).val = (j 0).val; omega
  | ⟨1, _⟩ => show win2_2.index t (1 : Fin 2) * 256 + 1 * (j 1).val = (j 1).val; omega

/-- The result array after the call is the last accumulated value: its one block is the whole array, written
    back once, after the last block. -/
theorem arrAt2_out (c : Dev nD) : (dat2 V c).arrAt 2 cfg2.N = acc2 V c 16 (by decide) := by
  refine (dat2 V c).arrAt_eq_of_cover 2 (acc2 V c 16 (by decide)) (fun t hf => ?_) (fun i => ?_)
  · have ht : t.val = 16 := by
      have h := (flush2_2 t).mp hf
      have hN : t.val < 17 := lt_of_lt_of_eq t.isLt (show cfg2.N = 17 from N_2)
      omega
    obtain ⟨n, hn⟩ := t
    obtain rfl : n = 16 := ht
    show (cfg2.win 2).cut (grid2.coords ⟨16, hn⟩) ((dat2 V c).after 2 ⟨16, hn⟩) = _
    rw [after2_2]
    funext j
    show acc2 V c 16 hn j = acc2 V c 16 _ (((cfg2.win 2).blk ⟨16, hn⟩).view.emb j)
    rw [pool_result_emb]
  · refine ⟨⟨16, by decide⟩, (flush2_2 _).mpr rfl, ?_⟩
    have h := ((cfg2.win 2).blk ⟨16, by decide⟩).view.emb_mem_set i
    rw [pool_result_emb] at h
    exact h

end Region

end Cert.KernelIdeal.Hand

end
-- ==== Proof.KI.Run.lean ====
/-
  The whole run of @main, at any float instance: eight stretches of host operations and three Pallas calls, in program
  order. Between two items every unscoped buffer of the core is held at named contents: the launch memory, then each
  host stretch applied to what came before, then, after a Pallas call, the same except that the call's output array
  holds what its pipeline wrote back. Each call's pipeline certificate (its body obligation and proof data, from the
  three call modules) is packed as a segment record over that thread state, the segments are chained by the library's
  launch theorem, and the last thread state is read against the final memory: every execution terminates without a
  fault with every unscoped buffer at the last named contents. From that one fact come the frame (no item writes an
  argument array) and, in the value modules, the result array.
-/
import proofs.«407579_j84164179132425_1_alg».proof.Proof.Gen.KernelIdeal.Launch
import proofs.«407579_j84164179132425_1_alg».proof.Proof.Gen.KernelIdeal.Skeleton
import proofs.«407579_j84164179132425_1_alg».proof.Proof.Gen.KernelIdeal.Points
import proofs.«407579_j84164179132425_1_alg».proof.Proof.Gen.KernelIdeal.Regions
import proofs.«407579_j84164179132425_1_alg».proof.Proof.KI.Mlp0
import proofs.«407579_j84164179132425_1_alg».proof.Proof.KI.Mlp1
import proofs.«407579_j84164179132425_1_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- When call 0 returns: its windows' arrays at what the pipeline leaves (an input as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h

/-- When call 1 returns: its windows' arrays at what the pipeline leaves (an input as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
theorem W5_of (c : Dev nD) (r : Ref sig .tc) (h : r ∉ hostOps2_W) : W5 m c (Proc.devRef .tc r) = W4 m c (Proc.devRef .tc r) :=
  StableHlo.after_of_writes_sub hostOps2 _ hostOps2_writes h

/-- After the host stretch `hostOps2_1`. -/
abbrev W6 : Dev nD → Valuation τ sig (Elt F) := fun c => StableHlo.after hostOps2_1 (W5 m c)
abbrev V6 : (c : Dev nD) → (b : Ref sig .tc) → Buf (Elt F) ((c : Thread nD τ).loc b) := fun c b => W6 m c b
theorem W6_of (c : Dev nD) (r : Ref sig .tc) (h : r ∉ hostOps2_1_W) : W6 m c (Proc.devRef .tc r) = W5 m c (Proc.devRef .tc r) :=
  StableHlo.after_of_writes_sub hostOps2_1 _ hostOps2_1_writes h

/-- After the host stretch `hostOps2_2`. -/
abbrev W7 : Dev nD → Valuation τ sig (Elt F) := fun c => StableHlo.after hostOps2_2 (W6 m c)
abbrev V7 : (c : Dev nD) → (b : Ref sig .tc) → Buf (Elt F) ((c : Thread nD τ).loc b) := fun c b => W7 m c b
theorem W7_of (c : Dev nD) (r : Ref sig .tc) (h : r ∉ hostOps2_2_W) : W7 m c (Proc.devRef .tc r) = W6 m c (Proc.devRef .tc r) :=
  StableHlo.after_of_writes_sub hostOps2_2 _ hostOps2_2_writes h

/-- After the host stretch `hostOps2_3`. -/
abbrev W8 : Dev nD → Valuation τ sig (Elt F) := fun c => StableHlo.after hostOps2_3 (W7 m c)
abbrev V8 : (c : Dev nD) → (b : Ref sig .tc) → Buf (Elt F) ((c : Thread nD τ).loc b) := fun c b => W8 m c b
theorem W8_of (c : Dev nD) (r : Ref sig .tc) (h : r ∉ hostOps2_3_W) : W8 m c (Proc.devRef .tc r) = W7 m c (Proc.devRef .tc r) :=
  StableHlo.after_of_writes_sub hostOps2_3 _ hostOps2_3_writes h

/-- After the host stretch `hostOps2_4`. -/
abbrev W9 : Dev nD → Valuation τ sig (Elt F) := fun c => StableHlo.after hostOps2_4 (W8 m c)
abbrev V9 : (c : Dev nD) → (b : Ref sig .tc) → Buf (Elt F) ((c : Thread nD τ).loc b) := fun c b => W9 m c b
theorem W9_of (c : Dev nD) (r : Ref sig .tc) (h : r ∉ hostOps2_4_W) : W9 m c (Proc.devRef .tc r) = W8 m c (Proc.devRef .tc r) :=
  StableHlo.after_of_writes_sub hostOps2_4 _ hostOps2_4_writes h

/-- When call 2 returns: its windows' arrays at what the pipeline leaves (an input as entered, the output's write-backs
    folded), every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

/-- After the host stretch `hostOps3`. -/
abbrev W11 : Dev nD → Valuation τ sig (Elt F) := fun c => StableHlo.after hostOps3 (W10 m c)
abbrev V11 : (c : Dev nD) → (b : Ref sig .tc) → Buf (Elt F) ((c : Thread nD τ).loc b) := fun c b => W11 m c b
theorem W11_of (c : Dev nD) (r : Ref sig .tc) (h : r ∉ hostOps3_W) : W11 m c (Proc.devRef .tc r) = W10 m c (Proc.devRef .tc r) :=
  StableHlo.after_of_writes_sub hostOps3 _ hostOps3_writes h

/-! ## A Pallas call changes its output array only -/

/-- Call 0 leaves every buffer but its output `main_v15` as it found it: an input window's array ends as entered, a
    buffer that is no window's array is not touched. -/
theorem W2_keep (c : Dev nD) (b : Ref sig .tc) (hb : b ≠ main_v15) : W2 m c (Proc.devRef .tc b) = W1 m c (Proc.devRef .tc b) := by
  by_cases h : ∃ w, Pipeline.arrRef spec0 w = b
  · obtain ⟨w, rfl⟩ := h
    have hw : w ≠ 5 := fun e => hb (by rw [e])
    have hin : (cfg0.win w).isOut = false := by
      fin_cases w <;> first | rfl | exact absurd rfl hw
    exact (W2_arr m c w).trans (((dat0 (V1 m) c).arrAt_in w hin _).trans (A_eq0 (V1 m) c w))
  · exact W2_of_ne m c b fun w e => h ⟨w, e⟩

/-- Call 1 leaves every buffer but its output `main_v27` as it found it. -/
theorem W4_keep (c : Dev nD) (b : Ref sig .tc) (hb : b ≠ main_v27) : W4 m c (Proc.devRef .tc b) = W3 m c (Proc.devRef .tc b) := by
  by_cases h : ∃ w, Pipeline.arrRef spec1 w = b
  · obtain ⟨w, rfl⟩ := h
    have hw : w ≠ 5 := fun e => hb (by rw [e])
    have hin : (cfg1.win w).isOut = false := by
      fin_cases w <;> first | rfl | exact absurd rfl hw
    exact (W4_arr m c w).trans (((dat1 (V3 m) c).arrAt_in w hin _).trans (A_eq1 (V3 m) c w))
  · exact W4_of_ne m c b fun w e => h ⟨w, e⟩

/-- Call 2 leaves every buffer but its output `main_v37` as it found it. -/
theorem W10_keep (c : Dev nD) (b : Ref sig .tc) (hb : b ≠ main_v37) : W10 m c (Proc.devRef .tc b) = W9 m c (Proc.devRef .tc b) := by
  by_cases h : ∃ w, Pipeline.arrRef spec2 w = b
  · obtain ⟨w, rfl⟩ := h
    have hw : w ≠ 2 := fun e => hb (by rw [e])
    fin_cases w
    · exact (W10_arr m c 0).trans (arrAt2_in0 (V9 m) c)
    · exact (W10_arr m c 1).trans (arrAt2_in1 (V9 m) c)
    · exact absurd rfl hw
  · exact W10_of_ne m c b fun w e => h ⟨w, e⟩

/-! ## What no item writes keeps its launch contents -/

section Untouched
variable (c : Dev nD) (r : Ref sig .tc)

theorem W1_un (h0 : r ∉ hostOps0_W) : W1 m c (Proc.devRef .tc r) = m ((c : Thread nD τ).loc r) := W1_of m c r h0
theorem W2_un (h0 : r ∉ hostOps0_W) (hv15 : r ≠ main_v15) : W2 m c (Proc.devRef .tc r) = m ((c : Thread nD τ).loc r) :=
  (W2_keep m c r hv15).trans (W1_un m c r h0)
theorem W3_un (h0 : r ∉ hostOps0_W) (hv15 : r ≠ main_v15) (h1 : r ∉ hostOps1_W) :
    W3 m c (Proc.devRef .tc r) = m ((c : Thread nD τ).loc r) := (W3_of m c r h1).trans (W2_un m c r h0 hv15)
theorem W4_un (h0 : r ∉ hostOps0_W) (hv15 : r ≠ main_v15) (h1 : r ∉ hostOps1_W) (hv27 : r ≠ main_v27) :
    W4 m c (Proc.devRef .tc r) = m ((c : Thread nD τ).loc r) := (W4_keep m c r hv27).trans (W3_un m c r h0 hv15 h1)
theorem W9_un (h0 : r ∉ hostOps0_W) (hv15 : r ≠ main_v15) (h1 : r ∉ hostOps1_W) (hv27 : r ≠ main_v27)
    (h2 : r ∉ hostOps2_W) (h21 : r ∉ hostOps2_1_W) (h22 : r ∉ hostOps2_2_W) (h23 : r ∉ hostOps2_3_W) (h24 : r ∉ hostOps2_4_W) :
    W9 m c (Proc.devRef .tc r) = m ((c : Thread nD τ).loc r) :=
  (W9_of m c r h24).trans <| (W8_of m c r h23).trans <| (W7_of m c r h22).trans <| (W6_of m c r h21).trans <|
    (W5_of m c r h2).trans (W4_un m c r h0 hv15 h1 hv27)
theorem W11_un (h0 : r ∉ hostOps0_W) (hv15 : r ≠ main_v15) (h1 : r ∉ hostOps1_W) (hv27 : r ≠ main_v27)
    (h2 : r ∉ hostOps2_W) (h21 : r ∉ hostOps2_1_W) (h22 : r ∉ hostOps2_2_W) (h23 : r ∉ hostOps2_3_W) (h24 : r ∉ hostOps2_4_W)
    (hv37 : r ≠ main_v37) (h3 : r ∉ hostOps3_W) : W11 m c (Proc.devRef .tc r) = m ((c : Thread nD τ).loc r) :=
  (W11_of m c r h3).trans <| (W10_keep m c r hv37).trans (W9_un m c r h0 hv15 h1 hv27 h2 h21 h22 h23 h24)

end Untouched

/-! ## The proof data family and the thread state -/

/-- No pipeline has a prefetched table. -/
abbrev adm : (p : Fin 3) → (pcfgs (F := F) p).Adm := fun p => (cfgs p).toPCfg_adm
/-- Every pipeline's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The Pallas calls as segments -/

-- the library's lemmas are stated over the pinned configuration, which unifies with the printed one only when
-- unification may unfold plain definitions in a metavariable's type
set_option backward.isDefEq.respectTransparency.types false in
/-- Pallas call 0 as a segment: entered with every unscoped buffer at `W1`, left with them at `W2`. Its windows'
    arrays are split out of the unscoped buffers and put back at what the pipeline leaves; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- Pallas call 1 as a segment: entered with every unscoped buffer at `W3`, left with them at `W4`. Its windows'
    arrays are split out of the unscoped buffers and put back at what the pipeline leaves; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- Pallas call 2 as a segment: entered with every unscoped buffer at `W9`, left with them at `W10`. Its windows'
    arrays are split out of the unscoped buffers and put back at what the pipeline leaves; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec2 c ∗ ∃ r, prngReg c r) ⊢ (pdats m 2 c).Φ 0 := hin2 (V9 m) c
    iintro ⟨Hp, -, Hr⟩
    iapply h
    isplitl [Hr]; · iexact Hr
    iexact Hp
  hout c := by
    rw [Pipeline.ownSems0_none]
    have h : (pdats m 2 c).Φ (Fin.last _) ⊢ iprop(Pipeline.scopedRest spec2 c ∗ ∃ r, prngReg c r) := hout2 (V9 m) c
    iintro Hinv
    ihave H := h $$ Hinv
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m),
    .host (hseg hostOps3 hostOps3_sub hostOps3_fresh (W10 m)) ]

/-- @main is the run of the segments. -/
theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (W11 m c) ∗ ∃ r, prngReg c r)

variable (ρ : Dev nD → PrngReg)

set_option backward.isDefEq.respectTransparency.types false in
/-- THE RUN: from any memory with zero counters every weakly fair execution of @main terminates, nothing faulting, and
    the final memory holds every unscoped buffer at the last named contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ R c)
          ⊢ iprop(iprop(StableHlo.held (c : Thread nD τ) (Pipeline.ucRefs τ sig) (W11 m c) ∗ ∃ r, prngReg c r)
              ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- THE FRAME at any float instance: every execution of @main terminates without a fault and leaves each argument array
    as launched (no host operation and no Pallas call writes one). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W11_un m c main_arg0 (by decide) (by decide) (by decide) (by decide) (by decide) (by decide) (by decide) (by decide) (by decide) (by decide) (by decide)),
    (h c _ (mem_uc main_arg1 (by decide))).trans (W11_un m c main_arg1 (by decide) (by decide) (by decide) (by decide) (by decide) (by decide) (by decide) (by decide) (by decide) (by decide) (by decide)),
    (h c _ (mem_uc main_arg2 (by decide))).trans (W11_un m c main_arg2 (by decide) (by decide) (by decide) (by decide) (by decide) (by decide) (by decide) (by decide) (by decide) (by decide) (by decide)),
    (h c _ (mem_uc main_arg3 (by decide))).trans (W11_un m c main_arg3 (by decide) (by decide) (by decide) (by decide) (by decide) (by decide) (by decide) (by decide) (by decide) (by decide) (by decide)),
    (h c _ (mem_uc main_arg4 (by decide))).trans (W11_un m c main_arg4 (by decide) (by decide) (by decide) (by decide) (by decide) (by decide) (by decide) (by decide) (by decide) (by decide) (by decide)),
    (h c _ (mem_uc main_arg5 (by decide))).trans (W11_un m c main_arg5 (by decide) (by decide) (by decide) (by decide) (by decide) (by decide) (by decide) (by decide) (by decide) (by decide) (by decide)),
    (h c _ (mem_uc main_arg6 (by decide))).trans (W11_un m c main_arg6 (by decide) (by decide) (by decide) (by decide) (by decide) (by decide) (by decide) (by decide) (by decide) (by decide) (by decide)),
    (h c _ (mem_uc main_arg7 (by decide))).trans (W11_un m c main_arg7 (by decide) (by decide) (by decide) (by decide) (by decide) (by decide) (by decide) (by decide) (by decide) (by decide) (by decide)),
    (h c _ (mem_uc main_arg8 (by decide))).trans (W11_un m c main_arg8 (by decide) (by decide) (by decide) (by decide) (by decide) (by decide) (by decide) (by decide) (by decide) (by decide) (by decide)),
    (h c _ (mem_uc main_arg9 (by decide))).trans (W11_un m c main_arg9 (by decide) (by decide) (by decide) (by decide) (by decide) (by decide) (by decide) (by decide) (by decide) (by decide) (by decide)),
    (h c _ (mem_uc main_arg10 (by decide))).trans (W11_un m c main_arg10 (by decide) (by decide) (by decide) (by decide) (by decide) (by decide) (by decide) (by decide) (by decide) (by decide) (by decide))⟩)
    (run_all m ρ)

end Cert.KernelIdeal.Hand

end
-- ==== Proof.Spec.lean ====
/-
  The mathematics both programs compute, index by index on the extended reals.

  A graph-isomorphism layer sends node features X to relu (relu (X' · W₁ + b₁) · W₂ + b₂), where X' = X + (sum of the
  neighbours' rows) is formed outside the layers below; the network ends by summing node rows per graph and dividing
  by the graph's node count. The two programs differ only in how a layer's matrix products are tiled (row blocks of
  1000 against one product) and in how the per-graph sum is taken (a 0/1 membership matrix times the node rows,
  accumulated over column blocks, against a sum over the nodes whose graph id matches). Here are the two whole-array
  functions those pieces are compared through.
-/
import Idealize.ShloMosaic.PureOps.Ideal
import Idealize.ShloMosaic.Lib.ValueIdx

noncomputable section

namespace Cert.Spec

open Idealize.ShloMosaic Idealize.ShloMosaic.ValueIdx

/-- One dense layer with the rectifier: entry (r, c) is max (∑ₖ X[r,k] · W[k,c] + b[c]) 0. -/
def dense {M K N : Nat} (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => max ((∑ k : Fin K, X (ix2 (i 0 : Fin M) k) * W (ix2 k (i 1 : Fin N))) + b (ix1 (i 1 : Fin N))) 0

/-- The two-layer perceptron of one graph layer, on whole arrays. -/
def mlp {M K N : Nat} (X : (⟨2, ![M, K]⟩ : Shape).Idx → EReal) (W₁ : (⟨2, ![K, N]⟩ : Shape).Idx → EReal)
    (b₁ : (⟨1, ![N]⟩ : Shape).Idx → EReal) (W₂ : (⟨2, ![N, N]⟩ : Shape).Idx → EReal)
    (b₂ : (⟨1, ![N]⟩ : Shape).Idx → EReal) : (⟨2, ![M, N]⟩ : Shape).Idx → EReal :=
  dense (dense X W₁ b₁) W₂ b₂

/-- A membership matrix times the node rows: entry (g, d) is ∑ₙ P[g,n] · H[n,d]. -/
def pool {G N D : Nat} (P : (⟨2, ![G, N]⟩ : Shape).Idx → EReal) (H : (⟨2, ![N, D]⟩ : Shape).Idx → EReal) :
    (⟨2, ![G, D]⟩ : Shape).Idx → EReal :=
  fun i => ∑ n : Fin N, P (ix2 (i 0 : Fin G) n) * H (ix2 n (i 1 : Fin D))

theorem dense_apply {M K N : Nat} (X : (⟨2, ![M, K]⟩ : Shape).Idx → EReal) (W : (⟨2, ![K, N]⟩ : Shape).Idx → EReal)
    (b : (⟨1, ![N]⟩ : Shape).Idx → EReal) (r : Fin M) (c : Fin N) :
    dense X W b (ix2 r c) = max ((∑ k : Fin K, X (ix2 r k) * W (ix2 k c)) + b (ix1 c)) 0 := rfl

theorem pool_apply {G N D : Nat} (P : (⟨2, ![G, N]⟩ : Shape).Idx → EReal) (H : (⟨2, ![N, D]⟩ : Shape).Idx → EReal)
    (g : Fin G) (d : Fin D) : pool P H (ix2 g d) = ∑ n : Fin N, P (ix2 g n) * H (ix2 n d) := rfl

end Cert.Spec

end
-- ==== Proof.KI.MlpPayload.lean ====
/-
  The two perceptron payloads, read index by index on the extended reals.

  A perceptron call's one store writes, for a row block X of 1000 nodes, relu (relu (X · W₁ + b₁) · W₂ + b₂): the narrowing
  of an operand to sixteen bits is the identity on the extended reals, a product accumulated into the zero splat is the
  plain sum over the contracted axis, a bias is its vector repeated down the rows, and the rectifier is the maximum with
  the zero splat. So each layer of the payload is the dense layer of the specification, and the payload is the two-layer
  perceptron of its five operands.
-/
import proofs.«407579_j84164179132425_1_alg».proof.Proof.Spec
import proofs.«407579_j84164179132425_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The operand indices of the two products

  Both products contract the left operand's columns against the right operand's rows. At output index (r, c) and
  contraction coordinate k the left operand is read at (r, k) and the right operand at (k, c); one lemma per axis. -/

/-- Left operand of the 128-deep product, row axis: the output's row. -/
theorem prodK128_lhs_axis0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide),
    dif_pos (show (0 : Fin S1000x128.rank) ∈ dot_S1000x128_S128x256_S1000x256_1_0_0_1_n_n.lhsNonContracting by decide)]
  rfl

/-- Left operand of the 128-deep product, column axis: the contraction coordinate. -/
theorem prodK128_lhs_axis1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q

/-- Right operand of the 128-deep product, row axis: the contraction coordinate. -/
theorem prodK128_rhs_axis0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q

/-- Right operand of the 128-deep product, column axis: the output's column. -/
theorem prodK128_rhs_axis1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide),
    dif_pos (show (1 : Fin S128x256.rank) ∈ dot_S1000x128_S128x256_S1000x256_1_0_0_1_n_n.rhsNonContracting by decide)]
  rfl

/-- Left operand of the 256-deep product, row axis: the output's row. -/
theorem prodK256_lhs_axis0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl

/-- Left operand of the 256-deep product, column axis: the contraction coordinate. -/
theorem prodK256_lhs_axis1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q

/-- Right operand of the 256-deep product, row axis: the contraction coordinate. -/
theorem prodK256_rhs_axis0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q

/-- Right operand of the 256-deep product, column axis: the output's column. -/
theorem prodK256_rhs_axis1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl

/-! ## A product into the zero splat, at an index -/

/-- The 128-deep product accumulated into zero: entry (r, c) is ∑ₖ A[r,k] · B[k,c]. -/
theorem prodK128_apply {φ₁ φ₂ : FTy} (A : FVec Ideal S1000x128 φ₁) (B : FVec Ideal S128x256 φ₂) (r : Fin 1000) (c : Fin 256) :
    matmul dot_S1000x128_S128x256_S1000x256_1_0_0_1_n_n none A B (constant S1000x256 .f32 0x00000000#32) (ix2 r c)
      = ∑ k : Fin 128, A (ix2 r k) * B (ix2 k c) := by
  simp only [matmul]
  rw [Ideal.matmul_constant_zero_apply,
    ← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 r c)
      ((contrEquiv1 dot_S1000x128_S128x256_S1000x256_1_0_0_1_n_n 128 rfl rfl).symm k) = ix2 r k :=
    funext fun a => Fin.ext (by
      match a with
      | ⟨0, _⟩ => exact prodK128_lhs_axis0 _ _
      | ⟨1, _⟩ => exact (prodK128_lhs_axis1 _ _).trans hk)
  have er : dot_S1000x128_S128x256_S1000x256_1_0_0_1_n_n.rhsIdx (ix2 r c)
      ((contrEquiv1 dot_S1000x128_S128x256_S1000x256_1_0_0_1_n_n 128 rfl rfl).symm k) = ix2 k c :=
    funext fun a => Fin.ext (by
      match a with
      | ⟨0, _⟩ => exact (prodK128_rhs_axis0 _ _).trans hk
      | ⟨1, _⟩ => exact prodK128_rhs_axis1 _ _)
  rw [el, er]

/-- The 256-deep product accumulated into zero: entry (r, c) is ∑ₖ A[r,k] · B[k,c]. -/
theorem prodK256_apply {φ₁ φ₂ : FTy} (A : FVec Ideal S1000x256 φ₁) (B : FVec Ideal S256x256 φ₂) (r : Fin 1000) (c : Fin 256) :
    matmul dot_S1000x256_S256x256_S1000x256_1_0_0_1_n_n none A B (constant S1000x256 .f32 0x00000000#32) (ix2 r c)
      = ∑ k : Fin 256, A (ix2 r k) * B (ix2 k c) := by
  simp only [matmul]
  rw [Ideal.matmul_constant_zero_apply,
    ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 r c)
      ((contrEquiv1 dot_S1000x256_S256x256_S1000x256_1_0_0_1_n_n 256 rfl rfl).symm k) = ix2 r k :=
    funext fun a => Fin.ext (by
      match a with
      | ⟨0, _⟩ => exact prodK256_lhs_axis0 _ _
      | ⟨1, _⟩ => exact (prodK256_lhs_axis1 _ _).trans hk)
  have er : dot_S1000x256_S256x256_S1000x256_1_0_0_1_n_n.rhsIdx (ix2 r c)
      ((contrEquiv1 dot_S1000x256_S256x256_S1000x256_1_0_0_1_n_n 256 rfl rfl).symm k) = ix2 k c :=
    funext fun a => Fin.ext (by
      match a with
      | ⟨0, _⟩ => exact (prodK256_rhs_axis0 _ _).trans hk
      | ⟨1, _⟩ => exact prodK256_rhs_axis1 _ _)
  rw [el, er]

/-! ## A bias repeated down the rows -/

/-- A 256-vector viewed as one row and repeated over 1000 rows reads, at (r, c), the vector at c. -/
theorem biasRows_apply (b : FVec Ideal S256 .f32) (r : Fin 1000) (c : Fin 256) :
    broadcastTo S1000x256 (shapeCast S1x256 b shapeCasts_S256_S1x256) broadcasts_S1x256_S1000x256 (ix2 r c) = b (ix1 c) := by
  rw [broadcastTo_1b_ab_apply, shapeCast_a_1a_apply]

/-! ## One layer of a payload is the dense layer -/

/-- The layer with a 128-wide input: narrowed operands, product into zero, bias, rectifier. -/
theorem layerK128_eq (X : FVec Ideal S1000x128 .f32) (W : FVec Ideal S128x256 .f32) (b : FVec Ideal S256 .f32) :
    maximumf
      (addf
        (matmul dot_S1000x128_S128x256_S1000x256_1_0_0_1_n_n none (truncf .bf16 X bitsLt_bf16_f32)
          (truncf .bf16 W bitsLt_bf16_f32) (constant S1000x256 .f32 0x00000000#32))
        (broadcastTo S1000x256 (shapeCast S1x256 b shapeCasts_S256_S1x256) broadcasts_S1x256_S1000x256))
      (broadcast S1000x256 (Scalar.ofBits .f32 0x00000000#32))
      = Cert.Spec.dense X W b := by
  funext j
  obtain ⟨r, c, rfl⟩ : ∃ (r : Fin 1000) (c : Fin 256), j = ix2 r c := ⟨j 0, j 1, eq_ix2 j⟩
  rw [maximumf_apply, addf_apply, prodK128_apply, biasRows_apply, broadcast_apply, Cert.Spec.dense_apply]
  show max _ (Ideal.ofBits .f32 0x00000000#32) = _
  rw [Ideal.ofBits_zero_f32]
  rfl

/-- The layer with a 256-wide input. -/
theorem layerK256_eq (X : FVec Ideal S1000x256 .f32) (W : FVec Ideal S256x256 .f32) (b : FVec Ideal S256 .f32) :
    maximumf
      (addf
        (matmul dot_S1000x256_S256x256_S1000x256_1_0_0_1_n_n none (truncf .bf16 X bitsLt_bf16_f32)
          (truncf .bf16 W bitsLt_bf16_f32) (constant S1000x256 .f32 0x00000000#32))
        (broadcastTo S1000x256 (shapeCast S1x256 b shapeCasts_S256_S1x256) broadcasts_S1x256_S1000x256))
      (broadcast S1000x256 (Scalar.ofBits .f32 0x00000000#32))
      = Cert.Spec.dense X W b := by
  funext j
  obtain ⟨r, c, rfl⟩ : ∃ (r : Fin 1000) (c : Fin 256), j = ix2 r c := ⟨j 0, j 1, eq_ix2 j⟩
  rw [maximumf_apply, addf_apply, prodK256_apply, biasRows_apply, broadcast_apply, Cert.Spec.dense_apply]
  show max _ (Ideal.ofBits .f32 0x00000000#32) = _
  rw [Ideal.ofBits_zero_f32]
  rfl

/-! ## The payloads -/

/-- The first call's store (128 input features): the perceptron of its five operands. -/
theorem pay0_eq (x0 : Vec Ideal S1000x128 .f32) (w1 : Vec Ideal S128x256 .f32) (b1 : Vec Ideal S256 .f32)
    (w2 : Vec Ideal S256x256 .f32) (b2 : Vec Ideal S256 .f32) :
    k0_pay1 x0 w1 b1 w2 b2 = Cert.Spec.mlp x0 w1 b1 w2 b2 := by
  unfold k0_pay1
  dsimp only
  rw [shapeCast_self, layerK128_eq, layerK256_eq]
  rfl

/-- The second call's store (256 input features): the perceptron of its five operands. -/
theorem pay1_eq (x0 : Vec Ideal S1000x256 .f32) (w1 : Vec Ideal S256x256 .f32) (b1 : Vec Ideal S256 .f32)
    (w2 : Vec Ideal S256x256 .f32) (b2 : Vec Ideal S256 .f32) :
    k1_pay1 x0 w1 b1 w2 b2 = Cert.Spec.mlp x0 w1 b1 w2 b2 := by
  unfold k1_pay1
  dsimp only
  rw [shapeCast_self, layerK256_eq, layerK256_eq]
  rfl

/-! ## The perceptron is row-wise

  Row r of a dense layer's result depends on row r of its input only; so the perceptron of a block of rows is the same
  block of rows of the perceptron of the whole array. -/

/-- Two inputs that agree on one row each give dense layers that agree on those rows. -/
theorem dense_row_congr {M M' K N : Nat} (X : (⟨2, ![M, K]⟩ : Shape).Idx → EReal) (X' : (⟨2, ![M', K]⟩ : Shape).Idx → EReal)
    (W : (⟨2, ![K, N]⟩ : Shape).Idx → EReal) (b : (⟨1, ![N]⟩ : Shape).Idx → EReal) (r : Fin M) (r' : Fin M')
    (h : ∀ k : Fin K, X (ix2 r k) = X' (ix2 r' k)) (c : Fin N) :
    Cert.Spec.dense X W b (ix2 r c) = Cert.Spec.dense X' W b (ix2 r' c) := by
  rw [Cert.Spec.dense_apply, Cert.Spec.dense_apply]
  simp only [h]

/-- The same for the two-layer perceptron. -/
theorem mlp_row_congr {M M' K N : Nat} (X : (⟨2, ![M, K]⟩ : Shape).Idx → EReal) (X' : (⟨2, ![M', K]⟩ : Shape).Idx → EReal)
    (W₁ : (⟨2, ![K, N]⟩ : Shape).Idx → EReal) (b₁ : (⟨1, ![N]⟩ : Shape).Idx → EReal)
    (W₂ : (⟨2, ![N, N]⟩ : Shape).Idx → EReal) (b₂ : (⟨1, ![N]⟩ : Shape).Idx → EReal) (r : Fin M) (r' : Fin M')
    (h : ∀ k : Fin K, X (ix2 r k) = X' (ix2 r' k)) (c : Fin N) :
    Cert.Spec.mlp X W₁ b₁ W₂ b₂ (ix2 r c) = Cert.Spec.mlp X' W₁ b₁ W₂ b₂ (ix2 r' c) :=
  dense_row_congr (Cert.Spec.dense X W₁ b₁) (Cert.Spec.dense X' W₁ b₁) W₂ b₂ r r'
    (fun k => dense_row_congr X X' W₁ b₁ r r' h k) c

/-! ## Zero offsets

  A staging buffer is read and written whole: at offsets that are zero on every axis, however the zeros are spelt. -/

theorem zeroOff2 : (![0, 0] : Fin 2 → Nat) = fun _ => 0 :=
  funext fun a => match a with | ⟨0, _⟩ => rfl | ⟨1, _⟩ => rfl

theorem zeroOff1 : (![0] : Fin 1 → Nat) = fun _ => 0 :=
  funext fun a => match a with | ⟨0, _⟩ => rfl

end Cert.KernelIdeal.Hand

end
-- ==== Proof.KI.MlpValue0.lean ====
/-
  The first perceptron call, read as one array.

  After its 50 grid points the call's output array holds the two-layer perceptron of the node-feature array and the four
  parameter arrays as the call found them. Point t writes back the perceptron of row block t of the features (1000 rows)
  with the parameters whole; the perceptron is row-wise, so that is row block t of the perceptron of the whole feature
  array; and the 50 row blocks tile the 50000 rows, row r lying in block r / 1000.
-/
import proofs.«407579_j84164179132425_1_alg».proof.Proof.Spec
import proofs.«407579_j84164179132425_1_alg».proof.Proof.KI.Mlp0
import proofs.«407579_j84164179132425_1_alg».proof.Proof.KI.MlpPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the call is entered, on the extended reals
variable (V : (c : Dev nD) → (b : Ref sig .tc) → Buf (Elt Ideal) ((c : Thread nD τ).loc b))

/-! ## One point's store, over variables -/

/-- If row r of the feature block is row R of a feature array, the store's row r is row R of the perceptron of that
    array (the parameters being what they are). -/
theorem out0_5_row (A0 : S50000x128.Idx → EReal) (x0 : Vec Ideal S1000x128 .f32) (x1 : Vec Ideal S128x256 .f32)
    (x2 : Vec Ideal S256 .f32) (x3 : Vec Ideal S256x256 .f32) (x4 : Vec Ideal S256 .f32) (r : Fin 1000) (R : Fin 50000)
    (h : ∀ k : Fin 128, x0 (ix2 r k) = A0 (ix2 R k)) (q : Fin 256) :
    out0_5 x0 x1 x2 x3 x4 (ix2 r q) = Cert.Spec.mlp A0 x1 x2 x3 x4 (ix2 R q) := by
  unfold out0_5
  rw [View.canon_unit_zero zeroOff2]
  simp only [View.ld_unit_zero (S := S1000x128) zeroOff2, View.ld_unit_zero (S := S128x256) zeroOff2,
    View.ld_unit_zero (S := S256x256) zeroOff2, View.ld_unit_zero (S := S256) zeroOff1]
  rw [pay0_eq]
  exact mlp_row_congr x0 A0 x1 x2 x3 x4 r R h q

/-! ## The block indices over the grid -/

/-- Point t takes row block t of the features and of the output, and every parameter array whole. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## What a point writes back -/

/-- Point t writes back block t of the perceptron of the arrays as the call found them. -/
theorem flushed0_eq (c : Dev nD) (t : Fin cfg0.N) :
    (dat0 (F := Ideal) V c).flushed 5 t
      = ((cfg0.win 5).blk t).view.read (Elt Ideal)
          (Cert.Spec.mlp (M := 50000) (K := 128) (N := 256) (V c main_v14) (V c main_arg3) (V c main_arg4) (V c main_arg5)
            (V c main_arg6)) := by
  show (cfg0.win 5).cut (grid0.coords t) ((dat0 V c).after 5 t) = _
  rw [after0_5]
  obtain ⟨e00, e01, e10, e11, e20, e30, e31, e40, e50, e51⟩ := blockIdx0 t
  have ht : t.val < 50 := lt_of_lt_of_eq t.isLt N_0
  -- the parameter windows' blocks are their arrays
  have h1 : iblk0 V c 1 t = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  have h2 : iblk0 V c 2 t = V c main_arg4 := by
    funext y
    show V c main_arg4 (((cfg0.win 2).blk t).view.emb y) = V c main_arg4 y
    refine congrArg _ (funext fun a => Fin.ext ?_)
    match a with
    | ⟨0, _⟩ => show win0_2.index t (0 : Fin 1) * 256 + 1 * (y 0).val = (y 0).val; omega
  have h3 : iblk0 V c 3 t = V c main_arg5 := by
    funext y
    show V c main_arg5 (((cfg0.win 3).blk t).view.emb y) = V c main_arg5 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  have h4 : iblk0 V c 4 t = V c main_arg6 := by
    funext y
    show V c main_arg6 (((cfg0.win 4).blk t).view.emb y) = V c main_arg6 y
    refine congrArg _ (funext fun a => Fin.ext ?_)
    match a with
    | ⟨0, _⟩ => show win0_4.index t (0 : Fin 1) * 256 + 1 * (y 0).val = (y 0).val; omega
  rw [h1, h2, h3, h4]
  funext j
  obtain ⟨r, q, rfl⟩ : ∃ (r : Fin 1000) (q : Fin 256), j = ix2 r q := ⟨j 0, j 1, eq_ix2 j⟩
  have hr : r.val < 1000 := r.isLt
  -- where the output block's entry (r, q) lies in the array
  have hemb : ((cfg0.win 5).blk t).view.emb (ix2 r q) = ix2 (⟨t.val * 1000 + r.val, by omega⟩ : Fin 50000) q := by
    funext a; apply Fin.ext
    match a with
    | ⟨0, _⟩ => show win0_5.index t (0 : Fin 2) * 1000 + 1 * r.val = t.val * 1000 + r.val; omega
    | ⟨1, _⟩ => show win0_5.index t (1 : Fin 2) * 256 + 1 * q.val = q.val; omega
  show out0_5 (iblk0 V c 0 t) (V c main_arg3) (V c main_arg4) (V c main_arg5) (V c main_arg6) (ix2 r q)
    = Cert.Spec.mlp (M := 50000) (K := 128) (N := 256) (V c main_v14) (V c main_arg3) (V c main_arg4) (V c main_arg5)
        (V c main_arg6) (((cfg0.win 5).blk t).view.emb (ix2 r q))
  rw [hemb]
  refine out0_5_row (V c main_v14) (iblk0 V c 0 t) _ _ _ _ r _ (fun k => ?_) q
  -- the feature block's entry (r, k) in the feature array
  show V c main_v14 (((cfg0.win 0).blk t).view.emb (ix2 r k)) = V c main_v14 _
  refine congrArg _ (funext fun a => Fin.ext ?_)
  match a with
  | ⟨0, _⟩ => show win0_0.index t (0 : Fin 2) * 1000 + 1 * r.val = t.val * 1000 + r.val; omega
  | ⟨1, _⟩ => show win0_0.index t (1 : Fin 2) * 128 + 1 * k.val = k.val; omega

/-! ## The row blocks tile the array -/

/-- An index of the output array is in point t's block iff each coordinate is in the block's range on its axis. -/
theorem mem_blk0_5 (t : Fin cfg0.N) (i : S50000x256.Idx) :
    i ∈ ((cfg0.win 5).blk t).view.set ↔ ∀ a : Fin 2, win0_5.index t a * S1000x256.size a ≤ (i a).val
      ∧ (i a).val < win0_5.index t a * S1000x256.size a + S1000x256.size a := by
  show i ∈ ((View.whole main_v15).slice (win0_5.rect t)).set ↔ _
  rw [View.set_slice_whole, Rect.mem_set_unit]
  exact Iff.rfl

/-- Row r of the output array is written back by point r / 1000. -/
theorem cover0_5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : (i 0).val / 1000 < cfg0.N := lt_of_lt_of_eq (by omega : (i 0).val / 1000 < 50) N_0.symm
  obtain ⟨e00, e01, e10, e11, e20, e30, e31, e40, e50, e51⟩ := blockIdx0 ⟨(i 0).val / 1000, hN⟩
  refine ⟨⟨(i 0).val / 1000, hN⟩, flush0_5 _, ?_⟩
  rw [mem_blk0_5]
  intro a
  match a with
  | ⟨0, _⟩ =>
    show win0_5.index ⟨(i 0).val / 1000, hN⟩ (0 : Fin 2) * 1000 ≤ (i 0).val
      ∧ (i 0).val < win0_5.index ⟨(i 0).val / 1000, hN⟩ (0 : Fin 2) * 1000 + 1000
    have e : win0_5.index ⟨(i 0).val / 1000, hN⟩ (0 : Fin 2) = (i 0).val / 1000 := e50
    omega
  | ⟨1, _⟩ =>
    show win0_5.index ⟨(i 0).val / 1000, hN⟩ (1 : Fin 2) * 256 ≤ (i 1).val
      ∧ (i 1).val < win0_5.index ⟨(i 0).val / 1000, hN⟩ (1 : Fin 2) * 256 + 256
    omega

/-! ## The array after the call -/

/-- After all 50 points the output array is the perceptron of the feature array and the parameter arrays. -/
theorem mlp0_value (c : Dev nD) :
    (dat0 (F := Ideal) V c).arrAt 5 cfg0.N
      = Cert.Spec.mlp (M := 50000) (K := 128) (N := 256) (V c main_v14) (V c main_arg3) (V c main_arg4) (V c main_arg5)
          (V c main_arg6) :=
  (dat0 V c).arrAt_eq_of_cover 5 _ (fun t _ => flushed0_eq V c t) cover0_5

end Cert.KernelIdeal.Hand

end
-- ==== Proof.KI.MlpValue1.lean ====
/-
  The second perceptron call, read as one array.

  Its input is the 256-wide feature array the second graph layer formed. After the call's 50 grid points its output array
  holds the two-layer perceptron of that array and the layer's four parameter arrays as the call found them: point t
  writes back the perceptron of rows 1000·t … 1000·t + 999 with the parameters whole, the perceptron acts on each row by
  itself, and every row r of the 50000 lies in exactly the block of point r / 1000.
-/
import proofs.«407579_j84164179132425_1_alg».proof.Proof.Spec
import proofs.«407579_j84164179132425_1_alg».proof.Proof.KI.Mlp1
import proofs.«407579_j84164179132425_1_alg».proof.Proof.KI.MlpPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the second call is entered, on the extended reals
variable (V : (c : Dev nD) → (b : Ref sig .tc) → Buf (Elt Ideal) ((c : Thread nD τ).loc b))

/-! ## One point's store, over variables -/

/-- If row r of the 256-wide feature block is row R of a feature array, the store's row r is row R of the perceptron
    of that array. -/
theorem out1_5_row (A0 : S50000x256.Idx → EReal) (x0 : Vec Ideal S1000x256 .f32) (x1 : Vec Ideal S256x256 .f32)
    (x2 : Vec Ideal S256 .f32) (x3 : Vec Ideal S256x256 .f32) (x4 : Vec Ideal S256 .f32) (r : Fin 1000) (R : Fin 50000)
    (h : ∀ k : Fin 256, x0 (ix2 r k) = A0 (ix2 R k)) (q : Fin 256) :
    out1_5 x0 x1 x2 x3 x4 (ix2 r q) = Cert.Spec.mlp A0 x1 x2 x3 x4 (ix2 R q) := by
  unfold out1_5
  rw [View.canon_unit_zero zeroOff2]
  simp only [View.ld_unit_zero (S := S1000x256) zeroOff2, View.ld_unit_zero (S := S256x256) zeroOff2,
    View.ld_unit_zero (S := S256) zeroOff1]
  rw [pay1_eq]
  exact mlp_row_congr x0 A0 x1 x2 x3 x4 r R h q

/-! ## The block indices over the grid -/

/-- Point t takes row block t of the features and of the output, and every parameter array whole. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## What a point writes back -/

/-- Point t writes back block t of the perceptron of the arrays as the call found them. -/
theorem flushed1_eq (c : Dev nD) (t : Fin cfg1.N) :
    (dat1 (F := Ideal) V c).flushed 5 t
      = ((cfg1.win 5).blk t).view.read (Elt Ideal)
          (Cert.Spec.mlp (M := 50000) (K := 256) (N := 256) (V c main_v26) (V c main_arg7) (V c main_arg8) (V c main_arg9)
            (V c main_arg10)) := by
  show (cfg1.win 5).cut (grid1.coords t) ((dat1 V c).after 5 t) = _
  rw [after1_5]
  obtain ⟨e00, e01, e10, e11, e20, e30, e31, e40, e50, e51⟩ := blockIdx1 t
  have ht : t.val < 50 := lt_of_lt_of_eq t.isLt N_1
  -- the parameter windows' blocks are their arrays
  have h1 : iblk1 V c 1 t = V c main_arg7 := by
    funext y
    show V c main_arg7 (((cfg1.win 1).blk t).view.emb y) = V c main_arg7 y
    refine congrArg _ (funext fun a => Fin.ext ?_)
    match a with
    | ⟨0, _⟩ => show win1_1.index t (0 : Fin 2) * 256 + 1 * (y 0).val = (y 0).val; omega
    | ⟨1, _⟩ => show win1_1.index t (1 : Fin 2) * 256 + 1 * (y 1).val = (y 1).val; omega
  have h2 : iblk1 V c 2 t = V c main_arg8 := by
    funext y
    show V c main_arg8 (((cfg1.win 2).blk t).view.emb y) = V c main_arg8 y
    refine congrArg _ (funext fun a => Fin.ext ?_)
    match a with
    | ⟨0, _⟩ => show win1_2.index t (0 : Fin 1) * 256 + 1 * (y 0).val = (y 0).val; omega
  have h3 : iblk1 V c 3 t = V c main_arg9 := by
    funext y
    show V c main_arg9 (((cfg1.win 3).blk t).view.emb y) = V c main_arg9 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 256 + 1 * (y 1).val = (y 1).val; omega
  have h4 : iblk1 V c 4 t = V c main_arg10 := by
    funext y
    show V c main_arg10 (((cfg1.win 4).blk t).view.emb y) = V c main_arg10 y
    refine congrArg _ (funext fun a => Fin.ext ?_)
    match a with
    | ⟨0, _⟩ => show win1_4.index t (0 : Fin 1) * 256 + 1 * (y 0).val = (y 0).val; omega
  rw [h1, h2, h3, h4]
  funext j
  obtain ⟨r, q, rfl⟩ : ∃ (r : Fin 1000) (q : Fin 256), j = ix2 r q := ⟨j 0, j 1, eq_ix2 j⟩
  have hr : r.val < 1000 := r.isLt
  -- where the output block's entry (r, q) lies in the array
  have hemb : ((cfg1.win 5).blk t).view.emb (ix2 r q) = ix2 (⟨t.val * 1000 + r.val, by omega⟩ : Fin 50000) q := by
    funext a; apply Fin.ext
    match a with
    | ⟨0, _⟩ => show win1_5.index t (0 : Fin 2) * 1000 + 1 * r.val = t.val * 1000 + r.val; omega
    | ⟨1, _⟩ => show win1_5.index t (1 : Fin 2) * 256 + 1 * q.val = q.val; omega
  show out1_5 (iblk1 V c 0 t) (V c main_arg7) (V c main_arg8) (V c main_arg9) (V c main_arg10) (ix2 r q)
    = Cert.Spec.mlp (M := 50000) (K := 256) (N := 256) (V c main_v26) (V c main_arg7) (V c main_arg8) (V c main_arg9)
        (V c main_arg10) (((cfg1.win 5).blk t).view.emb (ix2 r q))
  rw [hemb]
  refine out1_5_row (V c main_v26) (iblk1 V c 0 t) _ _ _ _ r _ (fun k => ?_) q
  -- the feature block's entry (r, k) in the feature array
  show V c main_v26 (((cfg1.win 0).blk t).view.emb (ix2 r k)) = V c main_v26 _
  refine congrArg _ (funext fun a => Fin.ext ?_)
  match a with
  | ⟨0, _⟩ => show win1_0.index t (0 : Fin 2) * 1000 + 1 * r.val = t.val * 1000 + r.val; omega
  | ⟨1, _⟩ => show win1_0.index t (1 : Fin 2) * 256 + 1 * k.val = k.val; omega

/-! ## The row blocks tile the array -/

/-- An index of the output array is in point t's block iff each coordinate is in the block's range on its axis. -/
theorem mem_blk1_5 (t : Fin cfg1.N) (i : S50000x256.Idx) :
    i ∈ ((cfg1.win 5).blk t).view.set ↔ ∀ a : Fin 2, win1_5.index t a * S1000x256.size a ≤ (i a).val
      ∧ (i a).val < win1_5.index t a * S1000x256.size a + S1000x256.size a := by
  show i ∈ ((View.whole main_v27).slice (win1_5.rect t)).set ↔ _
  rw [View.set_slice_whole, Rect.mem_set_unit]
  exact Iff.rfl

/-- Row r of the output array is written back by point r / 1000. -/
theorem cover1_5 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : (i 0).val / 1000 < cfg1.N := lt_of_lt_of_eq (by omega : (i 0).val / 1000 < 50) N_1.symm
  obtain ⟨e00, e01, e10, e11, e20, e30, e31, e40, e50, e51⟩ := blockIdx1 ⟨(i 0).val / 1000, hN⟩
  refine ⟨⟨(i 0).val / 1000, hN⟩, flush1_5 _, ?_⟩
  rw [mem_blk1_5]
  intro a
  match a with
  | ⟨0, _⟩ =>
    show win1_5.index ⟨(i 0).val / 1000, hN⟩ (0 : Fin 2) * 1000 ≤ (i 0).val
      ∧ (i 0).val < win1_5.index ⟨(i 0).val / 1000, hN⟩ (0 : Fin 2) * 1000 + 1000
    have e : win1_5.index ⟨(i 0).val / 1000, hN⟩ (0 : Fin 2) = (i 0).val / 1000 := e50
    omega
  | ⟨1, _⟩ =>
    show win1_5.index ⟨(i 0).val / 1000, hN⟩ (1 : Fin 2) * 256 ≤ (i 1).val
      ∧ (i 1).val < win1_5.index ⟨(i 0).val / 1000, hN⟩ (1 : Fin 2) * 256 + 256
    omega

/-! ## The array after the call -/

/-- After all 50 points the output array is the perceptron of the feature array and the parameter arrays. -/
theorem mlp1_value (c : Dev nD) :
    (dat1 (F := Ideal) V c).arrAt 5 cfg1.N
      = Cert.Spec.mlp (M := 50000) (K := 256) (N := 256) (V c main_v26) (V c main_arg7) (V c main_arg8) (V c main_arg9)
          (V c main_arg10) :=
  (dat1 V c).arrAt_eq_of_cover 5 _ (fun t _ => flushed1_eq V c t) cover1_5

end Cert.KernelIdeal.Hand

end
-- ==== Proof.KI.PoolFold.lean ====
/-
  The pooling call's arithmetic, away from the machine. One grid point adds to the accumulator the product of a
  [64, 2944] column block of the membership matrix with the matching [2944, 256] row block of the node rows; the
  accumulator starts from the zero splat. Seventeen such steps cover the 50048 = 17 · 2944 columns once each, so the
  accumulator ends as the whole product: entry (g, d) is ∑ₙ P[g, n] · H[n, d]. The extended reals' addition is
  commutative and associative, which is all the regrouping of the sum uses; nothing here asks for finiteness.
-/
import proofs.«407579_j84164179132425_1_alg».proof.Proof.Spec
import proofs.«407579_j84164179132425_1_alg».proof.Proof.Gen.KernelIdeal.Skeleton
import Idealize.ShloMosaic.Lib.Pipeline.Value
import Idealize.ShloMosaic.Lib.ValueIdx
import Idealize.ShloMosaic.PureOps.Ideal.Laws
import Mathlib.Algebra.BigOperators.Group.Finset.Basic
import Mathlib.Data.Fintype.BigOperators

noncomputable section

namespace Cert.KernelIdeal.Hand

open Cert.KernelIdeal Cert.KernelIdeal.Gen
open Idealize.ShloMosaic Idealize.ShloMosaic.ValueIdx
open scoped BigOperators

/-! ## The step's matrix product at an index -/

/-- The left operand of the step's product is read at the result's row … -/
theorem lhs_pool_0 (i : S64x256.Idx) (q : Cert.KernelIdeal.dot_S64x2944_S2944x256_S64x256_1_0_0_1_n_n.contr.Idx) :
    (Cert.KernelIdeal.dot_S64x2944_S2944x256_S64x256_1_0_0_1_n_n.lhsIdx i q 0).val = (i 0).val := by
  unfold DotDims.lhsIdx
  rw [dif_neg (show ¬(0 : Fin S64x2944.rank) ∈ Cert.KernelIdeal.dot_S64x2944_S2944x256_S64x256_1_0_0_1_n_n.lhsBatch by decide), dif_pos (show (0 : Fin S64x2944.rank) ∈ Cert.KernelIdeal.dot_S64x2944_S2944x256_S64x256_1_0_0_1_n_n.lhsNonContracting by decide)]
  rfl
/-- … and at the contracted column; … -/
theorem lhs_pool_1 (i : S64x256.Idx) (q : Cert.KernelIdeal.dot_S64x2944_S2944x256_S64x256_1_0_0_1_n_n.contr.Idx) :
    (Cert.KernelIdeal.dot_S64x2944_S2944x256_S64x256_1_0_0_1_n_n.lhsIdx i q 1).val = (q ⟨0, by decide⟩).val :=
  Cert.KernelIdeal.dot_S64x2944_S2944x256_S64x256_1_0_0_1_n_n.lhsIdx_val_of_single rfl i q
/-- … the right operand at the contracted row … -/
theorem rhs_pool_0 (i : S64x256.Idx) (q : Cert.KernelIdeal.dot_S64x2944_S2944x256_S64x256_1_0_0_1_n_n.contr.Idx) :
    (Cert.KernelIdeal.dot_S64x2944_S2944x256_S64x256_1_0_0_1_n_n.rhsIdx i q 0).val = (q ⟨0, by decide⟩).val :=
  Cert.KernelIdeal.dot_S64x2944_S2944x256_S64x256_1_0_0_1_n_n.rhsIdx_val_of_single rfl i q
/-- … and at the result's column. -/
theorem rhs_pool_1 (i : S64x256.Idx) (q : Cert.KernelIdeal.dot_S64x2944_S2944x256_S64x256_1_0_0_1_n_n.contr.Idx) :
    (Cert.KernelIdeal.dot_S64x2944_S2944x256_S64x256_1_0_0_1_n_n.rhsIdx i q 1).val = (i 1).val := by
  unfold DotDims.rhsIdx
  rw [dif_neg (show ¬(1 : Fin S2944x256.rank) ∈ Cert.KernelIdeal.dot_S64x2944_S2944x256_S64x256_1_0_0_1_n_n.rhsBatch by decide), dif_pos (show (1 : Fin S2944x256.rank) ∈ Cert.KernelIdeal.dot_S64x2944_S2944x256_S64x256_1_0_0_1_n_n.rhsNonContracting by decide)]
  rfl

/-- The product of a [64, 2944] block with a [2944, 256] block, into the zero splat, at entry (g, d): the sum over the
    2944 contracted positions. Narrowing the operands' format changes nothing on the extended reals. -/
theorem pool_dot_apply (x : FVec Ideal S64x2944 .bf16) (y : FVec Ideal S2944x256 .bf16) (g : Fin 64) (d : Fin 256) :
    FloatOps.matmul Cert.KernelIdeal.dot_S64x2944_S2944x256_S64x256_1_0_0_1_n_n none x y (constant S64x256 .f32 0x00000000#32) (ix2 g d)
      = ∑ k : Fin 2944, x (ix2 g k) * y (ix2 k d) := by
  rw [Ideal.matmul_constant_zero_apply, ← Equiv.sum_comp (ValueIdx.contrEquiv1 Cert.KernelIdeal.dot_S64x2944_S2944x256_S64x256_1_0_0_1_n_n 2944 rfl rfl).symm]
  refine Finset.sum_congr rfl fun k _ => ?_
  have hk := ValueIdx.contrEquiv1_symm_val Cert.KernelIdeal.dot_S64x2944_S2944x256_S64x256_1_0_0_1_n_n 2944 rfl rfl k
  have el : Cert.KernelIdeal.dot_S64x2944_S2944x256_S64x256_1_0_0_1_n_n.lhsIdx (ix2 g d) ((ValueIdx.contrEquiv1 Cert.KernelIdeal.dot_S64x2944_S2944x256_S64x256_1_0_0_1_n_n 2944 rfl rfl).symm k) = ix2 g k := funext fun a => Fin.ext (by
    match a with
    | ⟨0, _⟩ => exact lhs_pool_0 _ _
    | ⟨1, _⟩ => exact (lhs_pool_1 _ _).trans hk)
  have er : Cert.KernelIdeal.dot_S64x2944_S2944x256_S64x256_1_0_0_1_n_n.rhsIdx (ix2 g d) ((ValueIdx.contrEquiv1 Cert.KernelIdeal.dot_S64x2944_S2944x256_S64x256_1_0_0_1_n_n 2944 rfl rfl).symm k) = ix2 k d := funext fun a => Fin.ext (by
    match a with
    | ⟨0, _⟩ => exact (rhs_pool_0 _ _).trans hk
    | ⟨1, _⟩ => exact rhs_pool_1 _ _)
  rw [el, er]

/-- One grid point's new accumulator at entry (g, d): the old entry plus the blocks' product there. -/
theorem pay2_apply (v3 : Vec Ideal S64x2944 .f32) (v6 : Vec Ideal S2944x256 .f32) (v9 : Vec Ideal S64x256 .f32)
    (g : Fin 64) (d : Fin 256) :
    k2_pay2 v3 v6 v9 (ix2 g d) = v9 (ix2 g d) + ∑ k : Fin 2944, v3 (ix2 g k) * v6 (ix2 k d) := by
  unfold k2_pay2
  simp only [shapeCast_self]
  show (v9 (ix2 g d) : EReal) + (FloatOps.matmul (F := Ideal) Cert.KernelIdeal.dot_S64x2944_S2944x256_S64x256_1_0_0_1_n_n none
      (truncf .bf16 (v3 : FVec Ideal S64x2944 .f32) bitsLt_bf16_f32 : FVec Ideal S64x2944 .bf16)
      (truncf .bf16 (v6 : FVec Ideal S2944x256 .f32) bitsLt_bf16_f32 : FVec Ideal S2944x256 .bf16)
      (constant S64x256 .f32 0x00000000#32) (ix2 g d) : EReal) = _
  rw [pool_dot_apply]
  rfl

/-- The accumulator the first grid point starts from is zero everywhere. -/
theorem pay1_apply (i : S64x256.Idx) : k2_pay1 (F := Ideal) i = 0 := by
  unfold k2_pay1
  simp only [shapeCast_self]
  show Ideal.ofBits .f32 0x00000000#32 = 0
  exact Ideal.ofBits_zero_f32

/-! ## Seventeen steps are the whole product -/

/-- A sum over the first m · n naturals, taken n blocks of m at a time. -/
theorem sum_range_blocks (f : ℕ → EReal) (m : ℕ) :
    ∀ n : ℕ, ∑ j ∈ Finset.range (m * n), f j = ∑ t ∈ Finset.range n, ∑ k ∈ Finset.range m, f (m * t + k)
  | 0 => by simp
  | n + 1 => by
    rw [Nat.mul_succ, Finset.sum_range_add, Finset.sum_range_succ, sum_range_blocks f m n]

/-- The accumulator of the pooling call, started at the zero splat and stepped through the seventeen column blocks of
    P against the seventeen row blocks of H, ends as the product P · H. -/
theorem pool_fold (P : (⟨2, ![64, 50048]⟩ : Shape).Idx → EReal) (H : (⟨2, ![50048, 256]⟩ : Shape).Idx → EReal)
    (bP : Fin 17 → Vec Ideal S64x2944 .f32) (bH : Fin 17 → Vec Ideal S2944x256 .f32)
    (hP : ∀ (t : Fin 17) (g : Fin 64) (k : Fin 2944), bP t (ix2 g k) = P (ix2 g ⟨2944 * t.val + k.val, by omega⟩))
    (hH : ∀ (t : Fin 17) (k : Fin 2944) (d : Fin 256), bH t (ix2 k d) = H (ix2 ⟨2944 * t.val + k.val, by omega⟩ d))
    (a : (n : ℕ) → n < 17 → Vec Ideal S64x256 .f32)
    (h0 : a 0 (by decide) = k2_pay2 (bP 0) (bH 0) (k2_pay1 (F := Ideal)))
    (hs : ∀ n (h : n + 1 < 17), a (n + 1) h = k2_pay2 (bP ⟨n + 1, h⟩) (bH ⟨n + 1, h⟩) (a n (by omega))) :
    a 16 (by decide) = Cert.Spec.pool P H := by
  funext i
  obtain ⟨g, d, rfl⟩ : ∃ (g : Fin 64) (d : Fin 256), i = ix2 g d := ⟨i 0, i 1, eq_ix2 i⟩
  -- the summand of entry (g, d) at column j, as a function on all naturals
  let f : ℕ → EReal := fun j => if h : j < 50048 then P (ix2 g ⟨j, h⟩) * H (ix2 ⟨j, h⟩ d) else 0
  -- block t's product at (g, d) is the stretch of 2944 summands from 2944 · t on
  have blk : ∀ t : Fin 17, ∑ k : Fin 2944, bP t (ix2 g k) * bH t (ix2 k d) = ∑ k ∈ Finset.range 2944, f (2944 * t.val + k) := by
    intro t
    rw [← Fin.sum_univ_eq_sum_range (fun k => f (2944 * t.val + k)) 2944]
    refine Finset.sum_congr rfl fun k _ => ?_
    rw [hP, hH]
    have hlt : 2944 * t.val + k.val < 50048 := by omega
    show _ = dite _ _ _
    rw [dif_pos hlt]
  -- after point n the accumulator holds the first n + 1 stretches
  have inv : ∀ (n : ℕ) (h : n < 17), a n h (ix2 g d) = ∑ t ∈ Finset.range (n + 1), ∑ k ∈ Finset.range 2944, f (2944 * t + k) := by
    intro n
    induction n with
    | zero =>
      intro h
      rw [h0, pay2_apply, pay1_apply, zero_add, blk 0, Finset.sum_range_one]
      rfl
    | succ n ih =>
      intro h
      rw [hs n h, pay2_apply, ih (by omega), blk ⟨n + 1, h⟩, Finset.sum_range_succ _ (n + 1)]
  rw [inv 16 (by decide), ← sum_range_blocks f 2944 17, Cert.Spec.pool_apply,
    show (2944 * 17 : ℕ) = 50048 from by norm_num, ← Fin.sum_univ_eq_sum_range f 50048]
  refine Finset.sum_congr rfl fun n _ => ?_
  show dite _ _ _ = _
  rw [dif_pos n.isLt]

end Cert.KernelIdeal.Hand

end
-- ==== Proof.KI.PoolValue.lean ====
/-
  The pooling call's value. A grid point t reads columns 2944·t … 2944·t + 2943 of the membership matrix and the same
  rows of the node rows: a block's coordinate is the block index times the block size plus the coordinate inside the
  block, and the two index maps send t to (0, t) and (t, 0). With the blocks read so, the accumulator's seventeen
  steps are the steps of the block-by-block product, and the accumulator after the last point is the membership matrix
  times the node rows, entry by entry on the extended reals.
-/
import proofs.«407579_j84164179132425_1_alg».proof.Proof.KI.Pool
import proofs.«407579_j84164179132425_1_alg».proof.Proof.KI.PoolFold
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- The two index maps over the seventeen grid points: the membership matrix moves along its columns, the node rows
    along their rows, one block per point. -/
theorem pool_index_facts : ∀ t : Fin cfg2.N, win2_0.index t (0 : Fin 2) = 0 ∧ win2_0.index t (1 : Fin 2) = t.val
    ∧ win2_1.index t (0 : Fin 2) = t.val ∧ win2_1.index t (1 : Fin 2) = 0 :=
  (by decide +kernel : ∀ t : Fin grid2.N, _)

/-- A grid point of the pooling call is one of seventeen. -/
theorem pool_point_lt (t : Fin cfg2.N) : t.val < 17 := lt_of_lt_of_eq t.isLt N_2

/-- The membership block at point t, entry (g, k), is the matrix at row g and column 2944·t + k. -/
theorem iblk2_0_apply (c : Dev nD) (t : Fin cfg2.N) (g : Fin 64) (k : Fin 2944) :
    (iblk2 V c 0 t : Vec F S64x2944 .f32) (ix2 g k)
      = (V c main_v36 : S64x50048.Idx → Elt F .f32) (ix2 g ⟨2944 * t.val + k.val, by have := pool_point_lt t; omega⟩) := by
  obtain ⟨e0, e1, -, -⟩ := pool_index_facts t
  unfold iblk2
  rw [View.read_apply]
  show V c main_v36 _ = V c main_v36 _
  congr 1
  funext a
  apply Fin.ext
  match a with
  | ⟨0, _⟩ => show win2_0.index t 0 * 64 + 1 * g.val = g.val; rw [e0]; omega
  | ⟨1, _⟩ => show win2_0.index t 1 * 2944 + 1 * k.val = 2944 * t.val + k.val; rw [e1]; omega

/-- The node-row block at point t, entry (k, d), is the node rows at row 2944·t + k and column d. -/
theorem iblk2_1_apply (c : Dev nD) (t : Fin cfg2.N) (k : Fin 2944) (d : Fin 256) :
    (iblk2 V c 1 t : Vec F S2944x256 .f32) (ix2 k d)
      = (V c main_v28 : S50048x256.Idx → Elt F .f32) (ix2 ⟨2944 * t.val + k.val, by have := pool_point_lt t; omega⟩ d) := by
  obtain ⟨-, -, e0, e1⟩ := pool_index_facts t
  unfold iblk2
  rw [View.read_apply]
  show V c main_v28 _ = V c main_v28 _
  congr 1
  funext a
  apply Fin.ext
  match a with
  | ⟨0, _⟩ => show win2_1.index t 0 * 2944 + 1 * k.val = 2944 * t.val + k.val; rw [e0]; omega
  | ⟨1, _⟩ => show win2_1.index t 1 * 256 + 1 * d.val = d.val; rw [e1]; omega

/-- The accumulator after the last grid point is the membership matrix times the node rows. -/
theorem pool_value (V : (c : Dev nD) → (b : Ref sig .tc) → Buf (Elt Ideal) ((c : Thread nD τ).loc b)) (c : Dev nD) :
    acc2 (F := Ideal) V c 16 (by decide) = Cert.Spec.pool (V c main_v36) (V c main_v28) :=
  pool_fold (V c main_v36) (V c main_v28)
    (fun t => iblk2 V c 0 ⟨t.val, lt_of_lt_of_eq t.isLt N_2.symm⟩)
    (fun t => iblk2 V c 1 ⟨t.val, lt_of_lt_of_eq t.isLt N_2.symm⟩)
    (fun t g k => iblk2_0_apply V c ⟨t.val, lt_of_lt_of_eq t.isLt N_2.symm⟩ g k)
    (fun t k d => iblk2_1_apply V c ⟨t.val, lt_of_lt_of_eq t.isLt N_2.symm⟩ k d)
    (fun n h => acc2 (F := Ideal) V c n (lt_of_lt_of_eq h N_2.symm))
    (acc2_zero (F := Ideal) V c)
    (fun n h => acc2_succ (F := Ideal) V c n (lt_of_lt_of_eq h N_2.symm))

end Cert.KernelIdeal.Hand

end
-- ==== Proof.RefRead.lean ====
/-
  The reference's run and its stages read at an index, as the generated modules state them; the hand lemmas that
  identify those stages with the specification live in the modules that import this one.
-/
import proofs.«407579_j84164179132425_1_alg».proof.Proof.Gen.ReferenceIdeal.Run
import proofs.«407579_j84164179132425_1_alg».proof.Proof.Gen.ReferenceIdeal.Read
-- ==== Proof.PoolLaw.lean ====
/-
  The per-graph sum, two ways. The kernel pads the 50000 node rows with 48 zero rows and the 50000 graph ids with 48
  ids of −1, builds the 0/1 membership matrix P[g, n] = [g = id n] (64 graphs against 50048 padded nodes), and takes
  P · H. The reference adds node row n into graph row (id n), dropping a row whose id is outside 0 … 63. Both are, at
  graph g and feature d, the sum of H[n, d] over the nodes n whose id is g.
-/
import proofs.«407579_j84164179132425_1_alg».proof.KernelIdeal
import proofs.«407579_j84164179132425_1_alg».proof.ReferenceIdeal
import proofs.«407579_j84164179132425_1_alg».proof.Proof.RefRead
import proofs.«407579_j84164179132425_1_alg».proof.Proof.Spec
import Idealize.ShloMosaic.Lib.ValueIdx
import Idealize.ShloMosaic.Lib.Pipeline.Value
import Idealize.ShloMosaic.Lib.StableHlo.Predicate
import Idealize.ShloMosaic.Lib.KernelVsHost
import Idealize.ShloMosaic.PureOps.Ideal.Laws

set_option maxRecDepth 16384

noncomputable section

open scoped BigOperators

namespace Cert.KernelIdeal.Hand

open Cert.KernelIdeal
open Idealize.ShloMosaic Idealize.ShloMosaic.ValueIdx Idealize.ShloMosaic.StableHlo.Predicate

variable [Facts₀]
open Facts₀

/-- The node rows with 48 rows of the padding value after them: the padding value is the integer 0 read as a float. -/
def padK (h : (⟨S50000x256, .f32⟩ : BufTy).Contents (Elt Ideal)) : (⟨S50048x256, .f32⟩ : BufTy).Contents (Elt Ideal) :=
  pad S50048x256 ![0, 0] ![48, 0] ![0, 0] h (sitofp (F := Ideal) .f32 (constantI S_ 32 0#32 : (⟨S_, .i32⟩ : BufTy).Contents (Elt Ideal)))
    pads_S50000x256_S50048x256_0480_000 h_S_

/-- The membership matrix: entry (g, n) is 1 when the word g equals the n-th graph id and 0 when it does not, the ids
    padded with 48 words of all ones (−1 read signed). -/
def onehotK (x2 : (⟨S50000, .i32⟩ : BufTy).Contents (Elt Ideal)) : (⟨S64x50048, .f32⟩ : BufTy).Contents (Elt Ideal) :=
  uitofp (F := Ideal) .f32 (cmpi .eq
    (broadcastInDim S64x50048 ![0, 1] bcast_S64x1_S64x50048_0_1 (broadcastInDim S64x1 ![0] bcast_S64_S64x1_0 (iotaInDim S64 32 0)))
    (broadcastInDim S64x50048 ![0, 1] bcast_S1x50048_S64x50048_0_1 (broadcastInDim S1x50048 ![1] bcast_S50048_S1x50048_1
      (pad S50048 ![0] ![48] ![0] x2 (id (constantI S_ 32 4294967295#32)) pads_S50000_S50048_0480 h_S_))))

/-! ## The padded node rows, read at an entry -/

/-- The padded node rows read at (n, d): row n of the node rows for n below 50000 … -/
theorem padK_apply_lt (h : (⟨S50000x256, .f32⟩ : BufTy).Contents (Elt Ideal)) (n : Fin 50048) (d : Fin 256) (hn : n.val < 50000) :
    padK h (ix2 n d) = h (ix2 (⟨n.val, hn⟩ : Fin 50000) d) := by
  unfold padK
  exact pad_apply_of_inside _ _ _ h _ _ _ _ (ix2 (⟨n.val, hn⟩ : Fin 50000) d) (fun a => by
    match a with
    | ⟨0, _⟩ => show n.val = 0 + n.val * (0 + 1); omega
    | ⟨1, _⟩ => show d.val = 0 + d.val * (0 + 1); omega)

/-- … and zero on the 48 rows after them. -/
theorem padK_apply_ge (h : (⟨S50000x256, .f32⟩ : BufTy).Contents (Elt Ideal)) (n : Fin 50048) (d : Fin 256) (hn : 50000 ≤ n.val) :
    padK h (ix2 n d) = 0 := by
  unfold padK
  rw [pad_apply_of_not_inside _ _ _ h _ _ _ (ix2 n d) (0 : Fin 2) (by
    show ¬(0 ≤ n.val ∧ (n.val - 0) % (0 + 1) = 0 ∧ (n.val - 0) / (0 + 1) < 50000)
    omega)]
  show ((((0#32 : BitVec 32).toInt : ℝ)) : EReal) = 0
  simp

/-! ## The reference's scatter: where update row n lands -/

section Scatter

/-- The reference's scatter record: the rows of the [50000, 256] updates go whole (axis 1 is the window axis) to the
    row of the [64, 256] operand that the [50000, 1] index column names (operand axis 0 is inserted). -/
abbrev graphScatter := Cert.ReferenceIdeal.scatter_S64x256_S50000x1_S50000x256_1_0_0_1

/-- On operand axis 0 the start of update (n, d') is the n-th graph id, read signed. -/
theorem graphScatter_start_row (x2 : (⟨S50000, .i32⟩ : BufTy).Contents (Elt Ideal)) (n : Fin 50000) (d' : Fin 256) :
    graphScatter.start (ix2 n d') (Cert.ReferenceIdeal.Read.val_main_v47 (F := Ideal) x2) 0 = (x2 (ix1 n)).toInt := by
  unfold ScatterDims.start
  rw [dif_pos (by decide)]
  rw [Cert.ReferenceIdeal.Read.val_main_v47_apply]
  refine congrArg (fun i => (x2 i).toInt) (funext fun a => ?_)
  match a with
  | ⟨0, _⟩ => exact Fin.ext rfl

/-- On operand axis 1, which no index names, the start is 0. -/
theorem graphScatter_start_col (x2 : (⟨S50000, .i32⟩ : BufTy).Contents (Elt Ideal)) (n : Fin 50000) (d' : Fin 256) :
    graphScatter.start (ix2 n d') (Cert.ReferenceIdeal.Read.val_main_v47 (F := Ideal) x2) 1 = 0 := by
  unfold ScatterDims.start
  rw [dif_neg (by decide)]

/-- The window coordinate is 0 on the inserted axis … -/
theorem graphScatter_window_row (n : Fin 50000) (d' : Fin 256) : graphScatter.window (ix2 n d') 0 = 0 := by
  unfold ScatterDims.window
  rw [dif_neg (by decide)]

/-- … and the update's own column on axis 1. -/
theorem graphScatter_window_col (n : Fin 50000) (d' : Fin 256) : graphScatter.window (ix2 n d') 1 = d'.val := by
  unfold ScatterDims.window
  rw [dif_pos (by decide)]
  rfl

/-- Update (n, d') lands on (g, d) exactly when the n-th graph id, read signed, is g and d' is d: an id outside
    0 … 63 lands nowhere. -/
theorem graphScatter_lands_iff (x2 : (⟨S50000, .i32⟩ : BufTy).Contents (Elt Ideal)) (n : Fin 50000) (d' : Fin 256) (g : Fin 64) (d : Fin 256) :
    graphScatter.resultIdx? (ix2 n d') (Cert.ReferenceIdeal.Read.val_main_v47 (F := Ideal) x2) = some (ix2 g d)
      ↔ (x2 (ix1 n)).toInt = (g.val : ℤ) ∧ d' = d := by
  have hg := g.isLt
  have hd := d.isLt
  have hd' := d'.isLt
  unfold ScatterDims.resultIdx?
  by_cases hin : ∀ a, 0 ≤ graphScatter.start (ix2 n d') (Cert.ReferenceIdeal.Read.val_main_v47 (F := Ideal) x2) a + graphScatter.window (ix2 n d') a
      ∧ graphScatter.start (ix2 n d') (Cert.ReferenceIdeal.Read.val_main_v47 (F := Ideal) x2) a + graphScatter.window (ix2 n d') a < (Cert.ReferenceIdeal.S64x256.size a : ℤ)
  · rw [dif_pos hin]
    constructor
    · intro e
      have e' := Option.some.inj e
      have e0 : (graphScatter.start (ix2 n d') (Cert.ReferenceIdeal.Read.val_main_v47 (F := Ideal) x2) 0 + (graphScatter.window (ix2 n d') 0 : ℤ)).toNat = g.val :=
        congrArg (fun i => (i 0).val) e'
      have e1 : (graphScatter.start (ix2 n d') (Cert.ReferenceIdeal.Read.val_main_v47 (F := Ideal) x2) 1 + (graphScatter.window (ix2 n d') 1 : ℤ)).toNat = d.val :=
        congrArg (fun i => (i 1).val) e'
      have h0 := (hin 0).1
      rw [graphScatter_start_row, graphScatter_window_row] at e0 h0
      rw [graphScatter_start_col, graphScatter_window_col] at e1
      exact ⟨by omega, Fin.ext (by omega)⟩
    · rintro ⟨e0, rfl⟩
      refine congrArg some (funext fun a => ?_)
      match a with
      | ⟨0, _⟩ =>
        refine Fin.ext ?_
        show (graphScatter.start (ix2 n d') (Cert.ReferenceIdeal.Read.val_main_v47 (F := Ideal) x2) 0 + (graphScatter.window (ix2 n d') 0 : ℤ)).toNat = g.val
        rw [graphScatter_start_row, graphScatter_window_row]; omega
      | ⟨1, _⟩ =>
        refine Fin.ext ?_
        show (graphScatter.start (ix2 n d') (Cert.ReferenceIdeal.Read.val_main_v47 (F := Ideal) x2) 1 + (graphScatter.window (ix2 n d') 1 : ℤ)).toNat = d'.val
        rw [graphScatter_start_col, graphScatter_window_col]; omega
  · rw [dif_neg hin]
    constructor
    · intro e; exact absurd e (by simp)
    · rintro ⟨e0, rfl⟩
      refine absurd (fun a => ?_) hin
      match a with
      | ⟨0, _⟩ =>
        show 0 ≤ graphScatter.start (ix2 n d') (Cert.ReferenceIdeal.Read.val_main_v47 (F := Ideal) x2) 0 + (graphScatter.window (ix2 n d') 0 : ℤ)
          ∧ graphScatter.start (ix2 n d') (Cert.ReferenceIdeal.Read.val_main_v47 (F := Ideal) x2) 0 + (graphScatter.window (ix2 n d') 0 : ℤ) < (64 : ℤ)
        rw [graphScatter_start_row, graphScatter_window_row]; omega
      | ⟨1, _⟩ =>
        show 0 ≤ graphScatter.start (ix2 n d') (Cert.ReferenceIdeal.Read.val_main_v47 (F := Ideal) x2) 1 + (graphScatter.window (ix2 n d') 1 : ℤ)
          ∧ graphScatter.start (ix2 n d') (Cert.ReferenceIdeal.Read.val_main_v47 (F := Ideal) x2) 1 + (graphScatter.window (ix2 n d') 1 : ℤ) < (256 : ℤ)
        rw [graphScatter_start_col, graphScatter_window_col]; omega

/-- The reference's per-graph sum at (g, d): the sum over the nodes n whose graph id, read signed, is g of row n's
    entry d. The operand is zero, and the sum over the updates that land on (g, d) is taken node by node: in node n's
    row only column d can land there. -/
theorem graphScatter_apply (x2 : (⟨S50000, .i32⟩ : BufTy).Contents (Elt Ideal)) (h : (⟨S50000x256, .f32⟩ : BufTy).Contents (Elt Ideal))
    (g : Fin 64) (d : Fin 256) :
    Host.scatterAdd (F := Ideal) (φ := .f32) graphScatter (Cert.ReferenceIdeal.Read.val_main_v46 (F := Ideal)) (Cert.ReferenceIdeal.Read.val_main_v47 (F := Ideal) x2) h (ix2 g d)
      = ∑ n : Fin 50000, if (x2 (ix1 n)).toInt = (g.val : ℤ) then h (ix2 n d) else 0 := by
  show Cert.ReferenceIdeal.Read.val_main_v46 (F := Ideal) (ix2 g d)
      + ∑ j ∈ Finset.univ.filter (fun j => graphScatter.resultIdx? j (Cert.ReferenceIdeal.Read.val_main_v47 (F := Ideal) x2) = some (ix2 g d)), h j = _
  have hz : Cert.ReferenceIdeal.Read.val_main_v46 (F := Ideal) (ix2 g d) = 0 := by
    rw [Cert.ReferenceIdeal.Read.val_main_v46_apply]
    exact Ideal.ofBits_zero_f32
  rw [hz, zero_add, Finset.sum_filter, sum_idx2]
  refine Finset.sum_congr rfl (fun n _ => ?_)
  by_cases hc : (x2 (ix1 n)).toInt = (g.val : ℤ)
  · rw [if_pos hc, Finset.sum_eq_single d (fun d' _ hne => if_neg (fun hl => hne ((graphScatter_lands_iff x2 n d' g d).mp hl).2))
      (fun hnot => absurd (Finset.mem_univ _) hnot), if_pos ((graphScatter_lands_iff x2 n d g d).mpr ⟨hc, rfl⟩)]
  · rw [if_neg hc]
    exact Finset.sum_eq_zero (fun d' _ => if_neg (fun hl => hc ((graphScatter_lands_iff x2 n d' g d).mp hl).1))

end Scatter

/-! ## The kernel's membership matrix, read at an entry -/

/-- The graph ids with 48 words of all ones after them. -/
def idsK (x2 : (⟨S50000, .i32⟩ : BufTy).Contents (Elt Ideal)) : (⟨S50048, .i32⟩ : BufTy).Contents (Elt Ideal) :=
  pad S50048 ![0] ![48] ![0] x2 (id (constantI S_ 32 4294967295#32)) pads_S50000_S50048_0480 h_S_

/-- The padded ids read at n below 50000: the n-th id. -/
theorem idsK_apply_lt (x2 : (⟨S50000, .i32⟩ : BufTy).Contents (Elt Ideal)) (n : Fin 50048) (hn : n.val < 50000) :
    idsK x2 (ix1 n) = x2 (ix1 (⟨n.val, hn⟩ : Fin 50000)) := by
  unfold idsK
  exact pad_apply_of_inside _ _ _ x2 _ _ _ _ (ix1 (⟨n.val, hn⟩ : Fin 50000)) (fun a => by
    match a with
    | ⟨0, _⟩ => show n.val = 0 + n.val * (0 + 1); omega)

/-- Entry (g, n) of the membership matrix: 1 when the word g is the n-th padded id, 0 when it is not. The row index
    is the iota laid down the rows, the column's id the padded ids laid along the columns, the compare's bit read
    unsigned. -/
theorem onehotK_apply (x2 : (⟨S50000, .i32⟩ : BufTy).Contents (Elt Ideal)) (g : Fin 64) (n : Fin 50048) :
    onehotK x2 (ix2 g n) = if BitVec.ofNat 32 g.val = idsK x2 (ix1 n) then (1 : EReal) else 0 := by
  have e : (ix2 g n : S64x50048.Idx) = ij g n := funext fun a => match a with | ⟨0, _⟩ => rfl | ⟨1, _⟩ => rfl
  have e1 : (Shape.Idx.ofFin n : S50048.Idx) = ix1 n := funext fun a => match a with | ⟨0, _⟩ => rfl
  unfold onehotK
  show (((IntOp.cmpi .eq
      (broadcastInDim S64x50048 ![0, 1] bcast_S64x1_S64x50048_0_1 (broadcastInDim S64x1 ![0] bcast_S64_S64x1_0 (iotaInDim S64 32 0)) (ix2 g n))
      (broadcastInDim S64x50048 ![0, 1] bcast_S1x50048_S64x50048_0_1 (broadcastInDim S1x50048 ![1] bcast_S50048_S1x50048_1 (idsK x2))
        (ix2 g n))).toNat : ℝ) : EReal) = _
  rw [e, bcast_rows, bcast_cols, iota_apply, e1]
  by_cases hc : BitVec.ofNat 32 g.val = idsK x2 (ix1 n)
  · rw [if_pos hc, cmpi_eq_iff.mpr hc]; simp
  · rw [if_neg hc, eq_zero_of_ne_one (fun h1 => hc (cmpi_eq_iff.mp h1))]; simp

/-- The word of a graph number g below 64 equals a word exactly when that word, read signed, is g. -/
theorem word_eq_iff (g : Fin 64) (w : BitVec 32) : BitVec.ofNat 32 g.val = w ↔ w.toInt = (g.val : ℤ) := by
  have hg := g.isLt
  constructor
  · intro e; rw [← e]; exact toInt_ofNat_small g.val (by omega)
  · intro e; exact BitVec.eq_of_toInt_eq (by rw [toInt_ofNat_small g.val (by omega), e])

/-! ## The two sums -/

/-- A sum over the 50048 padded nodes is the sum over the 50000 nodes plus the sum over the 48 padding rows. -/
theorem sum_nodes_split (f : Fin 50048 → EReal) :
    ∑ n : Fin 50048, f n = ∑ m : Fin 50000, f ⟨m.val, by omega⟩ + ∑ k : Fin 48, f ⟨50000 + k.val, by omega⟩ :=
  Fin.sum_univ_add (a := 50000) (b := 48) f

/-- A node's term of the matrix product: its row's entry d when its id, read signed, is g, and 0 when it is not
    (1 · y = y and 0 · y = 0 for every extended real y). -/
theorem term_node (x2 : (⟨S50000, .i32⟩ : BufTy).Contents (Elt Ideal)) (h : (⟨S50000x256, .f32⟩ : BufTy).Contents (Elt Ideal))
    (g : Fin 64) (d : Fin 256) (m : Fin 50000) :
    onehotK x2 (ix2 g (⟨m.val, by omega⟩ : Fin 50048)) * padK h (ix2 (⟨m.val, by omega⟩ : Fin 50048) d)
      = if (x2 (ix1 m)).toInt = (g.val : ℤ) then h (ix2 m d) else 0 := by
  rw [onehotK_apply, idsK_apply_lt x2 _ m.isLt, padK_apply_lt h _ d m.isLt]
  by_cases hc : (x2 (ix1 m)).toInt = (g.val : ℤ)
  · rw [if_pos hc, if_pos ((word_eq_iff g _).mpr hc), one_mul]
  · rw [if_neg hc, if_neg (fun e => hc ((word_eq_iff g _).mp e)), zero_mul]

/-- A padding row's term: its row of the padded node rows is zero. -/
theorem term_padding (x2 : (⟨S50000, .i32⟩ : BufTy).Contents (Elt Ideal)) (h : (⟨S50000x256, .f32⟩ : BufTy).Contents (Elt Ideal))
    (g : Fin 64) (d : Fin 256) (k : Fin 48) :
    onehotK x2 (ix2 g (⟨50000 + k.val, by omega⟩ : Fin 50048)) * padK h (ix2 (⟨50000 + k.val, by omega⟩ : Fin 50048) d) = 0 := by
  rw [padK_apply_ge h _ d (Nat.le_add_right 50000 k.val), mul_zero]

/-- THE POOLING LAW: the membership matrix times the padded node rows is the scatter-add of the node rows by graph id,
    from zero. At (g, d) both are the sum of the entries d of the rows whose graph id is g. -/
theorem pool_law (x2 : (⟨S50000, .i32⟩ : BufTy).Contents (Elt Ideal)) (h : (⟨S50000x256, .f32⟩ : BufTy).Contents (Elt Ideal)) :
    Cert.Spec.pool (onehotK x2) (padK h)
      = Host.scatterAdd (F := Ideal) (φ := .f32) Cert.ReferenceIdeal.scatter_S64x256_S50000x1_S50000x256_1_0_0_1
          (Cert.ReferenceIdeal.Read.val_main_v46 (F := Ideal)) (Cert.ReferenceIdeal.Read.val_main_v47 (F := Ideal) x2) h := by
  funext i
  obtain ⟨g, d, rfl⟩ : ∃ (g : Fin 64) (d : Fin 256), i = ix2 g d := ⟨i 0, i 1, eq_ix2 i⟩
  rw [Cert.Spec.pool_apply, graphScatter_apply, sum_nodes_split,
    Finset.sum_eq_zero (fun k _ => term_padding x2 h g d k), add_zero]
  exact Finset.sum_congr rfl (fun m _ => term_node x2 h g d m)

end Cert.KernelIdeal.Hand

end
-- ==== Proof.RefValue.lean ====
/-
  The reference's stages as whole-array mathematics.

  The reference runs two graph layers and a per-graph mean. A layer first adds to every node row the sum of its
  neighbours' rows (a gather along the edges followed by a scatter-add: kept here as the opaque host operations they
  are), then applies a two-layer perceptron with the rectifier. Read index by index, the perceptron's ten operations
  (a matrix product, a bias broadcast along rows, an addition, a maximum against a broadcast zero, and the same again)
  are exactly the specification's `mlp`: entry (r, c) is max (∑ₖ max (∑ⱼ X[r,j]·W₁[j,k] + b₁[k]) 0 · W₂[k,c] + b₂[c]) 0.
  The network's result is then the per-graph scatter-add of the second layer's rows divided by the broadcast node counts.
-/
import proofs.«407579_j84164179132425_1_alg».proof.Proof.RefRead
import proofs.«407579_j84164179132425_1_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The pieces between the perceptrons -/

/-- A layer's neighbourhood sum: every node row plus the rows of its in-neighbours, gathered along the edge list's
    sources and scatter-added at its targets into zeros. -/
def agg1R (h : (⟨S50000x256, .f32⟩ : BufTy).Contents (Elt Ideal)) (x1 : (⟨S2x800000, .i32⟩ : BufTy).Contents (Elt Ideal)) : (⟨S50000x256, .f32⟩ : BufTy).Contents (Elt Ideal) :=
  addf (F := Ideal) (φ := .f32) h (Host.scatterAdd (F := Ideal) (φ := .f32) scatter_S50000x256_S800000x1_S800000x256_1_0_0_1 (val_main_v32 (F := Ideal)) (val_main_v33 (F := Ideal) x1) (Host.gather gather_S50000x256_S800000x1_S800000x256_1_0_n_n_0_1_1256 h (val_main_v30 (F := Ideal) x1)))

/-- The per-graph sum: node rows scatter-added by graph id into zeros. -/
def poolR (h : (⟨S50000x256, .f32⟩ : BufTy).Contents (Elt Ideal)) (x2 : (⟨S50000, .i32⟩ : BufTy).Contents (Elt Ideal)) : (⟨S64x256, .f32⟩ : BufTy).Contents (Elt Ideal) :=
  Host.scatterAdd (F := Ideal) (φ := .f32) scatter_S64x256_S50000x1_S50000x256_1_0_0_1 (val_main_v46 (F := Ideal)) (val_main_v47 (F := Ideal) x2) h

/-- The mean: the per-graph sums divided by the graphs' node counts (at least one), broadcast along the features. -/
def tailR (s : (⟨S64x256, .f32⟩ : BufTy).Contents (Elt Ideal)) (x2 : (⟨S50000, .i32⟩ : BufTy).Contents (Elt Ideal)) : (⟨S64x256, .f32⟩ : BufTy).Contents (Elt Ideal) :=
  Host.divf (F := Ideal) (φ := .f32) s (val_main_v56 (F := Ideal) x2)

/-! ## Index bookkeeping: the stages' composed index maps, at an index given by its coordinates -/

/-- The second product's left operand is read at row r, column k. -/
theorem lidx20_ix (r : Fin 50000) (c k : Fin 256) : lidx_main_v20 (ix2 r c) k = ix2 r k :=
  funext fun a => Fin.ext (by match a with | ⟨0, _⟩ => rfl | ⟨1, _⟩ => rfl)
/-- The second product's right operand is read at row k, column c. -/
theorem ridx20_ix (r : Fin 50000) (c k : Fin 256) : ridx_main_v20 (ix2 r c) k = ix2 k c :=
  funext fun a => Fin.ext (by match a with | ⟨0, _⟩ => rfl | ⟨1, _⟩ => rfl)
/-- The first product's left operand is read at row r, column j. -/
theorem lidx15_ix (r : Fin 50000) (k : Fin 256) (j : Fin 128) : lidx_main_v15 (ix2 r k) j = ix2 r j :=
  funext fun a => Fin.ext (by match a with | ⟨0, _⟩ => rfl | ⟨1, _⟩ => rfl)
/-- The first product's right operand is read at row j, column k. -/
theorem ridx15_ix (r : Fin 50000) (k : Fin 256) (j : Fin 128) : ridx_main_v15 (ix2 r k) j = ix2 j k :=
  funext fun a => Fin.ext (by match a with | ⟨0, _⟩ => rfl | ⟨1, _⟩ => rfl)
/-- The first bias, broadcast to a row and then down the rows, is read at the column. -/
theorem idx16_17_ix (r : Fin 50000) (k : Fin 256) : idx_main_v16 (idx_main_v17 (ix2 r k)) = ix1 k :=
  funext fun a => Fin.ext (by match a with | ⟨0, _⟩ => rfl)
/-- The second bias, broadcast to a row and then down the rows, is read at the column. -/
theorem idx21_22_ix (r : Fin 50000) (c : Fin 256) : idx_main_v21 (idx_main_v22 (ix2 r c)) = ix1 c :=
  funext fun a => Fin.ext (by match a with | ⟨0, _⟩ => rfl)

/-- The fourth product's left operand is read at row r, column k. -/
theorem lidx41_ix (r : Fin 50000) (c k : Fin 256) : lidx_main_v41 (ix2 r c) k = ix2 r k :=
  funext fun a => Fin.ext (by match a with | ⟨0, _⟩ => rfl | ⟨1, _⟩ => rfl)
/-- The fourth product's right operand is read at row k, column c. -/
theorem ridx41_ix (r : Fin 50000) (c k : Fin 256) : ridx_main_v41 (ix2 r c) k = ix2 k c :=
  funext fun a => Fin.ext (by match a with | ⟨0, _⟩ => rfl | ⟨1, _⟩ => rfl)
/-- The third product's left operand is read at row r, column j. -/
theorem lidx36_ix (r : Fin 50000) (k j : Fin 256) : lidx_main_v36 (ix2 r k) j = ix2 r j :=
  funext fun a => Fin.ext (by match a with | ⟨0, _⟩ => rfl | ⟨1, _⟩ => rfl)
/-- The third product's right operand is read at row j, column k. -/
theorem ridx36_ix (r : Fin 50000) (k j : Fin 256) : ridx_main_v36 (ix2 r k) j = ix2 j k :=
  funext fun a => Fin.ext (by match a with | ⟨0, _⟩ => rfl | ⟨1, _⟩ => rfl)
/-- The third bias, broadcast to a row and then down the rows, is read at the column. -/
theorem idx37_38_ix (r : Fin 50000) (k : Fin 256) : idx_main_v37 (idx_main_v38 (ix2 r k)) = ix1 k :=
  funext fun a => Fin.ext (by match a with | ⟨0, _⟩ => rfl)
/-- The fourth bias, broadcast to a row and then down the rows, is read at the column. -/
theorem idx42_43_ix (r : Fin 50000) (c : Fin 256) : idx_main_v42 (idx_main_v43 (ix2 r c)) = ix1 c :=
  funext fun a => Fin.ext (by match a with | ⟨0, _⟩ => rfl)

/-! ## The two perceptrons are the specification's -/

/-- The first layer's perceptron, applied to the first neighbourhood sum, is `mlp` of it. -/
theorem ref_layer0 (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    val_main_v24 (F := Ideal) x0 x1 x3 x4 x5 x6 = Cert.Spec.mlp (val_main_v14 (F := Ideal) x0 x1) x3 x4 x5 x6 := by
  funext i
  obtain ⟨r, c, rfl⟩ : ∃ (r : Fin 50000) (c : Fin 256), i = ix2 r c := ⟨i 0, i 1, eq_ix2 i⟩
  rw [val_main_v24_apply, val_main_v23_apply, val_main_v20_apply, val_main_v22_apply, val_main_v21_apply,
    val_main_call1_v0_apply, val_main_call1_cst_apply]
  simp only [val_main_v19_apply, val_main_v18_apply, val_main_v15_apply, val_main_v17_apply, val_main_v16_apply,
    val_main_call0_v0_apply, val_main_call0_cst_apply, lidx20_ix, ridx20_ix, lidx15_ix, ridx15_ix, idx16_17_ix,
    idx21_22_ix, Ideal.addf_def, Ideal.maximumf_def, Ideal.ofBits_def, Ideal.ofBits_zero_f32]
  rfl

/-- The second layer's neighbourhood sum is the first layer's output plus its neighbours' rows. -/
theorem ref_agg1 (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    val_main_v35 (F := Ideal) x0 x1 x3 x4 x5 x6 = agg1R (val_main_v24 (F := Ideal) x0 x1 x3 x4 x5 x6) x1 := rfl

/-- The second layer's perceptron, applied to the second neighbourhood sum, is `mlp` of it. -/
theorem ref_layer1 (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) :
    val_main_v45 (F := Ideal) x0 x1 x3 x4 x5 x6 x7 x8 x9 x10 = Cert.Spec.mlp (val_main_v35 (F := Ideal) x0 x1 x3 x4 x5 x6) x7 x8 x9 x10 := by
  funext i
  obtain ⟨r, c, rfl⟩ : ∃ (r : Fin 50000) (c : Fin 256), i = ix2 r c := ⟨i 0, i 1, eq_ix2 i⟩
  rw [val_main_v45_apply, val_main_v44_apply, val_main_v41_apply, val_main_v43_apply, val_main_v42_apply,
    val_main_call3_v0_apply, val_main_call3_cst_apply]
  simp only [val_main_v40_apply, val_main_v39_apply, val_main_v36_apply, val_main_v38_apply, val_main_v37_apply,
    val_main_call2_v0_apply, val_main_call2_cst_apply, lidx41_ix, ridx41_ix, lidx36_ix, ridx36_ix, idx37_38_ix,
    idx42_43_ix, Ideal.addf_def, Ideal.maximumf_def, Ideal.ofBits_def, Ideal.ofBits_zero_f32]
  rfl

/-! ## The whole reference -/

/-- The reference's result: the mean over each graph of the second layer's rows, the layers being the specification's. -/
theorem ref_result (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) :
    val_main_v57 (F := Ideal) x0 x1 x2 x3 x4 x5 x6 x7 x8 x9 x10 =
      tailR (poolR (Cert.Spec.mlp (agg1R (Cert.Spec.mlp (val_main_v14 (F := Ideal) x0 x1) x3 x4 x5 x6) x1) x7 x8 x9 x10) x2) x2 := by
  rw [show val_main_v57 (F := Ideal) x0 x1 x2 x3 x4 x5 x6 x7 x8 x9 x10 =
      tailR (poolR (val_main_v45 (F := Ideal) x0 x1 x3 x4 x5 x6 x7 x8 x9 x10) x2) x2 from rfl,
    ref_layer1, ref_agg1, ref_layer0]

/-- The same for the run's result term, read from the launch contents of the arguments. -/
theorem ref_res (m : (ℓ : Loc nD τ sig) → Buf (Elt Ideal) ℓ) (c : Dev nD) :
    Cert.ReferenceIdeal.Value.res_main_v57 (F := Ideal) m c =
      tailR (poolR (Cert.Spec.mlp (agg1R (Cert.Spec.mlp (val_main_v14 (F := Ideal) (m ((c.tc : Thread nD τ).loc main_arg0)) (m ((c.tc : Thread nD τ).loc main_arg1))) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1))) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2))) (m ((c.tc : Thread nD τ).loc main_arg2)) := by
  rw [val_main_v57_eq, ref_result]

end Cert.ReferenceIdeal.RefValue

end
-- ==== Proof.KI.Bridge.lean ====
/-
  The kernel program's result, read off its run at the exact instance: the contents the run names for the result array,
  unfolded one item at a time, are the reference's own composition — the shared host operations (the neighbour sums, the
  counts, the final quotient) are literally the same functions in both programs, each perceptron call's output array is
  the two-layer perceptron of its input array (the row blocks of 1000 tile the 50000 rows), and the pooling call's output
  is the membership matrix times the padded node rows, which is the scatter-add of the node rows by graph id.
-/
import proofs.«407579_j84164179132425_1_alg».proof.Proof.KI.Run
import proofs.«407579_j84164179132425_1_alg».proof.Proof.KI.MlpValue0
import proofs.«407579_j84164179132425_1_alg».proof.Proof.KI.MlpValue1
import proofs.«407579_j84164179132425_1_alg».proof.Proof.KI.PoolValue
import proofs.«407579_j84164179132425_1_alg».proof.Proof.PoolLaw
import proofs.«407579_j84164179132425_1_alg».proof.Proof.RefValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

attribute [local irreducible] W2 W4 W10

/-! ## Before the first call: the edge lists and the first layer's aggregated input -/

theorem W1_v1 : W1 m c (Proc.devRef .tc main_v1) = Cert.ReferenceIdeal.Read.val_main_v1 (F := Ideal) (m ((c : Thread nD τ).loc main_arg1)) := by
  show StableHlo.after hostOps0 (W0 m c) (Proc.devRef .tc main_v1) = _
  after_results
  rfl

theorem W1_v3 : W1 m c (Proc.devRef .tc main_v3) = Cert.ReferenceIdeal.Read.val_main_v3 (F := Ideal) (m ((c : Thread nD τ).loc main_arg1)) := by
  show StableHlo.after hostOps0 (W0 m c) (Proc.devRef .tc main_v3) = _
  after_results
  rfl

set_option maxHeartbeats 2000000 in
theorem W1_v14 : W1 m c (Proc.devRef .tc main_v14)
    = Cert.ReferenceIdeal.Read.val_main_v14 (F := Ideal) (m ((c : Thread nD τ).loc main_arg0)) (m ((c : Thread nD τ).loc main_arg1)) := by
  show StableHlo.after hostOps0 (W0 m c) (Proc.devRef .tc main_v14) = _
  after_results
  unfold Cert.ReferenceIdeal.Read.val_main_v14 Cert.ReferenceIdeal.Read.val_main_v13 Cert.ReferenceIdeal.Read.val_main_v12 Cert.ReferenceIdeal.Read.val_main_v11 Cert.ReferenceIdeal.Read.val_main_cst Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v3 Cert.ReferenceIdeal.Read.val_main_v2 Cert.ReferenceIdeal.Read.val_main_v1 Cert.ReferenceIdeal.Read.val_main_v0
  rfl

/-! ## The first perceptron call's output -/

theorem W2_v15 : W2 m c (Proc.devRef .tc main_v15)
    = Cert.Spec.mlp (Cert.ReferenceIdeal.Read.val_main_v14 (F := Ideal) (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6)) := by
  refine (W2_arr m c 5).trans ((mlp0_value (V1 m) c).trans ?_)
  rw [show V1 m c main_v14 = _ from W1_v14 m c, show V1 m c main_arg3 = _ from W1_un m c main_arg3 (by decide),
    show V1 m c main_arg4 = _ from W1_un m c main_arg4 (by decide), show V1 m c main_arg5 = _ from W1_un m c main_arg5 (by decide),
    show V1 m c main_arg6 = _ from W1_un m c main_arg6 (by decide)]

/-! ## Between the calls: the second layer's aggregated input -/

set_option maxHeartbeats 2000000 in
theorem W3_v26 : W3 m c (Proc.devRef .tc main_v26)
    = Cert.ReferenceIdeal.RefValue.agg1R (W2 m c (Proc.devRef .tc main_v15)) (m ((c : Thread nD τ).loc main_arg1)) := by
  show StableHlo.after hostOps1 (W2 m c) (Proc.devRef .tc main_v26) = _
  after_results
  rw [W2_keep m c main_v1 (by decide), W2_keep m c main_v3 (by decide), W1_v1, W1_v3]
  unfold Cert.ReferenceIdeal.RefValue.agg1R Cert.ReferenceIdeal.Read.val_main_v33 Cert.ReferenceIdeal.Read.val_main_v32 Cert.ReferenceIdeal.Read.val_main_cst_3 Cert.ReferenceIdeal.Read.val_main_v30 Cert.ReferenceIdeal.Read.val_main_v29 Cert.ReferenceIdeal.Read.val_main_v28 Cert.ReferenceIdeal.Read.val_main_v27 Cert.ReferenceIdeal.Read.val_main_c_2 Cert.ReferenceIdeal.Read.val_main_v26 Cert.ReferenceIdeal.Read.val_main_v25 Cert.ReferenceIdeal.Read.val_main_c_1
  rfl

/-! ## The second perceptron call's output -/

theorem W4_v27 : W4 m c (Proc.devRef .tc main_v27)
    = Cert.Spec.mlp (W3 m c (Proc.devRef .tc main_v26)) (m ((c : Thread nD τ).loc main_arg7)) (m ((c : Thread nD τ).loc main_arg8)) (m ((c : Thread nD τ).loc main_arg9)) (m ((c : Thread nD τ).loc main_arg10)) := by
  refine (W4_arr m c 5).trans ((mlp1_value (V3 m) c).trans ?_)
  rw [show V3 m c main_arg7 = _ from W3_un m c main_arg7 (by decide) (by decide) (by decide), show V3 m c main_arg8 = _ from W3_un m c main_arg8 (by decide) (by decide) (by decide),
    show V3 m c main_arg9 = _ from W3_un m c main_arg9 (by decide) (by decide) (by decide), show V3 m c main_arg10 = _ from W3_un m c main_arg10 (by decide) (by decide) (by decide)]

/-! ## Before the pooling call: the padded node rows and the membership matrix -/

theorem W9_v28 : W9 m c (Proc.devRef .tc main_v28) = padK (W4 m c (Proc.devRef .tc main_v27)) := by
  rw [W9_of m c main_v28 (by decide), W8_of m c main_v28 (by decide), W7_of m c main_v28 (by decide)]
  show StableHlo.after hostOps2_1 (W5 m c) (Proc.devRef .tc main_v28) = _
  after_results
  rfl

theorem W9_v36 : W9 m c (Proc.devRef .tc main_v36) = onehotK (m ((c : Thread nD τ).loc main_arg2)) := by
  show StableHlo.after hostOps2_4 (W8 m c) (Proc.devRef .tc main_v36) = _
  after_results
  show onehotK (W4 m c (Proc.devRef .tc main_arg2)) = _
  rw [W4_un m c main_arg2 (by decide) (by decide) (by decide) (by decide)]

/-! ## The pooling call's output: the per-graph sums -/

theorem W10_v37 : W10 m c (Proc.devRef .tc main_v37)
    = Cert.ReferenceIdeal.RefValue.poolR (W4 m c (Proc.devRef .tc main_v27)) (m ((c : Thread nD τ).loc main_arg2)) := by
  refine (W10_arr m c 2).trans ((arrAt2_out (V9 m) c).trans ((pool_value (V9 m) c).trans ?_))
  rw [show V9 m c main_v36 = _ from W9_v36 m c, show V9 m c main_v28 = _ from W9_v28 m c]
  exact pool_law _ _

/-! ## After the calls: the means -/

theorem W10_arg2 : W10 m c (Proc.devRef .tc main_arg2) = (m ((c : Thread nD τ).loc main_arg2)) :=
  (W10_keep m c main_arg2 (by decide)).trans (W9_un m c main_arg2 (by decide) (by decide) (by decide) (by decide) (by decide) (by decide) (by decide) (by decide) (by decide))

set_option maxHeartbeats 2000000 in
theorem W11_v46 : W11 m c (Proc.devRef .tc main_v46)
    = Cert.ReferenceIdeal.RefValue.tailR (W10 m c (Proc.devRef .tc main_v37)) (m ((c : Thread nD τ).loc main_arg2)) := by
  show StableHlo.after hostOps3 (W10 m c) (Proc.devRef .tc main_v46) = _
  after_results
  rw [W10_arg2]
  unfold Cert.ReferenceIdeal.RefValue.tailR Cert.ReferenceIdeal.Read.val_main_v56 Cert.ReferenceIdeal.Read.val_main_v55 Cert.ReferenceIdeal.Read.val_main_v54 Cert.ReferenceIdeal.Read.val_main_v53 Cert.ReferenceIdeal.Read.val_main_cst_7 Cert.ReferenceIdeal.Read.val_main_v52 Cert.ReferenceIdeal.Read.val_main_v51 Cert.ReferenceIdeal.Read.val_main_v50 Cert.ReferenceIdeal.Read.val_main_cst_6 Cert.ReferenceIdeal.Read.val_main_v49 Cert.ReferenceIdeal.Read.val_main_cst_5
  rfl

/-- The result array after the run, as the reference's composition of the argument arrays. -/
theorem kernel_result : W11 m c (Proc.devRef .tc main_v46) = Cert.ReferenceIdeal.RefValue.tailR (Cert.ReferenceIdeal.RefValue.poolR (Cert.Spec.mlp (Cert.ReferenceIdeal.RefValue.agg1R (Cert.Spec.mlp (Cert.ReferenceIdeal.Read.val_main_v14 (F := Ideal) (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6))) (m ((c : Thread nD τ).loc main_arg1))) (m ((c : Thread nD τ).loc main_arg7)) (m ((c : Thread nD τ).loc main_arg8)) (m ((c : Thread nD τ).loc main_arg9)) (m ((c : Thread nD τ).loc main_arg10))) (m ((c : Thread nD τ).loc main_arg2))) (m ((c : Thread nD τ).loc main_arg2)) := by
  rw [W11_v46, W10_v37, W4_v27, W3_v26, W2_v15]

/-! ## The run with its result named -/

variable (ρ : Dev nD → PrngReg)

/-- Every execution of the kernel's program at the exact instance terminates without a fault with the result array at the
    reference's composition of the arguments and every argument array as launched. -/
theorem run_value : θ_run defs (onTc (τ := τ) (main (F := Ideal))) ⟨m, fun _ => 0, ρ⟩ (fun r => ∀ c : Dev nD,
      r.2.mem ((c.tc : Thread nD τ).loc main_v46) = Cert.ReferenceIdeal.RefValue.tailR (Cert.ReferenceIdeal.RefValue.poolR (Cert.Spec.mlp (Cert.ReferenceIdeal.RefValue.agg1R (Cert.Spec.mlp (Cert.ReferenceIdeal.Read.val_main_v14 (F := Ideal) (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6))) (m ((c : Thread nD τ).loc main_arg1))) (m ((c : Thread nD τ).loc main_arg7)) (m ((c : Thread nD τ).loc main_arg8)) (m ((c : Thread nD τ).loc main_arg9)) (m ((c : Thread nD τ).loc main_arg10))) (m ((c : Thread nD τ).loc main_arg2))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v46 (by decide))).trans (kernel_result m c),
    (h c _ (mem_uc main_arg0 (by decide))).trans (W11_un m c main_arg0 (by decide) (by decide) (by decide) (by decide) (by decide) (by decide) (by decide) (by decide) (by decide) (by decide) (by decide)),
    (h c _ (mem_uc main_arg1 (by decide))).trans (W11_un m c main_arg1 (by decide) (by decide) (by decide) (by decide) (by decide) (by decide) (by decide) (by decide) (by decide) (by decide) (by decide)),
    (h c _ (mem_uc main_arg2 (by decide))).trans (W11_un m c main_arg2 (by decide) (by decide) (by decide) (by decide) (by decide) (by decide) (by decide) (by decide) (by decide) (by decide) (by decide)),
    (h c _ (mem_uc main_arg3 (by decide))).trans (W11_un m c main_arg3 (by decide) (by decide) (by decide) (by decide) (by decide) (by decide) (by decide) (by decide) (by decide) (by decide) (by decide)),
    (h c _ (mem_uc main_arg4 (by decide))).trans (W11_un m c main_arg4 (by decide) (by decide) (by decide) (by decide) (by decide) (by decide) (by decide) (by decide) (by decide) (by decide) (by decide)),
    (h c _ (mem_uc main_arg5 (by decide))).trans (W11_un m c main_arg5 (by decide) (by decide) (by decide) (by decide) (by decide) (by decide) (by decide) (by decide) (by decide) (by decide) (by decide)),
    (h c _ (mem_uc main_arg6 (by decide))).trans (W11_un m c main_arg6 (by decide) (by decide) (by decide) (by decide) (by decide) (by decide) (by decide) (by decide) (by decide) (by decide) (by decide)),
    (h c _ (mem_uc main_arg7 (by decide))).trans (W11_un m c main_arg7 (by decide) (by decide) (by decide) (by decide) (by decide) (by decide) (by decide) (by decide) (by decide) (by decide) (by decide)),
    (h c _ (mem_uc main_arg8 (by decide))).trans (W11_un m c main_arg8 (by decide) (by decide) (by decide) (by decide) (by decide) (by decide) (by decide) (by decide) (by decide) (by decide) (by decide)),
    (h c _ (mem_uc main_arg9 (by decide))).trans (W11_un m c main_arg9 (by decide) (by decide) (by decide) (by decide) (by decide) (by decide) (by decide) (by decide) (by decide) (by decide) (by decide)),
    (h c _ (mem_uc main_arg10 (by decide))).trans (W11_un m c main_arg10 (by decide) (by decide) (by decide) (by decide) (by decide) (by decide) (by decide) (by decide) (by decide) (by decide) (by decide))⟩)
    (run_all m ρ)

end Cert.KernelIdeal.Hand

end
-- ==== Proof.lean ====
/-
  The certificate of the graph network's kernel against its reference: three frames, the (empty) idealization ledger, and
  the equality of results over the extended reals.

  Both programs aggregate neighbour rows, apply a two-layer perceptron with rectifiers, do both once more, sum the node
  rows per graph and divide by the graph's node count. The kernel's program runs each perceptron as a Pallas call over
  row blocks of 1000 nodes and the per-graph sum as a Pallas call that multiplies a 0/1 membership matrix by the node rows,
  accumulating over 17 column blocks; everything else is the same host operations in both. At the exact instance a change
  of float format is the identity and a matrix product is the plain sum of products, so each call's output array is the
  reference's own function of its input array, and the two results are one composition of the arguments. No law used
  needs finiteness: 0 · y = 0 and 1 · y = y hold for every extended real, and sums are only regrouped.

  The frames: each program terminates without a fault and leaves its arguments as launched; for the kernel's program,
  at both instances, this is read off one run that names every unscoped buffer's final contents; for the reference, off
  its run.
-/
import proofs.«407579_j84164179132425_1_alg».proof.Defs
import proofs.«407579_j84164179132425_1_alg».proof.Proof.Gen.Kernel
import proofs.«407579_j84164179132425_1_alg».proof.Proof.Gen.KernelIdeal
import proofs.«407579_j84164179132425_1_alg».proof.Proof.Gen.ReferenceIdeal
import proofs.«407579_j84164179132425_1_alg».proof.Proof.Gen.Pre_finite_inputs
import proofs.«407579_j84164179132425_1_alg».proof.Proof.K.Run
import proofs.«407579_j84164179132425_1_alg».proof.Proof.KI.Bridge
import proofs.«407579_j84164179132425_1_alg».proof.Proof.RefValue
import Idealize.ShloMosaic.Adequacy
import Idealize.ShloMosaic.Init

noncomputable section

namespace Cert.Proof

open Idealize.ShloMosaic Idealize.SL.Sem

/-- The word-level kernel program runs to the end and keeps its arguments. -/
theorem frame_kernel : Cert.frame_Kernel := fun m ρ _ => Cert.Kernel.Hand.frame_all m ρ

/-- So does its idealization. -/
theorem frame_kernelIdeal : Cert.frame_KernelIdeal := fun m ρ _ => Cert.KernelIdeal.Hand.frame_all m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result array: the kernel's run names it as
    the reference's composition of the kernel's arguments, the reference's run as the same composition of its own. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.RefValue.ref_res m' c, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
